-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S128x2048 : Shape := ⟨2, ![128, 2048]⟩
abbrev S2048 : Shape := ⟨1, ![2048]⟩
abbrev S16x128x6 : Shape := ⟨3, ![16, 128, 6]⟩
abbrev S6 : Shape := ⟨1, ![6]⟩
abbrev S65536 : Shape := ⟨1, ![65536]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S2048 : S_.BroadcastsInDim S2048 (![] : Fin 0 → Fin S2048.rank)
  reducesTo_S2048_S_d0 : S2048.ReducesTo [0] S_
  bcast_S_S16x128x6 : S_.BroadcastsInDim S16x128x6 (![] : Fin 0 → Fin S16x128x6.rank)
  reducesTo_S16x128x6_S_d0_1_2 : S16x128x6.ReducesTo [0, 1, 2] S_
  bcast_S_S6 : S_.BroadcastsInDim S6 (![] : Fin 0 → Fin S6.rank)
  reducesTo_S6_S_d0 : S6.ReducesTo [0] S_
  bcast_S_S65536 : S_.BroadcastsInDim S65536 (![] : Fin 0 → Fin S65536.rank)
  reducesTo_S65536_S_d0 : S65536.ReducesTo [0] S_

variable [Facts]

def fn_part2 {F : FTy → Type} [FloatOps F] (main_v28 : IVec S_ 1) (main_v33 : IVec S65536 1) : IVec S_ 1 :=
  let main_c_12 : IVec S_ 1 := constantI S_ 1 1#1
  let main_v34 : IVec S_ 1 := (fun x v => Host.reduce IntOp.andi x v reducesTo_S65536_S_d0 h_S_) main_v33 main_c_12
  let main_v35 : IVec S_ 1 := andi main_v28 main_v34
  main_v35

def fn_part1 {F : FTy → Type} [FloatOps F] (main_arg4 : FVec F S16x128x6 .f32) (main_arg5 : FVec F S6 .f32) (main_arg6 : IVec S65536 32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S16x128x6 .f32 := Host.absf main_arg4
  let main_cst_6 : FVec F S_ .f32 := constant S_ .f32 0x7F800000#32
  let main_v20 : FVec F S16x128x6 .f32 := broadcastInDim S16x128x6 ![] bcast_S_S16x128x6 main_cst_6
  let main_v21 : IVec S16x128x6 1 := cmpf .olt main_v19 main_v20
  let main_c_7 : IVec S_ 1 := constantI S_ 1 1#1
  let main_v22 : IVec S_ 1 := (fun x v => Host.reduce IntOp.andi x v reducesTo_S16x128x6_S_d0_1_2 h_S_) main_v21 main_c_7
  let main_v23 : IVec S_ 1 := andi main_v18 main_v22
  let main_v24 : FVec F S6 .f32 := Host.absf main_arg5
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_c_10 : IVec S_ 32 := constantI S_ 32 0#32
  let main_v29 : IVec S65536 32 := broadcastInDim S65536 ![] bcast_S_S65536 main_c_10
  let main_v30 : IVec S65536 1 := cmpi .sge main_arg6 main_v29
  let main_c_11 : IVec S_ 32 := constantI S_ 32 16#32
  let main_v31 : IVec S65536 32 := broadcastInDim S65536 ![] bcast_S_S65536 main_c_11
  let main_v32 : IVec S65536 1 := cmpi .slt main_arg6 main_v31
  let main_v33 : IVec S65536 1 := andi main_v30 main_v32
  fn_part2 (F := F) main_v28 main_v33

def fn {F : FTy → Type} [FloatOps F] (main_arg0 : FVec F S65536x128 .f32) (main_arg1 : FVec F S128x2048 .f32) (main_arg2 : FVec F S2048 .f32) (main_arg3 : FVec F S2048 .f32) (main_arg4 : FVec F S16x128x6 .f32) (main_arg5 : FVec F S6 .f32) (main_arg6 : IVec S65536 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S65536x128 : Shape := ⟨2, ![65536, 128]⟩
abbrev S128x2048 : Shape := ⟨2, ![128, 2048]⟩
abbrev S2048 : Shape := ⟨1, ![2048]⟩
abbrev S16x128x6 : Shape := ⟨3, ![16, 128, 6]⟩
abbrev S6 : Shape := ⟨1, ![6]⟩
abbrev S65536 : Shape := ⟨1, ![65536]⟩
abbrev S16 : Shape := ⟨1, ![16]⟩
abbrev S2x1x128 : Shape := ⟨3, ![2, 1, 128]⟩
abbrev S2x128x128 : Shape := ⟨3, ![2, 128, 128]⟩
abbrev S4096x128 : Shape := ⟨2, ![4096, 128]⟩
abbrev S1x1x128 : Shape := ⟨3, ![1, 1, 128]⟩
abbrev S1x128x128 : Shape := ⟨3, ![1, 128, 128]⟩
abbrev S1x128 : Shape := ⟨2, ![1, 128]⟩
abbrev S128x128 : Shape := ⟨2, ![128, 128]⟩
abbrev S128 : Shape := ⟨1, ![128]⟩
abbrev S_ : Shape := ⟨0, ![]⟩
abbrev S1x2048 : Shape := ⟨2, ![1, 2048]⟩
abbrev S1x6 : Shape := ⟨2, ![1, 6]⟩
abbrev S65536x1 : Shape := ⟨2, ![65536, 1]⟩
abbrev S128x16x6 : Shape := ⟨3, ![128, 16, 6]⟩
abbrev S128x96 : Shape := ⟨2, ![128, 96]⟩
abbrev S1x16 : Shape := ⟨2, ![1, 16]⟩
abbrev S65536x54 : Shape := ⟨2, ![65536, 54]⟩
abbrev S1024x128 : Shape := ⟨2, ![1024, 128]⟩
abbrev S1024x1 : Shape := ⟨2, ![1024, 1]⟩
abbrev S1024x54 : Shape := ⟨2, ![1024, 54]⟩
abbrev S1024x2048 : Shape := ⟨2, ![1024, 2048]⟩
abbrev S1024x16 : Shape := ⟨2, ![1024, 16]⟩
abbrev S1024x96 : Shape := ⟨2, ![1024, 96]⟩
abbrev S1024x6 : Shape := ⟨2, ![1024, 6]⟩
abbrev S1024 : Shape := ⟨1, ![1024]⟩

abbrev nBuf : Space → Nat
  | .hbm => 41
  | .vmem => 21
  | .smem => 0
  | _ => 0

abbrev bufTy : (tb : Table) → Fin (tcTables nBuf tb) → BufTy
  | .hbm, ⟨0, _⟩ => ⟨S65536x128, .f32⟩
  | .hbm, ⟨1, _⟩ => ⟨S128x2048, .f32⟩
  | .hbm, ⟨2, _⟩ => ⟨S2048, .f32⟩
  | .hbm, ⟨3, _⟩ => ⟨S2048, .f32⟩
  | .hbm, ⟨4, _⟩ => ⟨S16x128x6, .f32⟩
  | .hbm, ⟨5, _⟩ => ⟨S6, .f32⟩
  | .hbm, ⟨6, _⟩ => ⟨S65536, .i32⟩
  | .hbm, ⟨7, _⟩ => ⟨S16, .f32⟩
  | .hbm, ⟨8, _⟩ => ⟨S16, .f32⟩
  | .hbm, ⟨9, _⟩ => ⟨S2x1x128, .f32⟩
  | .hbm, ⟨10, _⟩ => ⟨S2x128x128, .f32⟩
  | .hbm, ⟨11, _⟩ => ⟨S_, .f32⟩
  | .hbm, ⟨12, _⟩ => ⟨S1x128, .f32⟩
  | .hbm, ⟨13, _⟩ => ⟨S_, .f32⟩
  | .hbm, ⟨14, _⟩ => ⟨S128x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S1x2048, .f32⟩
  | .hbm, ⟨22, _⟩ => ⟨S128x2048, .f32⟩
  | .hbm, ⟨23, _⟩ => ⟨S128x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x6, .f32⟩
  | .hbm, ⟨35, _⟩ => ⟨S65536x1, .i32⟩
  | .hbm, ⟨36, _⟩ => ⟨S128x16x6, .f32⟩
  | .hbm, ⟨37, _⟩ => ⟨S128x96, .f32⟩
  | .hbm, ⟨38, _⟩ => ⟨S1x16, .f32⟩
  | .hbm, ⟨39, _⟩ => ⟨S1x16, .f32⟩
  | .hbm, ⟨40, _⟩ => ⟨S65536x54, .f32⟩
  | .local _ .vmem, ⟨0, _⟩ => ⟨S4096x128, .f32⟩
  | .local _ .vmem, ⟨1, _⟩ => ⟨S4096x128, .f32⟩
  | .local _ .vmem, ⟨2, _⟩ => ⟨S1x1x128, .f32⟩
  | .local _ .vmem, ⟨3, _⟩ => ⟨S1x1x128, .f32⟩
  | .local _ .vmem, ⟨4, _⟩ => ⟨S1x128x128, .f32⟩
  | .local _ .vmem, ⟨5, _⟩ => ⟨S1x128x128, .f32⟩
  | .local _ .vmem, ⟨6, _⟩ => ⟨S1024x128, .f32⟩
  | .local _ .vmem, ⟨7, _⟩ => ⟨S1024x128, .f32⟩
  | .local _ .vmem, ⟨8, _⟩ => ⟨S128x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S128x96, .f32⟩
  | .local _ .vmem, ⟨14, _⟩ => ⟨S1x6, .f32⟩
  | .local _ .vmem, ⟨15, _⟩ => ⟨S1024x1, .i32⟩
  | .local _ .vmem, ⟨16, _⟩ => ⟨S1024x1, .i32⟩
  | .local _ .vmem, ⟨17, _⟩ => ⟨S1x16, .f32⟩
  | .local _ .vmem, ⟨18, _⟩ => ⟨S1x16, .f32⟩
  | .local _ .vmem, ⟨19, _⟩ => ⟨S1024x54, .f32⟩
  | .local _ .vmem, ⟨20, _⟩ => ⟨S1024x54, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0_0 : Ref sig .tc := ⟨.hbm, 9, rfl⟩
abbrev main_v0_1 : Ref sig .tc := ⟨.hbm, 10, rfl⟩
abbrev main_cst_1 : Ref sig .tc := ⟨.hbm, 11, rfl⟩
abbrev main_v1 : Ref sig .tc := ⟨.hbm, 12, rfl⟩
abbrev main_cst_2 : Ref sig .tc := ⟨.hbm, 13, rfl⟩
abbrev main_v2 : Ref sig .tc := ⟨.hbm, 14, rfl⟩
abbrev main_cst_3 : Ref sig .tc := ⟨.hbm, 15, rfl⟩
abbrev main_v3 : Ref sig .tc := ⟨.hbm, 16, rfl⟩
abbrev main_v4 : Ref sig .tc := ⟨.hbm, 17, rfl⟩
abbrev main_cst_4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16
abbrev cc1_sem9_0 : DmaSem sig := 17
abbrev cc1_sem10_0 : DmaSem sig := 18
abbrev cc1_sem11_0 : DmaSem sig := 19
abbrev cc1_sem11_1 : DmaSem sig := 20

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x6 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x1 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1024x54 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S4096x128_S4096x128_0_0 : ∀ a, (![0, 0] : Fin 2 → Nat) a + S4096x128.size a ≤ S4096x128.size a
  h_S4096x128 : 0 < S4096x128.numel
  reduces_S4096x128_S128 : S4096x128.Reduces [0] S128
  shapeCasts_S128_S1x128 : S128.ShapeCasts S1x128
  reducesTo_S2x1x128_S1x128_d0 : S2x1x128.ReducesTo [0] S1x128
  h_S_ : 0 < S_.numel
  reducesTo_S2x128x128_S128x128_d0 : S2x128x128.ReducesTo [0] S128x128
  bcast_S_S1x128 : S_.BroadcastsInDim S1x128 (![] : Fin 0 → Fin S1x128.rank)
  bcast_S_S128x128 : S_.BroadcastsInDim S128x128 (![] : Fin 0 → Fin S128x128.rank)
  reducesTo_S128x2048_S2048_d0 : S128x2048.ReducesTo [0] S2048
  bcast_S2048_S1x2048_1 : S2048.BroadcastsInDim S1x2048 (![1] : Fin 1 → Fin S1x2048.rank)
  bcast_S_S1x2048 : S_.BroadcastsInDim S1x2048 (![] : Fin 0 → Fin S1x2048.rank)
  shapeCasts_S2048_S1x2048 : S2048.ShapeCasts S1x2048
  shapeCasts_S6_S1x6 : S6.ShapeCasts S1x6
  shapeCasts_S65536_S65536x1 : S65536.ShapeCasts S65536x1
  transposes_S16x128x6_S128x16x6_1_0_2 : S16x128x6.Transposes [1, 0, 2] S128x16x6
  shapeCasts_S128x16x6_S128x96 : S128x16x6.ShapeCasts S128x96
  shapeCasts_S16_S1x16 : S16.ShapeCasts S1x16
  inb_S1024x128_S1024x128_0_0 : ∀ a, (![0, 0] : Fin 2 → Nat) a + S1024x128.size a ≤ S1024x128.size a
  h_S1024x128 : 0 < S1024x128.numel
  inb_S128x2048_S128x2048_0_0 : ∀ a, (![0, 0] : Fin 2 → Nat) a + S128x2048.size a ≤ S128x2048.size a
  h_S128x2048 : 0 < S128x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x16_d1_w32 : S1024x16.Iotas .tc 32 [1]
  broadcasts_S1024x1_S1024x16 : S1024x1.Broadcasts S1024x16
  natLt_1_32 : 1 < 32
  slices_S1024x16_o0_0_S1024x1 : S1024x16.Slices ![0, 0] S1024x1
  slices_S1024x2048_o0_0_S1024x128 : S1024x2048.Slices ![0, 0] S1024x128
  broadcasts_S1024x1_S1024x128 : S1024x1.Broadcasts S1024x128
  slices_S1024x16_o0_1_S1024x1 : S1024x16.Slices ![0, 1] S1024x1
  slices_S1024x2048_o0_128_S1024x128 : S1024x2048.Slices ![0, 128] S1024x128
  slices_S1024x16_o0_2_S1024x1 : S1024x16.Slices ![0, 2] S1024x1
  slices_S1024x2048_o0_256_S1024x128 : S1024x2048.Slices ![0, 256] S1024x128
  slices_S1024x16_o0_3_S1024x1 : S1024x16.Slices ![0, 3] S1024x1
  slices_S1024x2048_o0_384_S1024x128 : S1024x2048.Slices ![0, 384] S1024x128
  slices_S1024x16_o0_4_S1024x1 : S1024x16.Slices ![0, 4] S1024x1
  slices_S1024x2048_o0_512_S1024x128 : S1024x2048.Slices ![0, 512] S1024x128
  slices_S1024x16_o0_5_S1024x1 : S1024x16.Slices ![0, 5] S1024x1
  slices_S1024x2048_o0_640_S1024x128 : S1024x2048.Slices ![0, 640] S1024x128
  slices_S1024x16_o0_6_S1024x1 : S1024x16.Slices ![0, 6] S1024x1
  slices_S1024x2048_o0_768_S1024x128 : S1024x2048.Slices ![0, 768] S1024x128
  slices_S1024x16_o0_7_S1024x1 : S1024x16.Slices ![0, 7] S1024x1
  slices_S1024x2048_o0_896_S1024x128 : S1024x2048.Slices ![0, 896] S1024x128
  slices_S1024x16_o0_8_S1024x1 : S1024x16.Slices ![0, 8] S1024x1
  slices_S1024x2048_o0_1024_S1024x128 : S1024x2048.Slices ![0, 1024] S1024x128
  slices_S1024x16_o0_9_S1024x1 : S1024x16.Slices ![0, 9] S1024x1
  slices_S1024x2048_o0_1152_S1024x128 : S1024x2048.Slices ![0, 1152] S1024x128
  slices_S1024x16_o0_10_S1024x1 : S1024x16.Slices ![0, 10] S1024x1
  slices_S1024x2048_o0_1280_S1024x128 : S1024x2048.Slices ![0, 1280] S1024x128
  slices_S1024x16_o0_11_S1024x1 : S1024x16.Slices ![0, 11] S1024x1
  slices_S1024x2048_o0_1408_S1024x128 : S1024x2048.Slices ![0, 1408] S1024x128
  slices_S1024x16_o0_12_S1024x1 : S1024x16.Slices ![0, 12] S1024x1
  slices_S1024x2048_o0_1536_S1024x128 : S1024x2048.Slices ![0, 1536] S1024x128
  slices_S1024x16_o0_13_S1024x1 : S1024x16.Slices ![0, 13] S1024x1
  slices_S1024x2048_o0_1664_S1024x128 : S1024x2048.Slices ![0, 1664] S1024x128
  slices_S1024x16_o0_14_S1024x1 : S1024x16.Slices ![0, 14] S1024x1
  slices_S1024x2048_o0_1792_S1024x128 : S1024x2048.Slices ![0, 1792] S1024x128
  slices_S1024x16_o0_15_S1024x1 : S1024x16.Slices ![0, 15] S1024x1
  slices_S1024x2048_o0_1920_S1024x128 : S1024x2048.Slices ![0, 1920] S1024x128
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  shapeCasts_S128x96_S128x96 : S128x96.ShapeCasts S128x96
  slices_S1024x96_o0_0_S1024x6 : S1024x96.Slices ![0, 0] S1024x6
  broadcasts_S1024x1_S1024x6 : S1024x1.Broadcasts S1024x6
  slices_S1024x96_o0_6_S1024x6 : S1024x96.Slices ![0, 6] S1024x6
  slices_S1024x96_o0_12_S1024x6 : S1024x96.Slices ![0, 12] S1024x6
  slices_S1024x96_o0_18_S1024x6 : S1024x96.Slices ![0, 18] S1024x6
  slices_S1024x96_o0_24_S1024x6 : S1024x96.Slices ![0, 24] S1024x6
  slices_S1024x96_o0_30_S1024x6 : S1024x96.Slices ![0, 30] S1024x6
  slices_S1024x96_o0_36_S1024x6 : S1024x96.Slices ![0, 36] S1024x6
  slices_S1024x96_o0_42_S1024x6 : S1024x96.Slices ![0, 42] S1024x6
  slices_S1024x96_o0_48_S1024x6 : S1024x96.Slices ![0, 48] S1024x6
  slices_S1024x96_o0_54_S1024x6 : S1024x96.Slices ![0, 54] S1024x6
  slices_S1024x96_o0_60_S1024x6 : S1024x96.Slices ![0, 60] S1024x6
  slices_S1024x96_o0_66_S1024x6 : S1024x96.Slices ![0, 66] S1024x6
  slices_S1024x96_o0_72_S1024x6 : S1024x96.Slices ![0, 72] S1024x6
  slices_S1024x96_o0_78_S1024x6 : S1024x96.Slices ![0, 78] S1024x6
  slices_S1024x96_o0_84_S1024x6 : S1024x96.Slices ![0, 84] S1024x6
  slices_S1024x96_o0_90_S1024x6 : S1024x96.Slices ![0, 90] S1024x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S1024x6 : S1x6.Broadcasts S1024x6
  reduces_S1024x6_S1024 : S1024x6.Reduces [1] S1024
  shapeCasts_S1024_S1024x1 : S1024.ShapeCasts S1024x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  reduces_S1024x16_S1024 : S1024x16.Reduces [1] S1024
  iota_S1024x54_d1_w32 : S1024x54.Iotas .tc 32 [1]
  slices_S1024x6_o0_0_S1024x1 : S1024x6.Slices ![0, 0] S1024x1
  broadcasts_S1024x1_S1024x54 : S1024x1.Broadcasts S1024x54
  slices_S1024x6_o0_1_S1024x1 : S1024x6.Slices ![0, 1] S1024x1
  slices_S1024x6_o0_2_S1024x1 : S1024x6.Slices ![0, 2] S1024x1
  slices_S1024x6_o0_3_S1024x1 : S1024x6.Slices ![0, 3] S1024x1
  slices_S1024x6_o0_4_S1024x1 : S1024x6.Slices ![0, 4] S1024x1
  slices_S1024x6_o0_5_S1024x1 : S1024x6.Slices ![0, 5] S1024x1
  inb_S1024x54_S1024x54_0_0 : ∀ a, (![0, 0] : Fin 2 → Nat) a + S1024x54.size a ≤ S1024x54.size a
  h_S1024x54 : 0 < S1024x54.numel
  dot_S4096x128_S4096x128_S128x128_0_0_1_1_n_n_wf : DotDims.WF S4096x128 S4096x128 S128x128 [0] [0] [1] [1] [] []
  dot_S1x128_S128x2048_S1x2048_1_0_0_1_n_n_wf : DotDims.WF S1x128 S128x2048 S1x2048 [1] [0] [0] [1] [] []
  dot_S128x128_S128x2048_S128x2048_1_0_0_1_n_n_wf : DotDims.WF S128x128 S128x2048 S128x2048 [1] [0] [0] [1] [] []
  dot_S1024x128_S128x2048_S1024x2048_1_0_0_1_n_n_wf : DotDims.WF S1024x128 S128x2048 S1024x2048 [1] [0] [0] [1] [] []
  dot_S1024x128_S128x96_S1024x96_1_0_0_1_n_n_wf : DotDims.WF S1024x128 S128x96 S1024x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S2x1x128.size a
  hwx0_1 : ∀ i : grid0.Coords, EltTy.bits .f32 = 32 ∨ (Rect.block (s := S2x1x128) S1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S65536x128.size a
  hwx1_0 : ∀ i : grid1.Coords, EltTy.bits .f32 = 32 ∨ (Rect.block (s := S65536x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S128x2048.size a
  hwx1_1 : ∀ i : grid1.Coords, EltTy.bits .f32 = 32 ∨ (Rect.block (s := S128x2048) S128x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x96.size a ≤ S128x96.size a
  hwx1_6 : ∀ i : grid1.Coords, EltTy.bits .f32 = 32 ∨ (Rect.block (s := S128x96) S128x96.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x6.size a ≤ S1x6.size a
  hwx1_7 : ∀ i : grid1.Coords, EltTy.bits .f32 = 32 ∨ (Rect.block (s := S1x6) S1x6.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x1.size a ≤ S65536x1.size a
  hwx1_8 : ∀ i : grid1.Coords, EltTy.bits .i32 = 32 ∨ (Rect.block (s := S65536x1) S1024x1.size (cc1_transform_8 i) (hinb1_8 i)).WholeWords (EltTy.packing .i32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x16.size a ≤ S1x16.size a
  hwx1_9 : ∀ i : grid1.Coords, EltTy.bits .f32 = 32 ∨ (Rect.block (s := S1x16) S1x16.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x16.size a ≤ S1x16.size a
  hwx1_10 : ∀ i : grid1.Coords, EltTy.bits .f32 = 32 ∨ (Rect.block (s := S1x16) S1x16.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1024x54.size a ≤ S65536x54.size a
  hwx1_11 : ∀ i : grid1.Coords, EltTy.bits .f32 = 32 ∨ (Rect.block (s := S65536x54) S1024x54.size (cc1_transform_11 i) (hinb1_11 i)).WholeWords (EltTy.packing .f32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S1x128_S128x2048_S1x2048_1_0_0_1_n_n : DotDims S1x128 S128x2048 S1x2048 where
  lhsContracting := [1]
  rhsContracting := [0]
  lhsNonContracting := [0]
  rhsNonContracting := [1]
  lhsBatch := []
  rhsBatch := []
  wf := dot_S1x128_S128x2048_S1x2048_1_0_0_1_n_n_wf
def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x128_S128x96_S1024x96_1_0_0_1_n_n : DotDims S1024x128 S128x96 S1024x96 where
  lhsContracting := [1]
  rhsContracting := [0]
  lhsNonContracting := [0]
  rhsNonContracting := [1]
  lhsBatch := []
  rhsBatch := []
  wf := dot_S1024x128_S128x96_S1024x96_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S128x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1x6.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1024x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v22) S1x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v23) S1x16.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v24) S1024x54.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S65536x128 : Shape := ⟨2, ![65536, 128]⟩
abbrev S128x2048 : Shape := ⟨2, ![128, 2048]⟩
abbrev S2048 : Shape := ⟨1, ![2048]⟩
abbrev S16x128x6 : Shape := ⟨3, ![16, 128, 6]⟩
abbrev S6 : Shape := ⟨1, ![6]⟩
abbrev S65536 : Shape := ⟨1, ![65536]⟩
abbrev S16 : Shape := ⟨1, ![16]⟩
abbrev S65536x2048 : Shape := ⟨2, ![65536, 2048]⟩
abbrev S_ : Shape := ⟨0, ![]⟩
abbrev S1x2048 : Shape := ⟨2, ![1, 2048]⟩
abbrev S65536x16x128 : Shape := ⟨3, ![65536, 16, 128]⟩
abbrev S16x65536x128 : Shape := ⟨3, ![16, 65536, 128]⟩
abbrev S16x65536x6 : Shape := ⟨3, ![16, 65536, 6]⟩
abbrev S1x1x6 : Shape := ⟨3, ![1, 1, 6]⟩
abbrev S65536x1 : Shape := ⟨2, ![65536, 1]⟩
abbrev S65536x2 : Shape := ⟨2, ![65536, 2]⟩
abbrev S65536x6 : Shape := ⟨2, ![65536, 6]⟩
abbrev S1x6 : Shape := ⟨2, ![1, 6]⟩
abbrev S65536x54 : Shape := ⟨2, ![65536, 54]⟩
abbrev S65536x6x1 : Shape := ⟨3, ![65536, 6, 1]⟩
abbrev S65536x6x2 : Shape := ⟨3, ![65536, 6, 2]⟩

abbrev nBuf : Space → Nat
  | .hbm => 164
  | .vmem => 0
  | .smem => 0
  | _ => 0

abbrev hbmTy0_0 (i : Nat) : BufTy := match i % 128 with
  | 0 => ⟨S65536x128, .f32⟩
  | 1 => ⟨S128x2048, .f32⟩
  | 2 => ⟨S2048, .f32⟩
  | 3 => ⟨S2048, .f32⟩
  | 4 => ⟨S16x128x6, .f32⟩
  | 5 => ⟨S6, .f32⟩
  | 6 => ⟨S65536, .i32⟩
  | 7 => ⟨S16, .i32⟩
  | 8 => ⟨S16, .i32⟩
  | 9 => ⟨S65536x2048, .f32⟩
  | 10 => ⟨S_, .f32⟩
  | 11 => ⟨S2048, .f32⟩
  | 12 => ⟨S_, .f32⟩
  | 13 => ⟨S2048, .f32⟩
  | 14 => ⟨S2048, .f32⟩
  | 15 => ⟨S_, .i32⟩
  | 16 => ⟨S_, .f32⟩
  | 17 => ⟨S2048, .f32⟩
  | 18 => ⟨S1x2048, .f32⟩
  | 19 => ⟨S_, .f32⟩
  | 20 => ⟨S1x2048, .f32⟩
  | 21 => ⟨S1x2048, .f32⟩
  | 22 => ⟨S65536x2048, .f32⟩
  | 23 => ⟨S65536x2048, .f32⟩
  | 24 => ⟨S65536x2048, .f32⟩
  | 25 => ⟨S_, .f32⟩
  | 26 => ⟨S_, .f32⟩
  | 27 => ⟨S_, .f32⟩
  | 28 => ⟨S_, .f32⟩
  | 29 => ⟨S2048, .f32⟩
  | 30 => ⟨S2048, .f32⟩
  | 31 => ⟨S2048, .f32⟩
  | 32 => ⟨S_, .f32⟩
  | 33 => ⟨S_, .i1⟩
  | 34 => ⟨S_, .f32⟩
  | 35 => ⟨S_, .f32⟩
  | 36 => ⟨S2048, .f32⟩
  | 37 => ⟨S2048, .f32⟩
  | 38 => ⟨S1x2048, .f32⟩
  | 39 => ⟨S65536x2048, .f32⟩
  | 40 => ⟨S65536x2048, .f32⟩
  | 41 => ⟨S_, .f32⟩
  | 42 => ⟨S2048, .f32⟩
  | 43 => ⟨S2048, .f32⟩
  | 44 => ⟨S2048, .f32⟩
  | 45 => ⟨S1x2048, .f32⟩
  | 46 => ⟨S65536x2048, .f32⟩
  | 47 => ⟨S65536x2048, .f32⟩
  | 48 => ⟨S1x2048, .f32⟩
  | 49 => ⟨S65536x2048, .f32⟩
  | 50 => ⟨S65536x2048, .f32⟩
  | 51 => ⟨S1x2048, .f32⟩
  | 52 => ⟨S65536x2048, .f32⟩
  | 53 => ⟨S65536x2048, .f32⟩
  | 54 => ⟨S_, .f32⟩
  | 55 => ⟨S65536x2048, .f32⟩
  | 56 => ⟨S65536x2048, .i1⟩
  | 57 => ⟨S_, .f32⟩
  | 58 => ⟨S65536x2048, .f32⟩
  | 59 => ⟨S65536x2048, .f32⟩
  | 60 => ⟨S65536x2048, .f32⟩
  | 61 => ⟨S65536x16x128, .f32⟩
  | 62 => ⟨S16x65536x128, .f32⟩
  | 63 => ⟨S16x65536x6, .f32⟩
  | 64 => ⟨S1x1x6, .f32⟩
  | 65 => ⟨S16x65536x6, .f32⟩
  | 66 => ⟨S16x65536x6, .f32⟩
  | 67 => ⟨S65536, .i32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S_, .i32⟩
  | 76 => ⟨S65536, .i32⟩
  | 77 => ⟨S65536, .i1⟩
  | 78 => ⟨S_, .i32⟩
  | 79 => ⟨S65536, .i32⟩
  | 80 => ⟨S65536, .i32⟩
  | 81 => ⟨S65536, .i32⟩
  | 82 => ⟨S65536x1, .i32⟩
  | 83 => ⟨S65536x1, .i32⟩
  | 84 => ⟨S65536x2, .i32⟩
  | 85 => ⟨S65536x6, .f32⟩
  | 86 => ⟨S_, .f32⟩
  | 87 => ⟨S65536, .f32⟩
  | 88 => ⟨S_, .f32⟩
  | 89 => ⟨S65536, .f32⟩
  | 90 => ⟨S65536, .f32⟩
  | 91 => ⟨S65536x1, .f32⟩
  | 92 => ⟨S65536x6, .f32⟩
  | 93 => ⟨S65536x6, .f32⟩
  | 94 => ⟨S65536x6, .f32⟩
  | 95 => ⟨S_, .f32⟩
  | 96 => ⟨S65536, .f32⟩
  | 97 => ⟨S65536x1, .f32⟩
  | 98 => ⟨S65536x1, .f32⟩
  | 99 => ⟨S65536x6, .f32⟩
  | 100 => ⟨S65536x6, .f32⟩
  | 101 => ⟨S_, .i32⟩
  | 102 => ⟨S65536, .i32⟩
  | 103 => ⟨S65536, .i1⟩
  | 104 => ⟨S_, .i32⟩
  | 105 => ⟨S65536, .i32⟩
  | 106 => ⟨S65536, .i32⟩
  | 107 => ⟨S65536, .i32⟩
  | 108 => ⟨S65536x1, .i32⟩
  | 109 => ⟨S65536, .i32⟩
  | 110 => ⟨S_, .i32⟩
  | 111 => ⟨S65536, .i32⟩
  | 112 => ⟨S65536, .i1⟩
  | 113 => ⟨S_, .i32⟩
  | 114 => ⟨S65536, .i32⟩
  | 115 => ⟨S65536, .i32⟩
  | 116 => ⟨S65536, .i32⟩
  | 117 => ⟨S65536x1, .i32⟩
  | 118 => ⟨S65536, .i32⟩
  | 119 => ⟨S6, .i32⟩
  | 120 => ⟨S1x6, .i32⟩
  | 121 => ⟨S65536x1, .i32⟩
  | 122 => ⟨S65536x6, .i32⟩
  | 123 => ⟨S65536x6, .i32⟩
  | 124 => ⟨S65536x6, .i1⟩
  | 125 => ⟨S65536x1, .i32⟩
  | 126 => ⟨S1x6, .i32⟩
  | 127 => ⟨S65536x6, .i32⟩
  | _ => ⟨S65536x128, .f32⟩

abbrev hbmTy0_1 (i : Nat) : BufTy := match i % 128 with
  | 0 => ⟨S65536x6, .i32⟩
  | 1 => ⟨S65536x6, .i32⟩
  | 2 => ⟨S_, .i32⟩
  | 3 => ⟨S_, .i32⟩
  | 4 => ⟨S_, .i32⟩
  | 5 => ⟨S65536x6, .i32⟩
  | 6 => ⟨S65536x6, .i32⟩
  | 7 => ⟨S_, .i32⟩
  | 8 => ⟨S65536x6, .i32⟩
  | 9 => ⟨S65536x6, .i32⟩
  | 10 => ⟨S_, .f32⟩
  | 11 => ⟨S_, .f32⟩
  | 12 => ⟨S65536x6, .f32⟩
  | 13 => ⟨S65536x6, .f32⟩
  | 14 => ⟨S_, .f32⟩
  | 15 => ⟨S65536x54, .f32⟩
  | 16 => ⟨S65536x1, .i32⟩
  | 17 => ⟨S_, .i32⟩
  | 18 => ⟨S65536x1, .i32⟩
  | 19 => ⟨S65536x1, .i1⟩
  | 20 => ⟨S_, .i32⟩
  | 21 => ⟨S65536x1, .i32⟩
  | 22 => ⟨S65536x1, .i32⟩
  | 23 => ⟨S65536x1, .i32⟩
  | 24 => ⟨S_, .i32⟩
  | 25 => ⟨S65536x6, .i32⟩
  | 26 => ⟨S65536x6, .i1⟩
  | 27 => ⟨S_, .i32⟩
  | 28 => ⟨S65536x6, .i32⟩
  | 29 => ⟨S65536x6, .i32⟩
  | 30 => ⟨S65536x6, .i32⟩
  | 31 => ⟨S65536x6, .i32⟩
  | 32 => ⟨S65536x6x1, .i32⟩
  | 33 => ⟨S65536x6x1, .i32⟩
  | 34 => ⟨S65536x6x2, .i32⟩
  | 35 => ⟨S65536x54, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_c_2 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_cst_3 : Ref sig .tc := ⟨.hbm, 32, rfl⟩
abbrev main_call0_v12 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst_3 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_4 : Ref sig .tc := ⟨.hbm, 54, rfl⟩
abbrev main_v20 : Ref sig .tc := ⟨.hbm, 55, rfl⟩
abbrev main_v21 : Ref sig .tc := ⟨.hbm, 56, rfl⟩
abbrev main_cst_5 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_6 : Ref sig .tc := ⟨.hbm, 68, rfl⟩
abbrev main_v32 : Ref sig .tc := ⟨.hbm, 69, rfl⟩
abbrev main_v33 : Ref sig .tc := ⟨.hbm, 70, rfl⟩
abbrev main_c_7 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_8 : Ref sig .tc := ⟨.hbm, 75, rfl⟩
abbrev main_v37 : Ref sig .tc := ⟨.hbm, 76, rfl⟩
abbrev main_v38 : Ref sig .tc := ⟨.hbm, 77, rfl⟩
abbrev main_c_9 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_call2_cst : Ref sig .tc := ⟨.hbm, 86, rfl⟩
abbrev main_call2_v0 : Ref sig .tc := ⟨.hbm, 87, rfl⟩
abbrev main_call2_cst_0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_cst_1 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_v46 : Ref sig .tc := ⟨.hbm, 100, rfl⟩
abbrev main_c_10 : Ref sig .tc := ⟨.hbm, 101, rfl⟩
abbrev main_v47 : Ref sig .tc := ⟨.hbm, 102, rfl⟩
abbrev main_v48 : Ref sig .tc := ⟨.hbm, 103, rfl⟩
abbrev main_c_11 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_c_12 : Ref sig .tc := ⟨.hbm, 110, rfl⟩
abbrev main_v54 : Ref sig .tc := ⟨.hbm, 111, rfl⟩
abbrev main_v55 : Ref sig .tc := ⟨.hbm, 112, rfl⟩
abbrev main_c_13 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_c_14 : Ref sig .tc := ⟨.hbm, 130, rfl⟩
abbrev main_c_15 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v72 : Ref sig .tc := ⟨.hbm, 137, rfl⟩
abbrev main_cst_16 : Ref sig .tc := ⟨.hbm, 138, rfl⟩
abbrev main_call4_v0 : Ref sig .tc := ⟨.hbm, 139, rfl⟩
abbrev main_call4_v1 : Ref sig .tc := ⟨.hbm, 140, rfl⟩
abbrev main_v73 : Ref sig .tc := ⟨.hbm, 141, rfl⟩
abbrev main_cst_17 : Ref sig .tc := ⟨.hbm, 142, rfl⟩
abbrev main_v74 : Ref sig .tc := ⟨.hbm, 143, rfl⟩
abbrev main_v75 : Ref sig .tc := ⟨.hbm, 144, rfl⟩
abbrev main_c_18 : Ref sig .tc := ⟨.hbm, 145, rfl⟩
abbrev main_v76 : Ref sig .tc := ⟨.hbm, 146, rfl⟩
abbrev main_v77 : Ref sig .tc := ⟨.hbm, 147, rfl⟩
abbrev main_c_19 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_c_20 : Ref sig .tc := ⟨.hbm, 152, rfl⟩
abbrev main_v81 : Ref sig .tc := ⟨.hbm, 153, rfl⟩
abbrev main_v82 : Ref sig .tc := ⟨.hbm, 154, rfl⟩
abbrev main_c_21 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩

abbrev nD : Nat := 1
abbrev τ : Topo := Topo.v7x

variable {F : FTy → Type} [FloatOps F]

class Facts₀ : Prop where
  reducesTo_S65536x2048_S2048_d0 : S65536x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S65536x2048_0_1 : S1x2048.BroadcastsInDim S65536x2048 (![0, 1] : Fin 2 → Fin S65536x2048.rank)
  bcast_S_S65536x2048 : S_.BroadcastsInDim S65536x2048 (![] : Fin 0 → Fin S65536x2048.rank)
  shapeCasts_S65536x2048_S65536x16x128 : S65536x2048.ShapeCasts S65536x16x128
  transposes_S65536x16x128_S16x65536x128_1_0_2 : S65536x16x128.Transposes [1, 0, 2] S16x65536x128
  bcast_S6_S1x1x6_2 : S6.BroadcastsInDim S1x1x6 (![2] : Fin 1 → Fin S1x1x6.rank)
  bcast_S1x1x6_S16x65536x6_0_1_2 : S1x1x6.BroadcastsInDim S16x65536x6 (![0, 1, 2] : Fin 3 → Fin S16x65536x6.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  reducesTo_S65536x6_S65536_d1 : S65536x6.ReducesTo [1] S65536
  bcast_S65536x1_S65536x6_0_1 : S65536x1.BroadcastsInDim S65536x6 (![0, 1] : Fin 2 → Fin S65536x6.rank)
  bcast_S6_S1x6_1 : S6.BroadcastsInDim S1x6 (![1] : Fin 1 → Fin S1x6.rank)
  bcast_S1x6_S65536x6_0_1 : S1x6.BroadcastsInDim S65536x6 (![0, 1] : Fin 2 → Fin S65536x6.rank)
  bcast_S_S65536x6 : S_.BroadcastsInDim S65536x6 (![] : Fin 0 → Fin S65536x6.rank)
  bcast_S_S65536x54 : S_.BroadcastsInDim S65536x54 (![] : Fin 0 → Fin S65536x54.rank)
  bcast_S_S65536x1 : S_.BroadcastsInDim S65536x1 (![] : Fin 0 → Fin S65536x1.rank)
  bcast_S65536x6_S65536x6x1_0_1 : S65536x6.BroadcastsInDim S65536x6x1 (![0, 1] : Fin 2 → Fin S65536x6x1.rank)
  concatenates_S65536x6x1_S65536x6x1_S65536x6x2_d2 : Shape.Concatenates [S65536x6x1, S65536x6x1] S65536x6x2 2
  dot_S65536x128_S128x2048_S65536x2048_1_0_0_1_n_n_wf : DotDims.WF S65536x128 S128x2048 S65536x2048 [1] [0] [0] [1] [] []
  dot_S16x65536x128_S16x128x6_S16x65536x6_2_1_1_2_0_0_wf : DotDims.WF S16x65536x128 S16x128x6 S16x65536x6 [2] [1] [1] [2] [0] [0]
  gather_S16x65536x6_S65536x2_S65536x6_1_01_n_n_01_1_116_wf : GatherDims.WF S16x65536x6 S65536x2 S65536x6 [1] [0, 1] [] [0, 1] [] 1 ![1, 1, 6]
  gather_S16_S65536x1_S65536_n_0_n_n_0_1_1_wf : GatherDims.WF S16 S65536x1 S65536 [] [0] [] [0] [] 1 ![1]
  scatter_S65536x54_S65536x6x2_S65536x6_n_01_01_2_wf : ScatterDims.WF S65536x54 S65536x6x2 S65536x6 [] [0, 1] [0, 1] 2

variable [Facts₀]

def dot_S65536x128_S128x2048_S65536x2048_1_0_0_1_n_n : DotDims S65536x128 S128x2048 S65536x2048 where
  lhsContracting := [1]
  rhsContracting := [0]
  lhsNonContracting := [0]
  rhsNonContracting := [1]
  lhsBatch := []
  rhsBatch := []
  wf := dot_S65536x128_S128x2048_S65536x2048_1_0_0_1_n_n_wf
def dot_S16x65536x128_S16x128x6_S16x65536x6_2_1_1_2_0_0 : DotDims S16x65536x128 S16x128x6 S16x65536x6 where
  lhsContracting := [2]
  rhsContracting := [1]
  lhsNonContracting := [1]
  rhsNonContracting := [2]
  lhsBatch := [0]
  rhsBatch := [0]
  wf := dot_S16x65536x128_S16x128x6_S16x65536x6_2_1_1_2_0_0_wf
def gather_S16x65536x6_S65536x2_S65536x6_1_01_n_n_01_1_116 : GatherDims S16x65536x6 S65536x2 S65536x6 where
  offsetDims := [1]
  collapsedSliceDims := [0, 1]
  operandBatchingDims := []
  startIndicesBatchingDims := []
  startIndexMap := [0, 1]
  indexVectorDim := 1
  sliceSizes := ![1, 1, 6]
  wf := gather_S16x65536x6_S65536x2_S65536x6_1_01_n_n_01_1_116_wf
def gather_S16_S65536x1_S65536_n_0_n_n_0_1_1 : GatherDims S16 S65536x1 S65536 where
  offsetDims := []
  collapsedSliceDims := [0]
  operandBatchingDims := []
  startIndicesBatchingDims := []
  startIndexMap := [0]
  indexVectorDim := 1
  sliceSizes := ![1]
  wf := gather_S16_S65536x1_S65536_n_0_n_n_0_1_1_wf
def scatter_S65536x54_S65536x6x2_S65536x6_n_01_01_2 : ScatterDims S65536x54 S65536x6x2 S65536x6 where
  updateWindowDims := []
  insertedWindowDims := [0, 1]
  scatterDimsToOperandDims := [0, 1]
  indexVectorDim := 2
  wf := scatter_S65536x54_S65536x6x2_S65536x6_n_01_01_2_wf

class Facts : Prop extends Facts₀ where

variable [Facts]
-- ==== Proof.Spec.lean ====
/-
  The mathematics both programs compute, as functions over coordinates on the extended reals.

  A batch of 65536 rows of 128 features is lifted to 16·128 = 2048 channels (h = x · W1), each channel is
  normalised over the batch (mean and biased variance of the column, then scale and shift), passed through a
  leaky rectifier, and the row's own category c (a label in 0..15) selects its 128 channels c·128 … c·128+127 and
  the category's 128×6 classifier; the six logits go through a log-softmax, and the first segTab c of them are
  placed at the columns shiftTab c, shiftTab c + 1, … (capped at 53) of a row of 54, the other entries zero.

  Two spellings are defined, stage by stage. They differ in three places only:
  * the column statistics: the sum of the column divided by the batch size and the mean of squared deviations
    (`meanR`, `varR`), against the statistics pulled through the matrix product (the mean of x times W1,
    and max (E[h²] − mean², 0) with E[h²] the quadratic form of the second-moment matrix of x: `meanK`, `varK`);
  * the normalisation: a quotient by a square root (`normR`) against a product with a reciprocal square root (`normK`);
  * the log-softmax: (f − M) − log Σ exp (f − M) (`lsR`) against f − (M + log Σ exp (f − M)) (`lsK`).
-/
import Idealize.ShloMosaic.PureOps.Ideal
import Idealize.ShloMosaic.Lib.ValueIdx

noncomputable section

namespace Cert.Spec

open Idealize.ShloMosaic

/-- The three float literals both programs carry, as the extended reals their words denote:
    the variance offset 1e-5, the rectifier's negative slope 0.2, and the batch size 65536. -/
def eps : EReal := Ideal.ofBits .f32 0x3727C5AC#32
def slope : EReal := Ideal.ofBits .f32 0x3E4CCCCD#32
def nN : EReal := Ideal.ofBits .f32 0x47800000#32

/-- First output column of each category's segment, and the segment's length. -/
def shiftTab : Fin 16 → ℕ := ![0, 4, 6, 8, 12, 16, 19, 22, 24, 28, 34, 36, 42, 45, 48, 51]
def segTab : Fin 16 → ℕ := ![4, 2, 2, 4, 4, 3, 3, 2, 4, 6, 2, 6, 3, 3, 3, 3]

/-- A label word as a category (total: the word's value modulo 16; under the precondition the value itself). -/
def ci (w : BitVec 32) : Fin 16 := ⟨w.toNat % 16, Nat.mod_lt _ (by decide)⟩
/-- Channel d of category c among the 2048. -/
def chan (c : Fin 16) (d : Fin 128) : Fin 2048 := ⟨c.val * 128 + d.val, by omega⟩
/-- Column s of category c among the 96 of the flattened classifier. -/
def flat (c : Fin 16) (s : Fin 6) : Fin 96 := ⟨c.val * 6 + s.val, by omega⟩
/-- The output column of slot s of category c: the segment's start plus s, capped at 53. -/
def col (c : Fin 16) (s : Fin 6) : ℕ := min 53 (shiftTab c + s.val)

/-- The leaky rectifier. -/
def lrelu (v : EReal) : EReal := if 0 ≤ v then v else slope * v
/-- The largest of six values (−∞ for none). -/
def rowMax (f : Fin 6 → EReal) : EReal := Finset.univ.fold max ⊥ f

/-- One row of h = x · W1. -/
def hrow (xr : Fin 128 → EReal) (w1 : Fin 128 → Fin 2048 → EReal) (j : Fin 2048) : EReal :=
  ∑ k : Fin 128, xr k * w1 k j
/-- The six logits of a row of activations for category c. -/
def logit (ha : Fin 2048 → EReal) (w2 : Fin 16 → Fin 128 → Fin 6 → EReal) (bias : Fin 6 → EReal) (c : Fin 16)
    (s : Fin 6) : EReal :=
  (∑ d : Fin 128, ha (chan c d) * w2 c d s) + bias s
/-- The six values placed in a row of 54: slot s lands on column col c s and counts only while s < segTab c. -/
def place (ls : Fin 6 → EReal) (c : Fin 16) (q : Fin 54) : EReal :=
  ∑ s : Fin 6, if q.val = col c s ∧ s.val < segTab c then ls s else 0

/-! ## The kernel's spelling -/

def lsK (f : Fin 6 → EReal) (s : Fin 6) : EReal :=
  f s - (rowMax f + Ideal.log (∑ t : Fin 6, Ideal.exp (f t - rowMax f)))
def normK (h mean var g b : EReal) : EReal := (h - mean) * Ideal.rsqrt (var + eps) * g + b
def rowK (xr : Fin 128 → EReal) (w1 : Fin 128 → Fin 2048 → EReal) (mean var g b : Fin 2048 → EReal)
    (w2 : Fin 16 → Fin 128 → Fin 6 → EReal) (bias : Fin 6 → EReal) (cat : BitVec 32) (q : Fin 54) : EReal :=
  place (lsK (logit (fun j => lrelu (normK (hrow xr w1 j) (mean j) (var j) (g j) (b j))) w2 bias (ci cat))) (ci cat) q

/-! ## The reference's spelling -/

def lsR (f : Fin 6 → EReal) (s : Fin 6) : EReal :=
  (f s - rowMax f) - Ideal.log (∑ t : Fin 6, Ideal.exp (f t - rowMax f))
def normR (h mean var g b : EReal) : EReal := Ideal.div (h - mean) (Ideal.sqrt (var + eps)) * g + b
def rowR (xr : Fin 128 → EReal) (w1 : Fin 128 → Fin 2048 → EReal) (mean var g b : Fin 2048 → EReal)
    (w2 : Fin 16 → Fin 128 → Fin 6 → EReal) (bias : Fin 6 → EReal) (cat : BitVec 32) (q : Fin 54) : EReal :=
  place (lsR (logit (fun j => lrelu (normR (hrow xr w1 j) (mean j) (var j) (g j) (b j))) w2 bias (ci cat))) (ci cat) q

/-! ## The column statistics -/

section Stats
variable (x : Fin 65536 → Fin 128 → EReal) (w1 : Fin 128 → Fin 2048 → EReal)

def hmat (n : Fin 65536) (j : Fin 2048) : EReal := hrow (x n) w1 j
/-- The reference's: the column's sum over the batch size; the mean of the squared deviations. -/
def meanR (j : Fin 2048) : EReal := Ideal.div (∑ n : Fin 65536, hmat x w1 n j) nN
def varR (j : Fin 2048) : EReal :=
  Ideal.div (∑ n : Fin 65536, (hmat x w1 n j - meanR x w1 j) * (hmat x w1 n j - meanR x w1 j)) nN
/-- The kernel's: column sums and the second-moment matrix of x, each over the batch size, pulled through W1. -/
def sumF (k : Fin 128) : EReal := ∑ n : Fin 65536, x n k
def m2F (k k' : Fin 128) : EReal := ∑ n : Fin 65536, x n k * x n k'
def meanK (j : Fin 2048) : EReal := ∑ k : Fin 128, Ideal.div (sumF x k) nN * w1 k j
def eh2 (j : Fin 2048) : EReal := ∑ k : Fin 128, w1 k j * (∑ k' : Fin 128, Ideal.div (m2F x k k') nN * w1 k' j)
def varK (j : Fin 2048) : EReal := max (eh2 x w1 j - meanK x w1 j * meanK x w1 j) 0
end Stats

/-! ## The two results -/

def outK (x : Fin 65536 → Fin 128 → EReal) (w1 : Fin 128 → Fin 2048 → EReal) (g b : Fin 2048 → EReal)
    (w2 : Fin 16 → Fin 128 → Fin 6 → EReal) (bias : Fin 6 → EReal) (cat : Fin 65536 → BitVec 32)
    (n : Fin 65536) (q : Fin 54) : EReal :=
  rowK (x n) w1 (meanK x w1) (varK x w1) g b w2 bias (cat n) q
def outR (x : Fin 65536 → Fin 128 → EReal) (w1 : Fin 128 → Fin 2048 → EReal) (g b : Fin 2048 → EReal)
    (w2 : Fin 16 → Fin 128 → Fin 6 → EReal) (bias : Fin 6 → EReal) (cat : Fin 65536 → BitVec 32)
    (n : Fin 65536) (q : Fin 54) : EReal :=
  rowR (x n) w1 (meanR x w1) (varR x w1) g b w2 bias (cat n) q

/-- "Is a real number": neither infinity. -/
def Fin' (v : EReal) : Prop := v ≠ ⊤ ∧ v ≠ ⊥

end Cert.Spec

end
-- ==== Proof.KHost.lean ====
/-
  What the arrays of the main call hold when it is entered, as functions of the launch arguments and of the two
  arrays the statistics call leaves.

  Between the two calls the program, on the host, adds the two partial column sums and the two partial
  second-moment matrices, divides each by the batch size 65536, multiplies the first into the lifting matrix (the
  mean row: mean j = Σ_k (sum k / N) · W1 k j), takes in every column of the lifting matrix the quadratic form of
  the second (Σ_k W1 k j · Σ_k' (mom k k' / N) · W1 k' j), subtracts the squared mean and caps the difference below
  at zero (the variance row); it lays scale, shift and bias out as rows and the labels as a column, exchanges the
  classifier's first two axes and flattens it to 128 × 96 (entry (d, c·6 + s) is entry (c, d, s)), and lays the two
  constant tables (each category's first output column and its segment's length) out as rows. Each is read here at
  a coordinate: every sum a plain sum over a finite range, every division the extended reals' division by the
  batch size, every layout change the source entry it names. The arguments themselves reach the main call as
  launched: nothing on the way writes them.
-/
import proofs.«405493_j33827162423889_2_alg».proof.Proof.Gen.KernelIdeal.Frame
import proofs.«405493_j33827162423889_2_alg».proof.Proof.Spec
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.IdealHost
import Idealize.ShloMosaic.Lib.ValueLayout

noncomputable section

namespace Cert.KernelIdeal.Host

open Cert.KernelIdeal Cert.KernelIdeal.Gen Idealize.ShloMosaic Idealize.ShloMosaic.ValueIdx

variable (m : (ℓ : Loc nD τ sig) → Buf (Elt Ideal) ℓ) (ρ : Dev nD → PrngReg)

/-! ## The launch arguments at the two boundaries -/

/-- The batch as the statistics call finds it: the two constant tables do not touch it. -/
theorem V1_x (c : Dev nD) : V1 m ρ c (Pipeline.arrRef spec0 0) = m ((c.tc : Thread nD τ).loc main_arg0) := by
  show StableHlo.after hostOps0 (W0 m ρ c) (Proc.devRef .tc main_arg0) = _
  after_results

theorem W1_arg1 (c : Dev nD) : W1 m ρ c (Proc.devRef .tc main_arg1) = m ((c.tc : Thread nD τ).loc main_arg1) := by
  show StableHlo.after hostOps0 (W0 m ρ c) (Proc.devRef .tc main_arg1) = _
  after_results
theorem W1_arg2 (c : Dev nD) : W1 m ρ c (Proc.devRef .tc main_arg2) = m ((c.tc : Thread nD τ).loc main_arg2) := by
  show StableHlo.after hostOps0 (W0 m ρ c) (Proc.devRef .tc main_arg2) = _
  after_results
theorem W1_arg3 (c : Dev nD) : W1 m ρ c (Proc.devRef .tc main_arg3) = m ((c.tc : Thread nD τ).loc main_arg3) := by
  show StableHlo.after hostOps0 (W0 m ρ c) (Proc.devRef .tc main_arg3) = _
  after_results
theorem W1_arg4 (c : Dev nD) : W1 m ρ c (Proc.devRef .tc main_arg4) = m ((c.tc : Thread nD τ).loc main_arg4) := by
  show StableHlo.after hostOps0 (W0 m ρ c) (Proc.devRef .tc main_arg4) = _
  after_results
theorem W1_arg5 (c : Dev nD) : W1 m ρ c (Proc.devRef .tc main_arg5) = m ((c.tc : Thread nD τ).loc main_arg5) := by
  show StableHlo.after hostOps0 (W0 m ρ c) (Proc.devRef .tc main_arg5) = _
  after_results
theorem W1_arg6 (c : Dev nD) : W1 m ρ c (Proc.devRef .tc main_arg6) = m ((c.tc : Thread nD τ).loc main_arg6) := by
  show StableHlo.after hostOps0 (W0 m ρ c) (Proc.devRef .tc main_arg6) = _
  after_results

/-- After the statistics call the batch is what it was: the call only reads it. -/
theorem W2_arg0 (c : Dev nD) : W2 m ρ c (Proc.devRef .tc main_arg0) = m ((c.tc : Thread nD τ).loc main_arg0) :=
  ((W2_arr m ρ c 0).trans (((dat0 (V1 m ρ) c).arrAt_in 0 rfl _).trans (A_eq0 (V1 m ρ) c 0))).trans (V1_x m ρ c)
theorem W2_arg1 (c : Dev nD) : W2 m ρ c (Proc.devRef .tc main_arg1) = m ((c.tc : Thread nD τ).loc main_arg1) :=
  (W2_of_ne m ρ c main_arg1 (by decide)).trans (W1_arg1 m ρ c)
theorem W2_arg2 (c : Dev nD) : W2 m ρ c (Proc.devRef .tc main_arg2) = m ((c.tc : Thread nD τ).loc main_arg2) :=
  (W2_of_ne m ρ c main_arg2 (by decide)).trans (W1_arg2 m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)

/-- The main call's first two windows are the batch and the lifting matrix as launched. -/
theorem V3_w0 (c : Dev nD) : V3 m ρ c (Pipeline.arrRef spec1 0) = m ((c.tc : Thread nD τ).loc main_arg0) := by
  refine Eq.trans ?_ (W2_arg0 m ρ c)
  show StableHlo.after hostOps1 (W2 m ρ c) (Proc.devRef .tc main_arg0) = _
  after_results
theorem V3_w1 (c : Dev nD) : V3 m ρ c (Pipeline.arrRef spec1 1) = m ((c.tc : Thread nD τ).loc main_arg1) := by
  refine Eq.trans ?_ (W2_arg1 m ρ c)
  show StableHlo.after hostOps1 (W2 m ρ c) (Proc.devRef .tc main_arg1) = _
  after_results

/-! ## Single host operations read at a coordinate -/

section Reads

/-- The word 0x47800000 broadcast from a scalar reads the batch size everywhere. -/
theorem bcastN_apply {T : Shape} (h : S_.BroadcastsInDim T ![]) (i : T.Idx) :
    broadcastInDim T ![] h (constant (F := Ideal) S_ .f32 0x47800000#32) i = Cert.Spec.nN := by
  rw [broadcastInDim_scalar_apply]; rfl

/-- The zero word broadcast from a scalar reads zero everywhere. -/
theorem bcast0_apply {T : Shape} (h : S_.BroadcastsInDim T ![]) (i : T.Idx) :
    broadcastInDim T ![] h (constant (F := Ideal) S_ .f32 0x00000000#32) i = 0 := by
  rw [broadcastInDim_scalar_apply, constant_apply, Ideal.ofBits_zero_f32]

/-- The two partial column sums added: the sum over the leading axis of a [2,1,128] array. -/
theorem sum2_row_apply (x : Vec Ideal S2x1x128 .f32) (h : S2x1x128.ReducesTo [0] S1x128) (hu : 0 < S_.numel) (k : Fin 128) :
    Host.reduceAdd (F := Ideal) x (constant (F := Ideal) S_ .f32 0x00000000#32) h hu (ix2 0 k) = ∑ a : Fin 2, x (ix3 a 0 k) := by
  rw [hostReduceAdd_apply, Ideal.hostReduceAdd_single h (by decide), constant_apply, Ideal.ofBits_zero_f32, zero_add]
  exact Finset.sum_congr rfl fun a _ => congrArg x (funext fun d => Fin.ext (by
    match d with | ⟨0, _⟩ => rfl | ⟨1, _⟩ => rfl | ⟨2, _⟩ => rfl))

/-- The two partial second-moment matrices added: the sum over the leading axis of a [2,128,128] array. -/
theorem sum2_mat_apply (x : Vec Ideal S2x128x128 .f32) (h : S2x128x128.ReducesTo [0] S128x128) (hu : 0 < S_.numel) (k k' : Fin 128) :
    Host.reduceAdd (F := Ideal) x (constant (F := Ideal) S_ .f32 0x00000000#32) h hu (ix2 k k') = ∑ a : Fin 2, x (ix3 a k k') := by
  rw [hostReduceAdd_apply, Ideal.hostReduceAdd_single h (by decide), constant_apply, Ideal.ofBits_zero_f32, zero_add]
  exact Finset.sum_congr rfl fun a _ => congrArg x (funext fun d => Fin.ext (by
    match d with | ⟨0, _⟩ => rfl | ⟨1, _⟩ => rfl | ⟨2, _⟩ => rfl))

/-- A column's sum: the sum over the rows of a [128,2048] array. -/
theorem colsum_apply (x : Vec Ideal S128x2048 .f32) (h : S128x2048.ReducesTo [0] S2048) (hu : 0 < S_.numel) (j : Fin 2048) :
    Host.reduceAdd (F := Ideal) x (constant (F := Ideal) S_ .f32 0x00000000#32) h hu (ix1 j) = ∑ k : Fin 128, x (ix2 k j) := by
  rw [hostReduceAdd_apply, Ideal.hostReduceAdd_single h (by decide), constant_apply, Ideal.ofBits_zero_f32, zero_add]
  exact Finset.sum_congr rfl fun a _ => congrArg x (funext fun d => Fin.ext (by
    match d with | ⟨0, _⟩ => rfl | ⟨1, _⟩ => rfl))

/-- A vector of 2048 laid out as a row. -/
theorem row_bcast_apply {α : Type} (x : S2048.Idx → α) (h : S2048.BroadcastsInDim S1x2048 ![1]) (j : Fin 2048) :
    broadcastInDim S1x2048 ![1] h x (ix2 0 j) = x (ix1 j) :=
  broadcastInDim_apply _ h x _ _ fun a => by
    match a with | ⟨0, _⟩ => rfl

end Reads

/-! ## The two matrix products read at a coordinate -/

section Dots

theorem lhs_row_0 (i : S1x2048.Idx) (q : dot_S1x128_S128x2048_S1x2048_1_0_0_1_n_n.contr.Idx) :
    (dot_S1x128_S128x2048_S1x2048_1_0_0_1_n_n.lhsIdx i q 0).val = (i 0).val := by
  unfold DotDims.lhsIdx
  rw [dif_neg (show ¬(0 : Fin S1x128.rank) ∈ dot_S1x128_S128x2048_S1x2048_1_0_0_1_n_n.lhsBatch by decide), dif_pos (show (0 : Fin S1x128.rank) ∈ dot_S1x128_S128x2048_S1x2048_1_0_0_1_n_n.lhsNonContracting by decide)]
  rfl
theorem lhs_row_1 (i : S1x2048.Idx) (q : dot_S1x128_S128x2048_S1x2048_1_0_0_1_n_n.contr.Idx) :
    (dot_S1x128_S128x2048_S1x2048_1_0_0_1_n_n.lhsIdx i q 1).val = (q ⟨0, by decide⟩).val :=
  dot_S1x128_S128x2048_S1x2048_1_0_0_1_n_n.lhsIdx_val_of_single rfl i q
theorem rhs_row_0 (i : S1x2048.Idx) (q : dot_S1x128_S128x2048_S1x2048_1_0_0_1_n_n.contr.Idx) :
    (dot_S1x128_S128x2048_S1x2048_1_0_0_1_n_n.rhsIdx i q 0).val = (q ⟨0, by decide⟩).val :=
  dot_S1x128_S128x2048_S1x2048_1_0_0_1_n_n.rhsIdx_val_of_single rfl i q
theorem rhs_row_1 (i : S1x2048.Idx) (q : dot_S1x128_S128x2048_S1x2048_1_0_0_1_n_n.contr.Idx) :
    (dot_S1x128_S128x2048_S1x2048_1_0_0_1_n_n.rhsIdx i q 1).val = (i 1).val := by
  unfold DotDims.rhsIdx
  rw [dif_neg (show ¬(1 : Fin S128x2048.rank) ∈ dot_S1x128_S128x2048_S1x2048_1_0_0_1_n_n.rhsBatch by decide), dif_pos (show (1 : Fin S128x2048.rank) ∈ dot_S1x128_S128x2048_S1x2048_1_0_0_1_n_n.rhsNonContracting by decide)]
  rfl

/-- A row of 128 times a [128,2048] matrix, at column j: the sum over the 128 of the products. -/
theorem dot_row_apply (l : FVec Ideal S1x128 .f32) (r : FVec Ideal S128x2048 .f32) (j : Fin 2048) :
    Host.dotGeneral (F := Ideal) dot_S1x128_S128x2048_S1x2048_1_0_0_1_n_n (some .fp32) l r (ix2 0 j)
      = ∑ k : Fin 128, l (ix2 0 k) * r (ix2 k j) := by
  simp only [Host.dotGeneral]
  rw [Ideal.dotGeneral_apply, ← Equiv.sum_comp (contrEquiv1 dot_S1x128_S128x2048_S1x2048_1_0_0_1_n_n 128 rfl rfl).symm]
  refine Finset.sum_congr rfl fun k _ => ?_
  have hk := contrEquiv1_symm_val dot_S1x128_S128x2048_S1x2048_1_0_0_1_n_n 128 rfl rfl k
  have el : dot_S1x128_S128x2048_S1x2048_1_0_0_1_n_n.lhsIdx (ix2 0 j) ((contrEquiv1 dot_S1x128_S128x2048_S1x2048_1_0_0_1_n_n 128 rfl rfl).symm k) = ix2 0 k :=
    funext fun a => Fin.ext (by
      match a with
      | ⟨0, _⟩ => exact lhs_row_0 _ _
      | ⟨1, _⟩ => exact (lhs_row_1 _ _).trans hk)
  have er : dot_S1x128_S128x2048_S1x2048_1_0_0_1_n_n.rhsIdx (ix2 0 j) ((contrEquiv1 dot_S1x128_S128x2048_S1x2048_1_0_0_1_n_n 128 rfl rfl).symm k) = ix2 k j :=
    funext fun a => Fin.ext (by
      match a with
      | ⟨0, _⟩ => exact (rhs_row_0 _ _).trans hk
      | ⟨1, _⟩ => exact rhs_row_1 _ _)
  rw [el, er]

theorem lhs_mat_0 (i : S128x2048.Idx) (q : dot_S128x128_S128x2048_S128x2048_1_0_0_1_n_n.contr.Idx) :
    (dot_S128x128_S128x2048_S128x2048_1_0_0_1_n_n.lhsIdx i q 0).val = (i 0).val := by
  unfold DotDims.lhsIdx
  rw [dif_neg (show ¬(0 : Fin S128x128.rank) ∈ dot_S128x128_S128x2048_S128x2048_1_0_0_1_n_n.lhsBatch by decide), dif_pos (show (0 : Fin S128x128.rank) ∈ dot_S128x128_S128x2048_S128x2048_1_0_0_1_n_n.lhsNonContracting by decide)]
  rfl
theorem lhs_mat_1 (i : S128x2048.Idx) (q : dot_S128x128_S128x2048_S128x2048_1_0_0_1_n_n.contr.Idx) :
    (dot_S128x128_S128x2048_S128x2048_1_0_0_1_n_n.lhsIdx i q 1).val = (q ⟨0, by decide⟩).val :=
  dot_S128x128_S128x2048_S128x2048_1_0_0_1_n_n.lhsIdx_val_of_single rfl i q
theorem rhs_mat_0 (i : S128x2048.Idx) (q : dot_S128x128_S128x2048_S128x2048_1_0_0_1_n_n.contr.Idx) :
    (dot_S128x128_S128x2048_S128x2048_1_0_0_1_n_n.rhsIdx i q 0).val = (q ⟨0, by decide⟩).val :=
  dot_S128x128_S128x2048_S128x2048_1_0_0_1_n_n.rhsIdx_val_of_single rfl i q
theorem rhs_mat_1 (i : S128x2048.Idx) (q : dot_S128x128_S128x2048_S128x2048_1_0_0_1_n_n.contr.Idx) :
    (dot_S128x128_S128x2048_S128x2048_1_0_0_1_n_n.rhsIdx i q 1).val = (i 1).val := by
  unfold DotDims.rhsIdx
  rw [dif_neg (show ¬(1 : Fin S128x2048.rank) ∈ dot_S128x128_S128x2048_S128x2048_1_0_0_1_n_n.rhsBatch by decide), dif_pos (show (1 : Fin S128x2048.rank) ∈ dot_S128x128_S128x2048_S128x2048_1_0_0_1_n_n.rhsNonContracting by decide)]
  rfl

/-- A [128,128] matrix times a [128,2048] matrix, at (k, j): the sum over the 128 of the products. -/
theorem dot_mat_apply (l : FVec Ideal S128x128 .f32) (r : FVec Ideal S128x2048 .f32) (k : Fin 128) (j : Fin 2048) :
    Host.dotGeneral (F := Ideal) dot_S128x128_S128x2048_S128x2048_1_0_0_1_n_n (some .fp32) l r (ix2 k j)
      = ∑ k' : Fin 128, l (ix2 k k') * r (ix2 k' j) := by
  simp only [Host.dotGeneral]
  rw [Ideal.dotGeneral_apply, ← Equiv.sum_comp (contrEquiv1 dot_S128x128_S128x2048_S128x2048_1_0_0_1_n_n 128 rfl rfl).symm]
  refine Finset.sum_congr rfl fun k' _ => ?_
  have hk := contrEquiv1_symm_val dot_S128x128_S128x2048_S128x2048_1_0_0_1_n_n 128 rfl rfl k'
  have el : dot_S128x128_S128x2048_S128x2048_1_0_0_1_n_n.lhsIdx (ix2 k j) ((contrEquiv1 dot_S128x128_S128x2048_S128x2048_1_0_0_1_n_n 128 rfl rfl).symm k') = ix2 k k' :=
    funext fun a => Fin.ext (by
      match a with
      | ⟨0, _⟩ => exact lhs_mat_0 _ _
      | ⟨1, _⟩ => exact (lhs_mat_1 _ _).trans hk)
  have er : dot_S128x128_S128x2048_S128x2048_1_0_0_1_n_n.rhsIdx (ix2 k j) ((contrEquiv1 dot_S128x128_S128x2048_S128x2048_1_0_0_1_n_n 128 rfl rfl).symm k') = ix2 k' j :=
    funext fun a => Fin.ext (by
      match a with
      | ⟨0, _⟩ => exact (rhs_mat_0 _ _).trans hk
      | ⟨1, _⟩ => exact rhs_mat_1 _ _)
  rw [el, er]

end Dots

/-! ## Layout changes read at a coordinate -/

section Layouts
variable {α : Type}

/-- A vector of 65536 laid out as a column. -/
theorem col_cast_apply (x : S65536.Idx → α) (h : S65536.ShapeCasts S65536x1) (n : Fin 65536) :
    shapeCast S65536x1 x h (ix2 n 0) = x (ix1 n) :=
  shapeCast_apply x h _ _ (by
    rw [Shape.rowMajor_val_two, Shape.rowMajor_val_one]
    show n.val = n.val * 1 + 0
    omega)

/-- The classifier [16,128,6] with its first two axes exchanged and the last two of the result flattened:
    entry (d, c·6 + s) of the [128,96] matrix is entry (c, d, s) of the classifier. -/
theorem w2_flat_apply (x : S16x128x6.Idx → α) (ht : S16x128x6.Transposes [1, 0, 2] S128x16x6)
    (hc : S128x16x6.ShapeCasts S128x96) (cc : Fin 16) (d : Fin 128) (s : Fin 6) :
    shapeCast S128x96 (transpose S128x16x6 [1, 0, 2] x ht) hc (ix2 d (Cert.Spec.flat cc s)) = x (ix3 cc d s) := by
  refine (shapeCast_apply _ hc _ (ix3 d cc s) ?_).trans ?_
  · rw [Shape.rowMajor_val_three, Shape.rowMajor_val_two]
    show (d.val * 16 + cc.val) * 6 + s.val = d.val * 96 + (cc.val * 6 + s.val)
    omega
  · exact transpose_apply _ x ht _ _ fun b => match b with | ⟨0, _⟩ => rfl | ⟨1, _⟩ => rfl | ⟨2, _⟩ => rfl

end Layouts

/-! ## The two constant tables -/

section Tables

/-- The words of the two tables, each the whole number it denotes. -/
theorem word_0 : Ideal.ofBits .f32 0x00000000#32 = ((0 : ℕ) : EReal) := by
  rw [Ideal.ofBits_zero_f32, Nat.cast_zero]
theorem word_2 : Ideal.ofBits .f32 0x40000000#32 = ((2 : ℕ) : EReal) := by
  rw [show ((2 : ℕ) : EReal) = ((2 : ℝ) : EReal) by norm_cast]
  simp [Ideal.ofBits, Ideal.ieee, -EReal.coe_mul]; norm_num
theorem word_3 : Ideal.ofBits .f32 0x40400000#32 = ((3 : ℕ) : EReal) := by
  rw [show ((3 : ℕ) : EReal) = ((3 : ℝ) : EReal) by norm_cast]
  simp [Ideal.ofBits, Ideal.ieee, -EReal.coe_mul]; norm_num
theorem word_4 : Ideal.ofBits .f32 0x40800000#32 = ((4 : ℕ) : EReal) := by
  rw [show ((4 : ℕ) : EReal) = ((4 : ℝ) : EReal) by norm_cast]
  simp [Ideal.ofBits, Ideal.ieee, -EReal.coe_mul]; norm_num
theorem word_6 : Ideal.ofBits .f32 0x40C00000#32 = ((6 : ℕ) : EReal) := by
  rw [show ((6 : ℕ) : EReal) = ((6 : ℝ) : EReal) by norm_cast]
  simp [Ideal.ofBits, Ideal.ieee, -EReal.coe_mul]; norm_num
theorem word_8 : Ideal.ofBits .f32 0x41000000#32 = ((8 : ℕ) : EReal) := by
  rw [show ((8 : ℕ) : EReal) = ((8 : ℝ) : EReal) by norm_cast]
  simp [Ideal.ofBits, Ideal.ieee, -EReal.coe_mul]; norm_num
theorem word_12 : Ideal.ofBits .f32 0x41400000#32 = ((12 : ℕ) : EReal) := by
  rw [show ((12 : ℕ) : EReal) = ((12 : ℝ) : EReal) by norm_cast]
  simp [Ideal.ofBits, Ideal.ieee, -EReal.coe_mul]; norm_num
theorem word_16 : Ideal.ofBits .f32 0x41800000#32 = ((16 : ℕ) : EReal) := by
  rw [show ((16 : ℕ) : EReal) = ((16 : ℝ) : EReal) by norm_cast]
  simp [Ideal.ofBits, Ideal.ieee, -EReal.coe_mul]; norm_num
theorem word_19 : Ideal.ofBits .f32 0x41980000#32 = ((19 : ℕ) : EReal) := by
  rw [show ((19 : ℕ) : EReal) = ((19 : ℝ) : EReal) by norm_cast]
  simp [Ideal.ofBits, Ideal.ieee, -EReal.coe_mul]; norm_num
theorem word_22 : Ideal.ofBits .f32 0x41B00000#32 = ((22 : ℕ) : EReal) := by
  rw [show ((22 : ℕ) : EReal) = ((22 : ℝ) : EReal) by norm_cast]
  simp [Ideal.ofBits, Ideal.ieee, -EReal.coe_mul]; norm_num
theorem word_24 : Ideal.ofBits .f32 0x41C00000#32 = ((24 : ℕ) : EReal) := by
  rw [show ((24 : ℕ) : EReal) = ((24 : ℝ) : EReal) by norm_cast]
  simp [Ideal.ofBits, Ideal.ieee, -EReal.coe_mul]; norm_num
theorem word_28 : Ideal.ofBits .f32 0x41E00000#32 = ((28 : ℕ) : EReal) := by
  rw [show ((28 : ℕ) : EReal) = ((28 : ℝ) : EReal) by norm_cast]
  simp [Ideal.ofBits, Ideal.ieee, -EReal.coe_mul]; norm_num
theorem word_34 : Ideal.ofBits .f32 0x42080000#32 = ((34 : ℕ) : EReal) := by
  rw [show ((34 : ℕ) : EReal) = ((34 : ℝ) : EReal) by norm_cast]
  simp [Ideal.ofBits, Ideal.ieee, -EReal.coe_mul]; norm_num
theorem word_36 : Ideal.ofBits .f32 0x42100000#32 = ((36 : ℕ) : EReal) := by
  rw [show ((36 : ℕ) : EReal) = ((36 : ℝ) : EReal) by norm_cast]
  simp [Ideal.ofBits, Ideal.ieee, -EReal.coe_mul]; norm_num
theorem word_42 : Ideal.ofBits .f32 0x42280000#32 = ((42 : ℕ) : EReal) := by
  rw [show ((42 : ℕ) : EReal) = ((42 : ℝ) : EReal) by norm_cast]
  simp [Ideal.ofBits, Ideal.ieee, -EReal.coe_mul]; norm_num
theorem word_45 : Ideal.ofBits .f32 0x42340000#32 = ((45 : ℕ) : EReal) := by
  rw [show ((45 : ℕ) : EReal) = ((45 : ℝ) : EReal) by norm_cast]
  simp [Ideal.ofBits, Ideal.ieee, -EReal.coe_mul]; norm_num
theorem word_48 : Ideal.ofBits .f32 0x42400000#32 = ((48 : ℕ) : EReal) := by
  rw [show ((48 : ℕ) : EReal) = ((48 : ℝ) : EReal) by norm_cast]
  simp [Ideal.ofBits, Ideal.ieee, -EReal.coe_mul]; norm_num
theorem word_51 : Ideal.ofBits .f32 0x424C0000#32 = ((51 : ℕ) : EReal) := by
  rw [show ((51 : ℕ) : EReal) = ((51 : ℝ) : EReal) by norm_cast]
  simp [Ideal.ofBits, Ideal.ieee, -EReal.coe_mul]; norm_num

/-- Entry c of the first table is the first output column of category c. -/
theorem lit0_word (cc : Fin 16) : Ideal.ofBits .f32 (lit0 cc) = ((Cert.Spec.shiftTab cc : ℕ) : EReal) := by
  fin_cases cc
  · exact word_0
  · exact word_4
  · exact word_6
  · exact word_8
  · exact word_12
  · exact word_16
  · exact word_19
  · exact word_22
  · exact word_24
  · exact word_28
  · exact word_34
  · exact word_36
  · exact word_42
  · exact word_45
  · exact word_48
  · exact word_51

/-- Entry c of the second table is the length of category c's segment. -/
theorem lit1_word (cc : Fin 16) : Ideal.ofBits .f32 (lit1 cc) = ((Cert.Spec.segTab cc : ℕ) : EReal) := by
  fin_cases cc
  · exact word_4
  · exact word_2
  · exact word_2
  · exact word_4
  · exact word_4
  · exact word_3
  · exact word_3
  · exact word_2
  · exact word_4
  · exact word_6
  · exact word_2
  · exact word_6
  · exact word_3
  · exact word_3
  · exact word_3
  · exact word_3

end Tables

/-! ## The two statistics rows as the host operations spell them, read at a column -/

section Stats

/-- The mean row: the column sums (two partial sums added) over the batch size, times the lifting matrix. -/
theorem mean_ops_apply (S : FVec Ideal S2x1x128 .f32) (A1 : FVec Ideal S128x2048 .f32)
    (h1 : S2x1x128.ReducesTo [0] S1x128) (hu : 0 < S_.numel) (h2 : S_.BroadcastsInDim S1x128 ![]) (j : Fin 2048) :
    (Host.dotGeneral (F := Ideal) (φ₁ := .f32) (φ₂ := .f32) dot_S1x128_S128x2048_S1x2048_1_0_0_1_n_n (some .fp32)
        (Host.divf (Host.reduceAdd (F := Ideal) S (constant (F := Ideal) S_ .f32 0x00000000#32) h1 hu)
          (broadcastInDim S1x128 ![] h2 (constant (F := Ideal) S_ .f32 0x47800000#32)))
        A1) (ix2 0 j)
      = ∑ k : Fin 128, Ideal.div (∑ a : Fin 2, S (ix3 a 0 k)) Cert.Spec.nN * A1 (ix2 k j) := by
  rw [dot_row_apply]
  refine Finset.sum_congr rfl fun k _ => ?_
  rw [hostDivf_apply, sum2_row_apply, bcastN_apply]

/-- The mean of the squared channel: the quadratic form of the second-moment matrix (two partial matrices added,
    over the batch size) in a column of the lifting matrix. -/
theorem eh2_ops_apply (Q : FVec Ideal S2x128x128 .f32) (A1 : FVec Ideal S128x2048 .f32)
    (h4 : S2x128x128.ReducesTo [0] S128x128) (hu : 0 < S_.numel) (h5 : S_.BroadcastsInDim S128x128 ![])
    (h6 : S128x2048.ReducesTo [0] S2048) (h3 : S2048.BroadcastsInDim S1x2048 ![1]) (j : Fin 2048) :
    (broadcastInDim S1x2048 ![1] h3
        (Host.reduceAdd (F := Ideal)
          (mulf A1
            (Host.dotGeneral (F := Ideal) (φ₁ := .f32) (φ₂ := .f32) dot_S128x128_S128x2048_S128x2048_1_0_0_1_n_n (some .fp32)
              (Host.divf (Host.reduceAdd (F := Ideal) Q (constant (F := Ideal) S_ .f32 0x00000000#32) h4 hu)
                (broadcastInDim S128x128 ![] h5 (constant (F := Ideal) S_ .f32 0x47800000#32)))
              A1))
          (constant (F := Ideal) S_ .f32 0x00000000#32) h6 hu)) (ix2 0 j)
      = ∑ k : Fin 128, A1 (ix2 k j) * ∑ k' : Fin 128, Ideal.div (∑ a : Fin 2, Q (ix3 a k k')) Cert.Spec.nN * A1 (ix2 k' j) := by
  rw [row_bcast_apply, colsum_apply]
  refine Finset.sum_congr rfl fun k _ => ?_
  rw [mulf_apply, dot_mat_apply]
  refine congrArg _ (Finset.sum_congr rfl fun k' _ => ?_)
  rw [hostDivf_apply, sum2_mat_apply, bcastN_apply]

end Stats

/-! ## What the main call's windows hold when it is entered -/

section Arrays

/-- The launch arguments, each at its literal type. -/
abbrev xA (c : Dev nD) : S65536x128.Idx → EReal := m ((c.tc : Thread nD τ).loc main_arg0)
abbrev w1A (c : Dev nD) : S128x2048.Idx → EReal := m ((c.tc : Thread nD τ).loc main_arg1)
abbrev gA (c : Dev nD) : S2048.Idx → EReal := m ((c.tc : Thread nD τ).loc main_arg2)
abbrev bA (c : Dev nD) : S2048.Idx → EReal := m ((c.tc : Thread nD τ).loc main_arg3)
abbrev w2A (c : Dev nD) : S16x128x6.Idx → EReal := m ((c.tc : Thread nD τ).loc main_arg4)
abbrev biasA (c : Dev nD) : S6.Idx → EReal := m ((c.tc : Thread nD τ).loc main_arg5)
abbrev catA (c : Dev nD) : S65536.Idx → BitVec 32 := m ((c.tc : Thread nD τ).loc main_arg6)
/-- The statistics call's two results as it leaves them: partial column sums and partial second-moment matrices. -/
abbrev sumA (c : Dev nD) : S2x1x128.Idx → EReal := W2 m ρ c (Proc.devRef .tc main_v0_0)
abbrev momA (c : Dev nD) : S2x128x128.Idx → EReal := W2 m ρ c (Proc.devRef .tc main_v0_1)
/-- The main call's windows 2 to 10 as it finds them, each at its literal type. -/
abbrev meanW (c : Dev nD) : S1x2048.Idx → EReal := V3 m ρ c (Pipeline.arrRef spec1 2)
abbrev varW (c : Dev nD) : S1x2048.Idx → EReal := V3 m ρ c (Pipeline.arrRef spec1 3)
abbrev gW (c : Dev nD) : S1x2048.Idx → EReal := V3 m ρ c (Pipeline.arrRef spec1 4)
abbrev bW (c : Dev nD) : S1x2048.Idx → EReal := V3 m ρ c (Pipeline.arrRef spec1 5)
abbrev w2W (c : Dev nD) : S128x96.Idx → EReal := V3 m ρ c (Pipeline.arrRef spec1 6)
abbrev biasW (c : Dev nD) : S1x6.Idx → EReal := V3 m ρ c (Pipeline.arrRef spec1 7)
abbrev catW (c : Dev nD) : S65536x1.Idx → BitVec 32 := V3 m ρ c (Pipeline.arrRef spec1 8)
abbrev shW (c : Dev nD) : S1x16.Idx → EReal := V3 m ρ c (Pipeline.arrRef spec1 9)
abbrev sgW (c : Dev nD) : S1x16.Idx → EReal := V3 m ρ c (Pipeline.arrRef spec1 10)

end Arrays

/-- The mean row: the column sums of the batch over the batch size, times the lifting matrix. -/
theorem V3_mean (c : Dev nD) (j : Fin 2048) :
    meanW m ρ c (ix2 0 j)
      = ∑ k : Fin 128, Ideal.div (∑ a : Fin 2, sumA m ρ c (ix3 a 0 k)) Cert.Spec.nN * w1A m c (ix2 k j) := by
  have e : (V3 m ρ c main_v7 : S1x2048.Idx → EReal)
      = (Host.dotGeneral (F := Ideal) (φ₁ := .f32) (φ₂ := .f32) dot_S1x128_S128x2048_S1x2048_1_0_0_1_n_n (some .fp32)
        (Host.divf (Host.reduceAdd (F := Ideal) (W2 m ρ c (Proc.devRef .tc main_v0_0)) (constant (F := Ideal) S_ .f32 0x00000000#32) Facts₀.reducesTo_S2x1x128_S1x128_d0 Facts₀.h_S_)
          (broadcastInDim S1x128 ![] Facts₀.bcast_S_S1x128 (constant (F := Ideal) S_ .f32 0x47800000#32)))
        (W2 m ρ c (Proc.devRef .tc main_arg1))) := by
    show StableHlo.after hostOps1 (W2 m ρ c) (Proc.devRef .tc main_v7) = _
    after_results
  show (V3 m ρ c main_v7 : S1x2048.Idx → EReal) (ix2 0 j) = _
  rw [e, W2_arg1]
  exact mean_ops_apply (sumA m ρ c) (w1A m c) _ _ _ j

/-- The variance row: the mean of the squared channel less the squared mean, and not below zero. -/
theorem V3_var (c : Dev nD) (j : Fin 2048) :
    varW m ρ c (ix2 0 j)
      = max ((∑ k : Fin 128, w1A m c (ix2 k j)
                * ∑ k' : Fin 128, Ideal.div (∑ a : Fin 2, momA m ρ c (ix3 a k k')) Cert.Spec.nN * w1A m c (ix2 k' j))
              - (∑ k : Fin 128, Ideal.div (∑ a : Fin 2, sumA m ρ c (ix3 a 0 k)) Cert.Spec.nN * w1A m c (ix2 k j))
                * (∑ k : Fin 128, Ideal.div (∑ a : Fin 2, sumA m ρ c (ix3 a 0 k)) Cert.Spec.nN * w1A m c (ix2 k j))) 0 := by
  have e : (V3 m ρ c main_v15 : S1x2048.Idx → EReal)
      = maximumf (subf (broadcastInDim S1x2048 ![1] Facts₀.bcast_S2048_S1x2048_1
        (Host.reduceAdd (F := Ideal)
          (mulf (W2 m ρ c (Proc.devRef .tc main_arg1))
            (Host.dotGeneral (F := Ideal) (φ₁ := .f32) (φ₂ := .f32) dot_S128x128_S128x2048_S128x2048_1_0_0_1_n_n (some .fp32)
              (Host.divf (Host.reduceAdd (F := Ideal) (W2 m ρ c (Proc.devRef .tc main_v0_1)) (constant (F := Ideal) S_ .f32 0x00000000#32) Facts₀.reducesTo_S2x128x128_S128x128_d0 Facts₀.h_S_)
                (broadcastInDim S128x128 ![] Facts₀.bcast_S_S128x128 (constant (F := Ideal) S_ .f32 0x47800000#32)))
              (W2 m ρ c (Proc.devRef .tc main_arg1))))
          (constant (F := Ideal) S_ .f32 0x00000000#32) Facts₀.reducesTo_S128x2048_S2048_d0 Facts₀.h_S_))
          (mulf (Host.dotGeneral (F := Ideal) (φ₁ := .f32) (φ₂ := .f32) dot_S1x128_S128x2048_S1x2048_1_0_0_1_n_n (some .fp32)
        (Host.divf (Host.reduceAdd (F := Ideal) (W2 m ρ c (Proc.devRef .tc main_v0_0)) (constant (F := Ideal) S_ .f32 0x00000000#32) Facts₀.reducesTo_S2x1x128_S1x128_d0 Facts₀.h_S_)
          (broadcastInDim S1x128 ![] Facts₀.bcast_S_S1x128 (constant (F := Ideal) S_ .f32 0x47800000#32)))
        (W2 m ρ c (Proc.devRef .tc main_arg1)))
            (Host.dotGeneral (F := Ideal) (φ₁ := .f32) (φ₂ := .f32) dot_S1x128_S128x2048_S1x2048_1_0_0_1_n_n (some .fp32)
        (Host.divf (Host.reduceAdd (F := Ideal) (W2 m ρ c (Proc.devRef .tc main_v0_0)) (constant (F := Ideal) S_ .f32 0x00000000#32) Facts₀.reducesTo_S2x1x128_S1x128_d0 Facts₀.h_S_)
          (broadcastInDim S1x128 ![] Facts₀.bcast_S_S1x128 (constant (F := Ideal) S_ .f32 0x47800000#32)))
        (W2 m ρ c (Proc.devRef .tc main_arg1)))))
          (broadcastInDim S1x2048 ![] Facts₀.bcast_S_S1x2048 (constant (F := Ideal) S_ .f32 0x00000000#32)) := by
    show StableHlo.after hostOps1 (W2 m ρ c) (Proc.devRef .tc main_v15) = _
    after_results
  show (V3 m ρ c main_v15 : S1x2048.Idx → EReal) (ix2 0 j) = _
  rw [e, W2_arg1, maximumf_apply, subf_apply, mulf_apply, bcast0_apply]
  exact congrArg₂ (fun u v : EReal => (max (u - v * v) 0 : EReal)) (eh2_ops_apply (momA m ρ c) (w1A m c) _ _ _ _ _ j)
    (mean_ops_apply (sumA m ρ c) (w1A m c) _ _ _ j)

/-- Scale and shift laid out as rows. -/
theorem V3_g (c : Dev nD) (j : Fin 2048) : gW m ρ c (ix2 0 j) = gA m c (ix1 j) := by
  have e : (V3 m ρ c main_v16 : S1x2048.Idx → EReal)
      = shapeCast S1x2048 (W2 m ρ c (Proc.devRef .tc main_arg2)) Facts₀.shapeCasts_S2048_S1x2048 := by
    show StableHlo.after hostOps1 (W2 m ρ c) (Proc.devRef .tc main_v16) = _
    after_results <;> rfl
  show (V3 m ρ c main_v16 : S1x2048.Idx → EReal) (ix2 0 j) = _
  rw [e, W2_arg2]
  exact shapeCast_a_1a_apply (gA m c) _ 0 j
theorem V3_b (c : Dev nD) (j : Fin 2048) : bW m ρ c (ix2 0 j) = bA m c (ix1 j) := by
  have e : (V3 m ρ c main_v17 : S1x2048.Idx → EReal)
      = shapeCast S1x2048 (W2 m ρ c (Proc.devRef .tc main_arg3)) Facts₀.shapeCasts_S2048_S1x2048 := by
    show StableHlo.after hostOps1 (W2 m ρ c) (Proc.devRef .tc main_v17) = _
    after_results <;> rfl
  show (V3 m ρ c main_v17 : S1x2048.Idx → EReal) (ix2 0 j) = _
  rw [e, W2_arg3]
  exact shapeCast_a_1a_apply (bA m c) _ 0 j

/-- The classifier with its first two axes exchanged and flattened to [128,96]. -/
theorem V3_w2 (c : Dev nD) (cc : Fin 16) (d : Fin 128) (s : Fin 6) :
    w2W m ρ c (ix2 d (Cert.Spec.flat cc s)) = w2A m c (ix3 cc d s) := by
  have e : (V3 m ρ c main_v21 : S128x96.Idx → EReal)
      = shapeCast S128x96 (transpose S128x16x6 [1, 0, 2] (W2 m ρ c (Proc.devRef .tc main_arg4)) Facts₀.transposes_S16x128x6_S128x16x6_1_0_2)
          Facts₀.shapeCasts_S128x16x6_S128x96 := by
    show StableHlo.after hostOps1 (W2 m ρ c) (Proc.devRef .tc main_v21) = _
    after_results <;> rfl
  show (V3 m ρ c main_v21 : S128x96.Idx → EReal) (ix2 d (Cert.Spec.flat cc s)) = _
  rw [e, W2_arg4]
  exact w2_flat_apply (w2A m c) _ _ cc d s

/-- The bias laid out as a row. -/
theorem V3_bias (c : Dev nD) (s : Fin 6) : biasW m ρ c (ix2 0 s) = biasA m c (ix1 s) := by
  have e : (V3 m ρ c main_v18 : S1x6.Idx → EReal)
      = shapeCast S1x6 (W2 m ρ c (Proc.devRef .tc main_arg5)) Facts₀.shapeCasts_S6_S1x6 := by
    show StableHlo.after hostOps1 (W2 m ρ c) (Proc.devRef .tc main_v18) = _
    after_results <;> rfl
  show (V3 m ρ c main_v18 : S1x6.Idx → EReal) (ix2 0 s) = _
  rw [e, W2_arg5]
  exact shapeCast_a_1a_apply (biasA m c) _ 0 s

/-- The labels laid out as a column. -/
theorem V3_cat (c : Dev nD) (n : Fin 65536) : catW m ρ c (ix2 n 0) = catA m c (ix1 n) := by
  have e : (V3 m ρ c main_v19 : S65536x1.Idx → BitVec 32)
      = shapeCast S65536x1 (W2 m ρ c (Proc.devRef .tc main_arg6)) Facts₀.shapeCasts_S65536_S65536x1 := by
    show StableHlo.after hostOps1 (W2 m ρ c) (Proc.devRef .tc main_v19) = _
    after_results <;> rfl
  show (V3 m ρ c main_v19 : S65536x1.Idx → BitVec 32) (ix2 n 0) = _
  rw [e, W2_arg6]
  exact col_cast_apply (catA m c) _ n

/-- The two constant tables laid out as rows: entry c is category c's first output column, and its segment's length. -/
theorem V3_sh (c : Dev nD) (cc : Fin 16) : shW m ρ c (ix2 0 cc) = ((Cert.Spec.shiftTab cc : ℕ) : EReal) := by
  have e : (V3 m ρ c main_v22 : S1x16.Idx → EReal)
      = shapeCast S1x16 (W2 m ρ c (Proc.devRef .tc main_cst)) Facts₀.shapeCasts_S16_S1x16 := by
    show StableHlo.after hostOps1 (W2 m ρ c) (Proc.devRef .tc main_v22) = _
    after_results <;> rfl
  have e1 : (W1 m ρ c (Proc.devRef .tc main_cst) : S16.Idx → EReal) = fun i => Ideal.ofBits .f32 (lit0 (S16.rowMajor i)) := by
    show StableHlo.after hostOps0 (W0 m ρ c) (Proc.devRef .tc main_cst) = _
    after_results <;> rfl
  show (V3 m ρ c main_v22 : S1x16.Idx → EReal) (ix2 0 cc) = _
  rw [e, W2_of_ne m ρ c main_cst (by decide), e1]
  refine (shapeCast_a_1a_apply _ _ 0 cc).trans ?_
  show Ideal.ofBits .f32 (lit0 (S16.rowMajor (ix1 cc))) = _
  rw [show S16.rowMajor (ix1 cc) = cc from Fin.ext (Shape.rowMajor_val_one _)]
  exact lit0_word cc
theorem V3_sg (c : Dev nD) (cc : Fin 16) : sgW m ρ c (ix2 0 cc) = ((Cert.Spec.segTab cc : ℕ) : EReal) := by
  have e : (V3 m ρ c main_v23 : S1x16.Idx → EReal)
      = shapeCast S1x16 (W2 m ρ c (Proc.devRef .tc main_cst_0)) Facts₀.shapeCasts_S16_S1x16 := by
    show StableHlo.after hostOps1 (W2 m ρ c) (Proc.devRef .tc main_v23) = _
    after_results <;> rfl
  have e1 : (W1 m ρ c (Proc.devRef .tc main_cst_0) : S16.Idx → EReal) = fun i => Ideal.ofBits .f32 (lit1 (S16.rowMajor i)) := by
    show StableHlo.after hostOps0 (W0 m ρ c) (Proc.devRef .tc main_cst_0) = _
    after_results <;> rfl
  show (V3 m ρ c main_v23 : S1x16.Idx → EReal) (ix2 0 cc) = _
  rw [e, W2_of_ne m ρ c main_cst_0 (by decide), e1]
  refine (shapeCast_a_1a_apply _ _ 0 cc).trans ?_
  show Ideal.ofBits .f32 (lit1 (S16.rowMajor (ix1 cc))) = _
  rw [show S16.rowMajor (ix1 cc) = cc from Fin.ext (Shape.rowMajor_val_one _)]
  exact lit1_word cc

end Cert.KernelIdeal.Host

end
-- ==== Proof.KReg0.lean ====
/-
  The value of the statistics reduction, read at an entry.

  The batch x has 65536 rows of 128 features. The reduction walks a 2 × 8 grid: point (a, i) is handed rows
  4096·(8a + i) … 4096·(8a + i) + 4095 of x, and two accumulators belong to half a: a vector of 128 column sums and a
  128 × 128 matrix of second moments. At i = 0 both are set to zero; at every point the block's column sums
  Σ_r x[r,k] are added to the first and the block's Gram matrix Σ_r x[r,k]·x[r,k'] to the second; after i = 7 the two
  accumulators are written to half a of the two result arrays.

  Proved here, over the extended reals: each of the two control cases leaves in each accumulator the stated update of what
  it held (or of zero); the updates read at an entry are "previous value plus a sum over the block's 4096 rows"; by
  induction on i, after point (a, i) the accumulators hold the sums over blocks 8a … 8a + i; eight blocks of 4096 rows are
  the 32768 rows of half a (addition of extended reals is commutative and associative, and 0 + v = v, so no finiteness
  is asked); hence the result arrays end holding, at (a, 0, k) and (a, k, k'),
      Σ_{n < 32768} x[32768 a + n, k]     and     Σ_{n < 32768} x[32768 a + n, k] · x[32768 a + n, k'].
-/
import proofs.«405493_j33827162423889_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Reg0

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each control case leaves in the two staging buffers -/

/-- A point that does not reset leaves, in the column-sum buffer holding `xo1`, `xo1` plus the block's column sums. -/
theorem out_B_1 (c : Dev nD) (i : grid0.Coords) (a2 : Memref sig .tc .vmem S4096x128 .f32) (h2 : a2.IsWhole)
    (a3 : Memref sig .tc .vmem S1x1x128 .f32) (h3 : a3.IsWhole) (a4 : Memref sig .tc .vmem S1x128x128 .f32) (h4 : a4.IsWhole)
    (hc : ¬cond0_0 i) (x : Vec F S4096x128 .f32) (xo1 : Vec F S1x1x128 .f32) (xo2 : Vec F S1x128x128 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  sl_unfold_words
  rw [View.canon_unit_zero hz3]
  simp only [View.readAt_eq_ld, h2.read_unread, h3.read_unread, View.ld_unit_zero (S := S4096x128) hz2,
    View.ld_unit_zero (S := S1x1x128) hz3]

/-- A point that does not reset leaves, in the second-moment buffer holding `xo2`, `xo2` plus the block's Gram matrix. -/
theorem out_B_2 (c : Dev nD) (i : grid0.Coords) (a2 : Memref sig .tc .vmem S4096x128 .f32) (h2 : a2.IsWhole)
    (a3 : Memref sig .tc .vmem S1x1x128 .f32) (h3 : a3.IsWhole) (a4 : Memref sig .tc .vmem S1x128x128 .f32) (h4 : a4.IsWhole)
    (hc : ¬cond0_0 i) (x : Vec F S4096x128 .f32) (xo1 : Vec F S1x1x128 .f32) (xo2 : Vec F S1x128x128 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  sl_unfold_words
  rw [View.canon_unit_zero hz3]
  simp only [View.readAt_eq_ld, h2.read_unread, h4.read_unread, View.ld_unit_zero (S := S4096x128) hz2,
    View.ld_unit_zero (S := S1x128x128) hz3]

/-- A point that resets leaves the block's column sums added to the zero vector it has just stored. -/
theorem out_A_1 (c : Dev nD) (i : grid0.Coords) (a2 : Memref sig .tc .vmem S4096x128 .f32) (h2 : a2.IsWhole)
    (a3 : Memref sig .tc .vmem S1x1x128 .f32) (h3 : a3.IsWhole) (a4 : Memref sig .tc .vmem S1x128x128 .f32) (h4 : a4.IsWhole)
    (hc : cond0_0 i) (x : Vec F S4096x128 .f32) :
    out0_A_1 c i a2 h2 a3 h3 a4 h4 hc x = k0_pay3 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x1x128) hz3, View.readCov_unit_zero (S := S1x1x128) _ hz3]
  simp only [View.readAt_eq_ld, h2.read_unread, View.ld_unit_zero (S := S4096x128) hz2]

/-- A point that resets leaves the block's Gram matrix added to the zero matrix it has just stored. -/
theorem out_A_2 (c : Dev nD) (i : grid0.Coords) (a2 : Memref sig .tc .vmem S4096x128 .f32) (h2 : a2.IsWhole)
    (a3 : Memref sig .tc .vmem S1x1x128 .f32) (h3 : a3.IsWhole) (a4 : Memref sig .tc .vmem S1x128x128 .f32) (h4 : a4.IsWhole)
    (hc : cond0_0 i) (x : Vec F S4096x128 .f32) :
    out0_A_2 c i a2 h2 a3 h3 a4 h4 hc x = k0_pay4 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S1x128x128) hz3, View.readCov_unit_zero (S := S1x128x128) _ hz3]
  simp only [View.readAt_eq_ld, h2.read_unread, View.ld_unit_zero (S := S4096x128) hz2]

/-! ## The two updates at an entry, over the extended reals -/

/-- The stored zero vector reads `0` everywhere. -/
theorem pay1_apply (j : S1x1x128.Idx) : k0_pay1 (F := Ideal) j = 0 := by
  unfold k0_pay1
  refine (shapeCast_addUnit_apply ![1, 128] _ _ j).trans ?_
  exact Ideal.ofBits_zero_f32

/-- The stored zero matrix reads `0` everywhere. -/
theorem pay2_apply (j : S1x128x128.Idx) : k0_pay2 (F := Ideal) j = 0 := by
  unfold k0_pay2
  refine (shapeCast_addUnit_apply ![128, 128] _ _ j).trans ?_
  exact Ideal.ofBits_zero_f32

/-- Lane `k` of the updated column-sum buffer: what it held plus the sum of column `k` over the block's 4096 rows. -/
theorem pay3_apply (x : Vec Ideal S4096x128 .f32) (v : Vec Ideal S1x1x128 .f32) (k : Fin 128) :
    k0_pay3 (F := Ideal) x v (ix3 (0 : Fin 1) (0 : Fin 1) k)
      = v (ix3 (0 : Fin 1) (0 : Fin 1) k) + ∑ r : Fin 4096, x (ix2 r k) := by
  unfold k0_pay3
  refine (shapeCast_addUnit_apply ![1, 128] _ _ (ix3 (0 : Fin 1) (0 : Fin 1) k)).trans ?_
  refine congrArg₂ (· + ·) ?_ ?_
  · refine (shapeCast_dropUnit_apply ![1, 128] v _ _).trans (congrArg v ?_)
    funext a
    match a with
    | ⟨0, _⟩ => rfl
    | ⟨1, _⟩ => rfl
    | ⟨2, _⟩ => rfl
  · refine (shapeCast_addUnit_apply ![128] _ _ _).trans ?_
    refine (Ideal.multiReduction_add_single x _ _ _ _ _).trans ?_
    refine Finset.sum_congr rfl fun r _ => congrArg x ?_
    funext a
    apply Fin.ext
    match a with
    | ⟨0, _⟩ => rfl
    | ⟨1, _⟩ => rfl

/-- Entry `(k, k')` of the updated second-moment buffer: what it held plus the sum over the block's 4096 rows of the
    products of columns `k` and `k'`. -/
theorem pay4_apply (x : Vec Ideal S4096x128 .f32) (v : Vec Ideal S1x128x128 .f32) (k k' : Fin 128) :
    k0_pay4 (F := Ideal) x v (ix3 (0 : Fin 1) k k')
      = v (ix3 (0 : Fin 1) k k') + ∑ r : Fin 4096, x (ix2 r k) * x (ix2 r k') := by
  unfold k0_pay4
  refine (shapeCast_addUnit_apply ![128, 128] _ _ (ix3 (0 : Fin 1) k k')).trans ?_
  refine congrArg₂ (· + ·) ?_ ?_
  · refine (shapeCast_dropUnit_apply ![128, 128] v _ _).trans (congrArg v ?_)
    funext a
    match a with
    | ⟨0, _⟩ => rfl
    | ⟨1, _⟩ => rfl
    | ⟨2, _⟩ => rfl
  · refine (Ideal.matmul_constant_zero_apply dot_S4096x128_S4096x128_S128x128_0_0_1_1_n_n _ x x _).trans ?_
    refine (Equiv.sum_comp (contrEquiv1 dot_S4096x128_S4096x128_S128x128_0_0_1_1_n_n 4096 rfl rfl).symm _).symm.trans ?_
    refine Finset.sum_congr rfl fun r _ => ?_
    have cv := contrEquiv1_symm_val dot_S4096x128_S4096x128_S128x128_0_0_1_1_n_n 4096 rfl rfl r
    refine congrArg₂ (· * ·) (congrArg x ?_) (congrArg x ?_)
    · funext a
      apply Fin.ext
      match a with
      | ⟨0, _⟩ => simp [DotDims.lhsIdx, dot_S4096x128_S4096x128_S128x128_0_0_1_1_n_n]; exact cv
      | ⟨1, _⟩ => simp [DotDims.lhsIdx, dot_S4096x128_S4096x128_S128x128_0_0_1_1_n_n]; rfl
    · funext a
      apply Fin.ext
      match a with
      | ⟨0, _⟩ => simp [DotDims.rhsIdx, dot_S4096x128_S4096x128_S128x128_0_0_1_1_n_n]; exact cv
      | ⟨1, _⟩ => simp [DotDims.rhsIdx, dot_S4096x128_S4096x128_S128x128_0_0_1_1_n_n]; rfl

/-! ## The input array and its row blocks -/

section Value

variable (V : (c : Dev nD) → (b : Ref sig .tc) → Buf (Elt Ideal) ((c : Thread nD τ).loc b))

/-- The batch, 65536 rows of 128 features, as the first kernel finds it. -/
abbrev xarr (c : Dev nD) : Vec Ideal S65536x128 .f32 := V c (Pipeline.arrRef spec0 0)

/-- The 4096 rows the kernel is handed at grid point `t`. -/
abbrev xblk (c : Dev nD) (t : Fin cfg0.N) : Vec Ideal S4096x128 .f32 := iblk0 V c 0 t

/-- Entry `(n, k)` of the batch with the row a plain natural (`0` past the last row, never read). -/
def xat (c : Dev nD) (n : ℕ) (k : Fin 128) : EReal := if h : n < 65536 then xarr V c (ix2 ⟨n, h⟩ k) else 0

/-- Where each window's block sits at a grid point: the row block `t` of the batch; half `t / 8` of either result. -/
theorem idx0 : ∀ t : Fin grid0.N, win0_0.index t 0 = t.val ∧ win0_0.index t 1 = 0 := by decide +kernel
theorem idx1 : ∀ t : Fin grid0.N, win0_1.index t 0 = t.val / 8 ∧ win0_1.index t 1 = 0 ∧ win0_1.index t 2 = 0 := by decide +kernel
theorem idx2 : ∀ t : Fin grid0.N, win0_2.index t 0 = t.val / 8 ∧ win0_2.index t 1 = 0 ∧ win0_2.index t 2 = 0 := by decide +kernel

/-- Row `r` of the block handed over at point `t` is row `4096 t + r` of the batch. -/
theorem xblk_apply (c : Dev nD) (t : Fin cfg0.N) (r : Fin 4096) (k : Fin 128) :
    xblk V c t (ix2 r k) = xat V c (4096 * t.val + r.val) k := by
  have hN : t.val < 16 := lt_of_lt_of_eq t.isLt (show cfg0.N = 16 from N_0)
  have hr := r.isLt
  unfold xat
  rw [dif_pos (by omega)]
  unfold xblk iblk0
  rw [View.read_apply]
  show V c (Pipeline.arrRef spec0 0) _ = V c (Pipeline.arrRef spec0 0) _
  congr 1
  funext a
  apply Fin.ext
  match a with
  | ⟨0, _⟩ => show win0_0.index t 0 * 4096 + 1 * r.val = 4096 * t.val + r.val; rw [(idx0 t).1]; omega
  | ⟨1, _⟩ => show win0_0.index t 1 * 128 + 1 * k.val = k.val; rw [(idx0 t).2]; omega

/-! ## What the staging buffers hold after each grid point -/

/-- The sum of column `k` over row block `n`, and the sum over that block of the products of columns `k` and `k'`. -/
def colsum (c : Dev nD) (n : ℕ) (k : Fin 128) : EReal := ∑ r : Fin 4096, xat V c (4096 * n + r.val) k
def gram (c : Dev nD) (n : ℕ) (k k' : Fin 128) : EReal :=
  ∑ r : Fin 4096, xat V c (4096 * n + r.val) k * xat V c (4096 * n + r.val) k'

/-- At the first point of a half the column-sum buffer is left at that block's column sums (zero plus them); -/
theorem step_A_1 (c : Dev nD) (t : Fin cfg0.N) (h0 : t.val % 8 = 0) (k : Fin 128) :
    (outsAt0 V c t.val t.isLt).1 (ix3 (0 : Fin 1) (0 : Fin 1) k) = colsum V c t.val k := by
  rw [outsAt0_A V c t h0]
  dsimp only
  refine (congrFun (out_A_1 (F := Ideal) c (grid0.coords t) (ms0_0 t) (hs0_0 t) (ms0_1 t) (hs0_1 t) (ms0_2 t) (hs0_2 t)
    ((hcond0_0 t).mpr h0) (iblk0 V c 0 t)) (ix3 (0 : Fin 1) (0 : Fin 1) k)).trans ?_
  refine (pay3_apply (xblk V c t) (k0_pay1 (F := Ideal)) k).trans ?_
  rw [pay1_apply, zero_add]
  exact Finset.sum_congr rfl fun r _ => xblk_apply V c t r k

/-- at every other point, at what the point before left plus the block's column sums. -/
theorem step_B_1 (c : Dev nD) (t : Fin cfg0.N) (h0 : ¬t.val % 8 = 0) (k : Fin 128) :
    (outsAt0 V c t.val t.isLt).1 (ix3 (0 : Fin 1) (0 : Fin 1) k)
      = (outsAt0 V c (t.val - 1) (Nat.lt_of_le_of_lt (Nat.sub_le _ _) t.isLt)).1 (ix3 (0 : Fin 1) (0 : Fin 1) k)
        + colsum V c t.val k := by
  rw [outsAt0_B V c t h0]
  dsimp only
  refine (congrFun (out_B_1 (F := Ideal) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) (0 : Fin 1) k)).trans ?_
  refine (pay3_apply (xblk V c t) (outsAt0 V c (t.val - 1) (Nat.lt_of_le_of_lt (Nat.sub_le _ _) t.isLt)).1 k).trans ?_
  exact congrArg (_ + ·) (Finset.sum_congr rfl fun r _ => xblk_apply V c t r k)

/-- So after point `8a + j` the column-sum buffer holds the column sums of blocks `8a … 8a + j`. -/
theorem inv_1 (c : Dev nD) (a : ℕ) (k : Fin 128) : ∀ (j : ℕ) (hj : j < 8) (h : 8 * a + j < cfg0.N),
    (outsAt0 V c (8 * a + j) h).1 (ix3 (0 : Fin 1) (0 : Fin 1) k) = ∑ s ∈ Finset.range (j + 1), colsum V c (8 * a + s) k
  | 0, _, h => by
    rw [Finset.sum_range_one]
    exact step_A_1 V c ⟨8 * a + 0, h⟩ (by show (8 * a + 0) % 8 = 0; omega) k
  | j + 1, hj, h => by
    rw [Finset.sum_range_succ, ← inv_1 c a k j (by omega) (Nat.lt_of_succ_lt h)]
    exact step_B_1 V c ⟨8 * a + (j + 1), h⟩ (by show ¬(8 * a + (j + 1)) % 8 = 0; omega) k

/-- The same for the second-moment buffer: at the first point of a half, the block's Gram entry; -/
theorem step_A_2 (c : Dev nD) (t : Fin cfg0.N) (h0 : t.val % 8 = 0) (k k' : Fin 128) :
    (outsAt0 V c t.val t.isLt).2 (ix3 (0 : Fin 1) k k') = gram V c t.val k k' := by
  rw [outsAt0_A V c t h0]
  dsimp only
  refine (congrFun (out_A_2 (F := Ideal) c (grid0.coords t) (ms0_0 t) (hs0_0 t) (ms0_1 t) (hs0_1 t) (ms0_2 t) (hs0_2 t)
    ((hcond0_0 t).mpr h0) (iblk0 V c 0 t)) (ix3 (0 : Fin 1) k k')).trans ?_
  refine (pay4_apply (xblk V c t) (k0_pay2 (F := Ideal)) k k').trans ?_
  rw [pay2_apply, zero_add]
  exact Finset.sum_congr rfl fun r _ => by rw [xblk_apply V c t r k, xblk_apply V c t r k']

/-- at every other point, what the point before left plus the block's Gram entry. -/
theorem step_B_2 (c : Dev nD) (t : Fin cfg0.N) (h0 : ¬t.val % 8 = 0) (k k' : Fin 128) :
    (outsAt0 V c t.val t.isLt).2 (ix3 (0 : Fin 1) k k')
      = (outsAt0 V c (t.val - 1) (Nat.lt_of_le_of_lt (Nat.sub_le _ _) t.isLt)).2 (ix3 (0 : Fin 1) k k')
        + gram V c t.val k k' := by
  rw [outsAt0_B V c t h0]
  dsimp only
  refine (congrFun (out_B_2 (F := Ideal) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) k k')).trans ?_
  refine (pay4_apply (xblk V c t) (outsAt0 V c (t.val - 1) (Nat.lt_of_le_of_lt (Nat.sub_le _ _) t.isLt)).2 k k').trans ?_
  exact congrArg (_ + ·) (Finset.sum_congr rfl fun r _ => by rw [xblk_apply V c t r k, xblk_apply V c t r k'])

/-- So after point `8a + j` the second-moment buffer holds the Gram entries of blocks `8a … 8a + j`, summed. -/
theorem inv_2 (c : Dev nD) (a : ℕ) (k k' : Fin 128) : ∀ (j : ℕ) (hj : j < 8) (h : 8 * a + j < cfg0.N),
    (outsAt0 V c (8 * a + j) h).2 (ix3 (0 : Fin 1) k k') = ∑ s ∈ Finset.range (j + 1), gram V c (8 * a + s) k k'
  | 0, _, h => by
    rw [Finset.sum_range_one]
    exact step_A_2 V c ⟨8 * a + 0, h⟩ (by show (8 * a + 0) % 8 = 0; omega) k k'
  | j + 1, hj, h => by
    rw [Finset.sum_range_succ, ← inv_2 c a k k' j (by omega) (Nat.lt_of_succ_lt h)]
    exact step_B_2 V c ⟨8 * a + (j + 1), h⟩ (by show ¬(8 * a + (j + 1)) % 8 = 0; omega) k k'

/-! ## Eight blocks of 4096 rows are one half of 32768 rows -/

/-- A sum over the eight blocks of a half, block by block and row by row, is the sum over the half's 32768 rows. -/
theorem sum_blocks (f : ℕ → EReal) (a : ℕ) :
    ∑ s ∈ Finset.range 8, ∑ r : Fin 4096, f (4096 * (8 * a + s) + r.val) = ∑ n : Fin 32768, f (a * 32768 + n.val) := by
  rw [Finset.sum_range fun s => ∑ r : Fin 4096, f (4096 * (8 * a + s) + r.val), ← Finset.sum_product']
  have e := Equiv.sum_comp (finProdFinEquiv (m := 8) (n := 4096)) fun n : Fin (8 * 4096) => f (a * 32768 + n.val)
  refine Eq.trans ?_ e
  refine Finset.sum_congr rfl fun p _ => congrArg f ?_
  show 4096 * (8 * a + p.1.val) + p.2.val = a * 32768 + (p.2.val + 4096 * p.1.val)
  omega

/-! ## What the two result arrays end holding -/

/-- The column sums of each half of the batch, as contents of the first result array. -/
def G1 (c : Dev nD) : Vec Ideal S2x1x128 .f32 := fun j =>
  ∑ n : Fin 32768, xat V c ((j 0).val * 32768 + n.val) ⟨(j 2).val, (j 2).isLt⟩

/-- An outcome of the recursion over the points does not depend on how the point is spelled. -/
theorem outsAt_same (c : Dev nD) (u v : ℕ) (hu : u < cfg0.N) (hv : v < cfg0.N) (e : u = v) :
    outsAt0 V c u hu = outsAt0 V c v hv := by subst e; rfl

/-- After the last point of a half, lane `k` of the column-sum buffer is that half's entry of `G1`. -/
theorem last_1 (c : Dev nD) (t : Fin cfg0.N) (h7 : t.val % 8 = 7) (k : Fin 128) (i : S2x1x128.Idx)
    (hi0 : (i 0).val = t.val / 8) (hi2 : (i 2).val = k.val) :
    (outsAt0 V c t.val t.isLt).1 (ix3 (0 : Fin 1) (0 : Fin 1) k) = G1 V c i := by
  have hN : t.val < 16 := lt_of_lt_of_eq t.isLt (show cfg0.N = 16 from N_0)
  have ht : 8 * (t.val / 8) + 7 < cfg0.N :=
    lt_of_lt_of_eq (show 8 * (t.val / 8) + 7 < 16 by omega) (show 16 = cfg0.N from N_0.symm)
  rw [outsAt_same V c t.val (8 * (t.val / 8) + 7) t.isLt ht (by omega), inv_1 V c (t.val / 8) k 7 (by omega) ht]
  unfold colsum
  rw [sum_blocks (fun n => xat V c n k) (t.val / 8)]
  unfold G1
  refine Finset.sum_congr rfl fun n _ => ?_
  exact congrArg₂ (xat V c) (congrArg (· * 32768 + n.val) hi0.symm) (Fin.ext hi2.symm)

/-- The block written back at the last point of a half is that half's entry of `G1`. -/
theorem flushed_1 (c : Dev nD) (t : Fin cfg0.N) (hf : (cfg0.win 1).flush t = true) :
    (dat0 (F := Ideal) V c).flushed 1 t = ((cfg0.win 1).blk t).view.read (Elt Ideal) (G1 V c) := by
  have h7 : t.val % 8 = 7 := (flush0_1 t).mp hf
  funext y
  rw [View.read_apply]
  have y0 : (y 0).val < 1 := (y 0).isLt
  have y1 : (y 1).val < 1 := (y 1).isLt
  have y2 : (y 2).val < 128 := (y 2).isLt
  refine Eq.trans ?_ (cast_eq _ _).symm
  show (dat0 (F := Ideal) V c).after 1 t ((cfg0.win 1).xinj (grid0.coords t) y) = _
  rw [after0_1]
  have ex : (cfg0.win 1).xinj (grid0.coords t) y = ix3 (0 : Fin 1) (0 : Fin 1) (⟨(y 2).val, y2⟩ : Fin 128) := by
    funext a
    apply Fin.ext
    match a with
    | ⟨0, _⟩ => show (y 0).val = 0; omega
    | ⟨1, _⟩ => show (y 1).val = 0; omega
    | ⟨2, _⟩ => rfl
  rw [ex]
  refine last_1 V c t h7 ⟨(y 2).val, y2⟩ (((cfg0.win 1).blk t).view.emb y) ?_ ?_
  · show win0_1.index t 0 * 1 + 1 * (y 0).val = t.val / 8
    rw [(idx1 t).1]; omega
  · show win0_1.index t 2 * 128 + 1 * (y 2).val = (y 2).val
    rw [(idx1 t).2.2]; omega

/-- The first result array ends holding, at `(a, 0, k)`, the sum of column `k` over the 32768 rows of half `a`. -/
theorem sum_final (c : Dev nD) (a : Fin 2) (k : Fin 128) :
    (dat0 (F := Ideal) V c).arrAt 1 cfg0.N (ix3 a (0 : Fin 1) k)
      = ∑ n : Fin 32768, xarr V c (ix2 ⟨a.val * 32768 + n.val, by omega⟩ k) := by
  have ha := a.isLt
  have ht : 8 * a.val + 7 < cfg0.N :=
    lt_of_lt_of_eq (show 8 * a.val + 7 < 16 by omega) (show 16 = cfg0.N from N_0.symm)
  refine ((dat0 (F := Ideal) V c).arrAt_apply_of_mem 1 (G1 V c) (flushed_1 V c) cfg0.N ⟨8 * a.val + 7, ht⟩
    (ix3 a (0 : Fin 1) k) ht ((flush0_1 _).mpr (by show (8 * a.val + 7) % 8 = 7; omega)) ?mem).trans ?val
  case val =>
    show G1 V c (ix3 a (0 : Fin 1) k) = _
    unfold G1
    refine Finset.sum_congr rfl fun n _ => ?_
    have hn := n.isLt
    show xat V c (a.val * 32768 + n.val) k = _
    unfold xat
    rw [dif_pos (by omega)]
  case mem =>
    show ix3 a (0 : Fin 1) k ∈ ((View.whole main_v0_0).slice (win0_1.rect ⟨8 * a.val + 7, ht⟩)).set
    rw [View.set_slice_whole, Rect.mem_set_unit]
    intro ax
    have hk := k.isLt
    match ax with
    | ⟨0, _⟩ =>
      show win0_1.index ⟨8 * a.val + 7, ht⟩ 0 * 1 ≤ a.val ∧ a.val < win0_1.index ⟨8 * a.val + 7, ht⟩ 0 * 1 + 1
      rw [(idx1 ⟨8 * a.val + 7, ht⟩).1]
      show (8 * a.val + 7) / 8 * 1 ≤ a.val ∧ a.val < (8 * a.val + 7) / 8 * 1 + 1
      omega
    | ⟨1, _⟩ =>
      show win0_1.index ⟨8 * a.val + 7, ht⟩ 1 * 1 ≤ 0 ∧ 0 < win0_1.index ⟨8 * a.val + 7, ht⟩ 1 * 1 + 1
      rw [(idx1 ⟨8 * a.val + 7, ht⟩).2.1]; omega
    | ⟨2, _⟩ =>
      show win0_1.index ⟨8 * a.val + 7, ht⟩ 2 * 128 ≤ k.val ∧ k.val < win0_1.index ⟨8 * a.val + 7, ht⟩ 2 * 128 + 128
      rw [(idx1 ⟨8 * a.val + 7, ht⟩).2.2]; omega

/-- The second moments of each half of the batch, as contents of the second result array. -/
def G2 (c : Dev nD) : Vec Ideal S2x128x128 .f32 := fun j =>
  ∑ n : Fin 32768, xat V c ((j 0).val * 32768 + n.val) ⟨(j 1).val, (j 1).isLt⟩
    * xat V c ((j 0).val * 32768 + n.val) ⟨(j 2).val, (j 2).isLt⟩

/-- After the last point of a half, entry `(k, k')` of the second-moment buffer is that half's entry of `G2`. -/
theorem last_2 (c : Dev nD) (t : Fin cfg0.N) (h7 : t.val % 8 = 7) (k k' : Fin 128) (i : S2x128x128.Idx)
    (hi0 : (i 0).val = t.val / 8) (hi1 : (i 1).val = k.val) (hi2 : (i 2).val = k'.val) :
    (outsAt0 V c t.val t.isLt).2 (ix3 (0 : Fin 1) k k') = G2 V c i := by
  have hN : t.val < 16 := lt_of_lt_of_eq t.isLt (show cfg0.N = 16 from N_0)
  have ht : 8 * (t.val / 8) + 7 < cfg0.N :=
    lt_of_lt_of_eq (show 8 * (t.val / 8) + 7 < 16 by omega) (show 16 = cfg0.N from N_0.symm)
  rw [outsAt_same V c t.val (8 * (t.val / 8) + 7) t.isLt ht (by omega), inv_2 V c (t.val / 8) k k' 7 (by omega) ht]
  unfold gram
  rw [sum_blocks (fun n => xat V c n k * xat V c n k') (t.val / 8)]
  unfold G2
  refine Finset.sum_congr rfl fun n _ => ?_
  exact congrArg₂ (· * ·)
    (congrArg₂ (xat V c) (congrArg (· * 32768 + n.val) hi0.symm) (Fin.ext hi1.symm))
    (congrArg₂ (xat V c) (congrArg (· * 32768 + n.val) hi0.symm) (Fin.ext hi2.symm))

/-- The block written back at the last point of a half is that half's part of `G2`. -/
theorem flushed_2 (c : Dev nD) (t : Fin cfg0.N) (hf : (cfg0.win 2).flush t = true) :
    (dat0 (F := Ideal) V c).flushed 2 t = ((cfg0.win 2).blk t).view.read (Elt Ideal) (G2 V c) := by
  have h7 : t.val % 8 = 7 := (flush0_2 t).mp hf
  funext y
  rw [View.read_apply]
  have y0 : (y 0).val < 1 := (y 0).isLt
  have y1 : (y 1).val < 128 := (y 1).isLt
  have y2 : (y 2).val < 128 := (y 2).isLt
  refine Eq.trans ?_ (cast_eq _ _).symm
  show (dat0 (F := Ideal) V c).after 2 t ((cfg0.win 2).xinj (grid0.coords t) y) = _
  rw [after0_2]
  have ex : (cfg0.win 2).xinj (grid0.coords t) y
      = ix3 (0 : Fin 1) (⟨(y 1).val, y1⟩ : Fin 128) (⟨(y 2).val, y2⟩ : Fin 128) := by
    funext a
    apply Fin.ext
    match a with
    | ⟨0, _⟩ => show (y 0).val = 0; omega
    | ⟨1, _⟩ => rfl
    | ⟨2, _⟩ => rfl
  rw [ex]
  refine last_2 V c t h7 ⟨(y 1).val, y1⟩ ⟨(y 2).val, y2⟩ (((cfg0.win 2).blk t).view.emb y) ?_ ?_ ?_
  · show win0_2.index t 0 * 1 + 1 * (y 0).val = t.val / 8
    rw [(idx2 t).1]; omega
  · show win0_2.index t 1 * 128 + 1 * (y 1).val = (y 1).val
    rw [(idx2 t).2.1]; omega
  · show win0_2.index t 2 * 128 + 1 * (y 2).val = (y 2).val
    rw [(idx2 t).2.2]; omega

/-- The second result array ends holding, at `(a, k, k')`, the sum over the 32768 rows of half `a` of the products of
    columns `k` and `k'`. -/
theorem m2_final (c : Dev nD) (a : Fin 2) (k k' : Fin 128) :
    (dat0 (F := Ideal) V c).arrAt 2 cfg0.N (ix3 a k k')
      = ∑ n : Fin 32768, xarr V c (ix2 ⟨a.val * 32768 + n.val, by omega⟩ k)
          * xarr V c (ix2 ⟨a.val * 32768 + n.val, by omega⟩ k') := by
  have ha := a.isLt
  have ht : 8 * a.val + 7 < cfg0.N :=
    lt_of_lt_of_eq (show 8 * a.val + 7 < 16 by omega) (show 16 = cfg0.N from N_0.symm)
  refine ((dat0 (F := Ideal) V c).arrAt_apply_of_mem 2 (G2 V c) (flushed_2 V c) cfg0.N ⟨8 * a.val + 7, ht⟩
    (ix3 a k k') ht ((flush0_2 _).mpr (by show (8 * a.val + 7) % 8 = 7; omega)) ?mem).trans ?val
  case val =>
    show G2 V c (ix3 a k k') = _
    unfold G2
    refine Finset.sum_congr rfl fun n _ => ?_
    have hn := n.isLt
    show xat V c (a.val * 32768 + n.val) k * xat V c (a.val * 32768 + n.val) k' = _
    unfold xat
    rw [dif_pos (by omega), dif_pos (by omega)]
  case mem =>
    show ix3 a k k' ∈ ((View.whole main_v0_1).slice (win0_2.rect ⟨8 * a.val + 7, ht⟩)).set
    rw [View.set_slice_whole, Rect.mem_set_unit]
    intro ax
    have hk := k.isLt
    have hk' := k'.isLt
    match ax with
    | ⟨0, _⟩ =>
      show win0_2.index ⟨8 * a.val + 7, ht⟩ 0 * 1 ≤ a.val ∧ a.val < win0_2.index ⟨8 * a.val + 7, ht⟩ 0 * 1 + 1
      rw [(idx2 ⟨8 * a.val + 7, ht⟩).1]
      show (8 * a.val + 7) / 8 * 1 ≤ a.val ∧ a.val < (8 * a.val + 7) / 8 * 1 + 1
      omega
    | ⟨1, _⟩ =>
      show win0_2.index ⟨8 * a.val + 7, ht⟩ 1 * 128 ≤ k.val ∧ k.val < win0_2.index ⟨8 * a.val + 7, ht⟩ 1 * 128 + 128
      rw [(idx2 ⟨8 * a.val + 7, ht⟩).2.1]; omega
    | ⟨2, _⟩ =>
      show win0_2.index ⟨8 * a.val + 7, ht⟩ 2 * 128 ≤ k'.val ∧ k'.val < win0_2.index ⟨8 * a.val + 7, ht⟩ 2 * 128 + 128
      rw [(idx2 ⟨8 * a.val + 7, ht⟩).2.2]; omega

end Value

end Cert.KernelIdeal.Reg0
end
-- ==== Proof.KStats.lean ====
/-
  The kernel computes the column sums and the second-moment matrix of x in two halves of the batch (rows
  0 … 32767 and 32768 … 65535) and adds the halves; the statistics it derives from them are meanK and varK.
  A sum over the whole batch splits into the sum over its first 32768 rows plus the sum over its last 32768,
  in any commutative monoid; so the two half sums of a column, and of a product of two columns, add up to the
  whole-batch sums from which meanK and varK are defined.
-/
import proofs.«405493_j33827162423889_2_alg».proof.Proof.Spec
import Mathlib.Algebra.BigOperators.Fin

noncomputable section

namespace Cert.Spec

open Idealize.ShloMosaic

/-- Row n of half a. -/
def halfRow (a : Fin 2) (n : Fin 32768) : Fin 65536 := ⟨a.val * 32768 + n.val, by omega⟩

/-- A pair (half, row within the half) names each row of the batch exactly once: the row's number divided by
    32768 is its half, the remainder its place in the half. -/
def halfEquiv : Fin 2 × Fin 32768 ≃ Fin 65536 where
  toFun p := halfRow p.1 p.2
  invFun n := (⟨n.val / 32768, by have := n.isLt; omega⟩, ⟨n.val % 32768, by omega⟩)
  left_inv := by
    rintro ⟨a, n⟩
    have ha := a.isLt
    have hn := n.isLt
    refine Prod.ext (Fin.ext ?_) (Fin.ext ?_)
    · show (a.val * 32768 + n.val) / 32768 = a.val
      omega
    · show (a.val * 32768 + n.val) % 32768 = n.val
      omega
  right_inv := by
    intro n
    refine Fin.ext ?_
    show n.val / 32768 * 32768 + n.val % 32768 = n.val
    omega

theorem sum_halves {M : Type*} [AddCommMonoid M] (f : Fin 65536 → M) :
    ∑ a : Fin 2, ∑ n : Fin 32768, f (halfRow a n) = ∑ n : Fin 65536, f n := by
  rw [← Fintype.sum_prod_type' (fun a n => f (halfRow a n))]
  exact Fintype.sum_equiv halfEquiv _ _ (fun _ => rfl)

theorem meanK_of_halves (x : Fin 65536 → Fin 128 → EReal) (w1 : Fin 128 → Fin 2048 → EReal)
    (S : Fin 2 → Fin 128 → EReal) (hS : ∀ a k, S a k = ∑ n : Fin 32768, x (halfRow a n) k) (j : Fin 2048) :
    (∑ k : Fin 128, Ideal.div (∑ a : Fin 2, S a k) nN * w1 k j) = meanK x w1 j := by
  have hk : ∀ k, ∑ a : Fin 2, S a k = ∑ n : Fin 65536, x n k := fun k => by
    simp only [hS]
    exact sum_halves (fun n => x n k)
  simp only [hk]
  rfl

theorem varK_of_halves (x : Fin 65536 → Fin 128 → EReal) (w1 : Fin 128 → Fin 2048 → EReal)
    (S : Fin 2 → Fin 128 → EReal) (Q : Fin 2 → Fin 128 → Fin 128 → EReal)
    (hS : ∀ a k, S a k = ∑ n : Fin 32768, x (halfRow a n) k)
    (hQ : ∀ a k k', Q a k k' = ∑ n : Fin 32768, x (halfRow a n) k * x (halfRow a n) k') (j : Fin 2048) :
    max ((∑ k : Fin 128, w1 k j * ∑ k' : Fin 128, Ideal.div (∑ a : Fin 2, Q a k k') nN * w1 k' j)
        - (∑ k : Fin 128, Ideal.div (∑ a : Fin 2, S a k) nN * w1 k j)
          * (∑ k : Fin 128, Ideal.div (∑ a : Fin 2, S a k) nN * w1 k j)) 0
      = varK x w1 j := by
  have hk : ∀ k, ∑ a : Fin 2, S a k = ∑ n : Fin 65536, x n k := fun k => by
    simp only [hS]
    exact sum_halves (fun n => x n k)
  have hq : ∀ k k', ∑ a : Fin 2, Q a k k' = ∑ n : Fin 65536, x n k * x n k' := fun k k' => by
    simp only [hQ]
    exact sum_halves (fun n => x n k * x n k')
  simp only [hk, hq]
  rfl

end Cert.Spec

end
-- ==== Proof.KCover.lean ====
/-
  From blocks to the array, for the main kernel's output: point t of the 64 writes back rows 1024·t … 1024·t + 1023
  of the [65536, 54] result, so the result ends holding any function G whose rows the points' block outputs are; and
  each input block read at its coordinates: the feature rows and the label column move with t, every other
  operand is staged whole.
-/
import proofs.«405493_j33827162423889_2_alg».proof.Proof.Gen.KernelIdeal.Frame
import Idealize.ShloMosaic.Lib.Pipeline.Value
import Idealize.ShloMosaic.Lib.ValueIdx

set_option maxRecDepth 16384

noncomputable section

namespace Cert.KernelIdeal.Cover

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The index maps, decided over the grid -/

theorem idx_out : ∀ t : Fin cfg1.N, win1_11.index t (0 : Fin 2) = t.val ∧ win1_11.index t (1 : Fin 2) = 0 :=
  (by decide +kernel : ∀ t : Fin grid1.N, _)
theorem idx_x : ∀ t : Fin cfg1.N, win1_0.index t (0 : Fin 2) = t.val ∧ win1_0.index t (1 : Fin 2) = 0 :=
  (by decide +kernel : ∀ t : Fin grid1.N, _)
theorem idx_cat : ∀ t : Fin cfg1.N, win1_8.index t (0 : Fin 2) = t.val ∧ win1_8.index t (1 : Fin 2) = 0 :=
  (by decide +kernel : ∀ t : Fin grid1.N, _)
theorem idx_w1 : ∀ t : Fin cfg1.N, win1_1.index t (0 : Fin 2) = 0 ∧ win1_1.index t (1 : Fin 2) = 0 :=
  (by decide +kernel : ∀ t : Fin grid1.N, _)
theorem idx_w2 : ∀ t : Fin cfg1.N, win1_2.index t (0 : Fin 2) = 0 ∧ win1_2.index t (1 : Fin 2) = 0 :=
  (by decide +kernel : ∀ t : Fin grid1.N, _)
theorem idx_w3 : ∀ t : Fin cfg1.N, win1_3.index t (0 : Fin 2) = 0 ∧ win1_3.index t (1 : Fin 2) = 0 :=
  (by decide +kernel : ∀ t : Fin grid1.N, _)
theorem idx_w4 : ∀ t : Fin cfg1.N, win1_4.index t (0 : Fin 2) = 0 ∧ win1_4.index t (1 : Fin 2) = 0 :=
  (by decide +kernel : ∀ t : Fin grid1.N, _)
theorem idx_w5 : ∀ t : Fin cfg1.N, win1_5.index t (0 : Fin 2) = 0 ∧ win1_5.index t (1 : Fin 2) = 0 :=
  (by decide +kernel : ∀ t : Fin grid1.N, _)
theorem idx_w6 : ∀ t : Fin cfg1.N, win1_6.index t (0 : Fin 2) = 0 ∧ win1_6.index t (1 : Fin 2) = 0 :=
  (by decide +kernel : ∀ t : Fin grid1.N, _)
theorem idx_w7 : ∀ t : Fin cfg1.N, win1_7.index t (0 : Fin 2) = 0 ∧ win1_7.index t (1 : Fin 2) = 0 :=
  (by decide +kernel : ∀ t : Fin grid1.N, _)
theorem idx_w9 : ∀ t : Fin cfg1.N, win1_9.index t (0 : Fin 2) = 0 ∧ win1_9.index t (1 : Fin 2) = 0 :=
  (by decide +kernel : ∀ t : Fin grid1.N, _)
theorem idx_w10 : ∀ t : Fin cfg1.N, win1_10.index t (0 : Fin 2) = 0 ∧ win1_10.index t (1 : Fin 2) = 0 :=
  (by decide +kernel : ∀ t : Fin grid1.N, _)

/-! ## The input blocks at their coordinates -/

/-- Row p of point t's feature block is row 1024·t + p of the array. -/
theorem blk0_apply (c : Dev nD) (t : Fin cfg1.N) (p : Fin 1024) (q : Fin 128) :
    iblk1 V c 0 t (ix2 p q) = V c (Pipeline.arrRef spec1 0) (ix2 ⟨t.val * 1024 + p.val, by have ht : t.val < 64 := t.isLt; have := p.isLt; show _ < 65536; omega⟩ q) := by
  unfold iblk1
  show V c (Pipeline.arrRef spec1 0) (((cfg1.win 0).blk t).view.emb (ix2 p q)) = _
  congr 1
  funext a; apply Fin.ext
  have e0 : win1_0.index t (0 : Fin 2) = t.val := (idx_x t).1
  have e1 : win1_0.index t (1 : Fin 2) = 0 := (idx_x t).2
  match a with
  | ⟨0, _⟩ => show win1_0.index t (0 : Fin 2) * 1024 + 1 * p.val = t.val * 1024 + p.val; omega
  | ⟨1, _⟩ => show win1_0.index t (1 : Fin 2) * 128 + 1 * q.val = q.val; omega

/-- Row p of point t's label block is row 1024·t + p of the label column. -/
theorem blk8_apply (c : Dev nD) (t : Fin cfg1.N) (p : Fin 1024) (q : Fin 1) :
    iblk1 V c 8 t (ix2 p q) = V c (Pipeline.arrRef spec1 8) (ix2 ⟨t.val * 1024 + p.val, by have ht : t.val < 64 := t.isLt; have := p.isLt; show _ < 65536; omega⟩ q) := by
  unfold iblk1
  show V c (Pipeline.arrRef spec1 8) (((cfg1.win 8).blk t).view.emb (ix2 p q)) = _
  congr 1
  funext a; apply Fin.ext
  have e0 : win1_8.index t (0 : Fin 2) = t.val := (idx_cat t).1
  have e1 : win1_8.index t (1 : Fin 2) = 0 := (idx_cat t).2
  match a with
  | ⟨0, _⟩ => show win1_8.index t (0 : Fin 2) * 1024 + 1 * p.val = t.val * 1024 + p.val; omega
  | ⟨1, _⟩ => show win1_8.index t (1 : Fin 2) * 1 + 1 * q.val = q.val; omega

/- A block staged whole reads its array at the same coordinates: its block index is 0 on both axes, so the
   coordinate of entry (p, q) of the block is 0 · extent + 1 · p on the rows and 0 · extent + 1 · q on the columns.
   The one argument, shared by the nine operands that are staged whole (n the window's number, w the window, e its
   decided index fact, a × b its extents). -/
set_option hygiene false in
local macro "whole_block" n:num "," w:term "," e:term "," a:num "," b:num : tactic => `(tactic| (
  unfold iblk1
  show V c (Pipeline.arrRef spec1 $n) (((cfg1.win $n).blk t).view.emb (ix2 p q)) = _
  congr 1
  funext i; apply Fin.ext
  have e0 : ($w).index t (0 : Fin 2) = 0 := ($e t).1
  have e1 : ($w).index t (1 : Fin 2) = 0 := ($e t).2
  match i with
  | ⟨0, _⟩ => show ($w).index t (0 : Fin 2) * $a + 1 * p.val = p.val; omega
  | ⟨1, _⟩ => show ($w).index t (1 : Fin 2) * $b + 1 * q.val = q.val; omega))

theorem blk1_apply (c : Dev nD) (t : Fin cfg1.N) (p : Fin 128) (q : Fin 2048) :
    iblk1 V c 1 t (ix2 p q) = V c (Pipeline.arrRef spec1 1) (ix2 p q) := by whole_block 1, win1_1, idx_w1, 128, 2048
theorem blk2_apply (c : Dev nD) (t : Fin cfg1.N) (p : Fin 1) (q : Fin 2048) :
    iblk1 V c 2 t (ix2 p q) = V c (Pipeline.arrRef spec1 2) (ix2 p q) := by whole_block 2, win1_2, idx_w2, 1, 2048
theorem blk3_apply (c : Dev nD) (t : Fin cfg1.N) (p : Fin 1) (q : Fin 2048) :
    iblk1 V c 3 t (ix2 p q) = V c (Pipeline.arrRef spec1 3) (ix2 p q) := by whole_block 3, win1_3, idx_w3, 1, 2048
theorem blk4_apply (c : Dev nD) (t : Fin cfg1.N) (p : Fin 1) (q : Fin 2048) :
    iblk1 V c 4 t (ix2 p q) = V c (Pipeline.arrRef spec1 4) (ix2 p q) := by whole_block 4, win1_4, idx_w4, 1, 2048
theorem blk5_apply (c : Dev nD) (t : Fin cfg1.N) (p : Fin 1) (q : Fin 2048) :
    iblk1 V c 5 t (ix2 p q) = V c (Pipeline.arrRef spec1 5) (ix2 p q) := by whole_block 5, win1_5, idx_w5, 1, 2048
theorem blk6_apply (c : Dev nD) (t : Fin cfg1.N) (p : Fin 128) (q : Fin 96) :
    iblk1 V c 6 t (ix2 p q) = V c (Pipeline.arrRef spec1 6) (ix2 p q) := by whole_block 6, win1_6, idx_w6, 128, 96
theorem blk7_apply (c : Dev nD) (t : Fin cfg1.N) (p : Fin 1) (q : Fin 6) :
    iblk1 V c 7 t (ix2 p q) = V c (Pipeline.arrRef spec1 7) (ix2 p q) := by whole_block 7, win1_7, idx_w7, 1, 6
theorem blk9_apply (c : Dev nD) (t : Fin cfg1.N) (p : Fin 1) (q : Fin 16) :
    iblk1 V c 9 t (ix2 p q) = V c (Pipeline.arrRef spec1 9) (ix2 p q) := by whole_block 9, win1_9, idx_w9, 1, 16
theorem blk10_apply (c : Dev nD) (t : Fin cfg1.N) (p : Fin 1) (q : Fin 16) :
    iblk1 V c 10 t (ix2 p q) = V c (Pipeline.arrRef spec1 10) (ix2 p q) := by whole_block 10, win1_10, idx_w10, 1, 16

/-! ## The output -/

/-- What point t writes back is block t of G, when the block output's row p is row 1024·t + p of G. -/
theorem flushed_eq (c : Dev nD) (t : Fin cfg1.N) (G : S65536x54.Idx → EReal)
    (hG : ∀ (p : Fin 1024) (q : Fin 54),
      out1_11 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q)
        = G (ix2 ⟨t.val * 1024 + p.val, by have ht : t.val < 64 := t.isLt; have := p.isLt; show _ < 65536; omega⟩ q)) :
    (dat1 (F := Ideal) V c).flushed 11 t = ((cfg1.win 11).blk t).view.read (Elt Ideal) G := by
  show (cfg1.win 11).cut (grid1.coords t) ((dat1 V c).after 11 t) = _
  rw [after1_11]
  funext j
  obtain ⟨p, q, rfl⟩ : ∃ (p : Fin 1024) (q : Fin 54), j = ix2 p q := ⟨j 0, j 1, eq_ix2 j⟩
  show out1_11 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q) = G (((cfg1.win 11).blk t).view.emb (ix2 p q))
  rw [hG p q]
  congr 1
  funext a; apply Fin.ext
  have e0 : win1_11.index t (0 : Fin 2) = t.val := (idx_out t).1
  have e1 : win1_11.index t (1 : Fin 2) = 0 := (idx_out t).2
  match a with
  | ⟨0, _⟩ => show t.val * 1024 + p.val = win1_11.index t (0 : Fin 2) * 1024 + 1 * p.val; omega
  | ⟨1, _⟩ => show q.val = win1_11.index t (1 : Fin 2) * 54 + 1 * q.val; omega

/-- An index of the result is in point t's block iff its row is among the block's 1024. -/
theorem mem_blk (t : Fin cfg1.N) (i : S65536x54.Idx) :
    i ∈ ((cfg1.win 11).blk t).view.set ↔ ∀ a : Fin 2, win1_11.index t a * S1024x54.size a ≤ (i a).val ∧ (i a).val < win1_11.index t a * S1024x54.size a + S1024x54.size a := by
  show i ∈ ((View.whole main_v24).slice (win1_11.rect t)).set ↔ _
  rw [View.set_slice_whole, Rect.mem_set_unit]
  exact Iff.rfl

/-- Every index of the result lies in the block of the point its row names. -/
theorem cover (i : S65536x54.Idx) : ∃ t : Fin cfg1.N, (cfg1.win 11).flush t = true ∧ i ∈ ((cfg1.win 11).blk t).view.set := by
  have hi0 : (i 0).val < 65536 := (i 0).isLt
  have hi1 : (i 1).val < 54 := (i 1).isLt
  refine ⟨⟨(i 0).val / 1024, by show _ < 64; omega⟩, flush1_11 _, ?_⟩
  rw [mem_blk]
  intro a
  have e0 := (idx_out ⟨(i 0).val / 1024, by show _ < 64; omega⟩).1
  have e1 := (idx_out ⟨(i 0).val / 1024, by show _ < 64; omega⟩).2
  match a with
  | ⟨0, _⟩ => show win1_11.index _ (0 : Fin 2) * 1024 ≤ (i 0).val ∧ (i 0).val < win1_11.index _ (0 : Fin 2) * 1024 + 1024; simp only [] at e0; omega
  | ⟨1, _⟩ => show win1_11.index _ (1 : Fin 2) * 54 ≤ (i 1).val ∧ (i 1).val < win1_11.index _ (1 : Fin 2) * 54 + 54; omega

/-- THE RESULT ARRAY after the region: G, when every point's block output is G's rows. -/
theorem final (c : Dev nD) (G : S65536x54.Idx → EReal)
    (hG : ∀ (t : Fin cfg1.N) (p : Fin 1024) (q : Fin 54),
      out1_11 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q)
        = G (ix2 ⟨t.val * 1024 + p.val, by have ht : t.val < 64 := t.isLt; have := p.isLt; show _ < 65536; omega⟩ q)) :
    (dat1 (F := Ideal) V c).arrAt 11 cfg1.N = G :=
  (dat1 V c).arrAt_eq_of_cover 11 G (fun t _ => flushed_eq V c t G (hG t)) cover

end Cert.KernelIdeal.Cover

end
-- ==== Proof.KBodyDefs.lean ====
/-
  Names for the stages of the main kernel's block computation, over the block's eleven inputs:
  the one-hot of the row's label over the sixteen categories, the normalised and rectified activations of all
  2048 channels, the row's own 128 channels picked by the one-hot weights (built up in three steps), the product
  with the flattened classifier (96 columns), the six logits picked from the 96 and shifted by the bias, their
  row maximum and sum of exponentials, the log-softmax, the row's segment start and length, and the six placement
  steps that add slot s at its column. The generated block output is their composition.
-/
import proofs.«405493_j33827162423889_2_alg».proof.Proof.Gen.KernelIdeal.Frame

noncomputable section

namespace Cert.KernelIdeal.Body

open Idealize.ShloMosaic Cert.KernelIdeal Cert.KernelIdeal.Gen

variable {F : FTy → Type} [FloatOps F]

section
variable (x0 : Vec F S1024x128 .f32) (x1 : Vec F S128x2048 .f32) (x2 x3 x4 x5 : Vec F S1x2048 .f32)
  (x6 : Vec F S128x96 .f32) (x7 : Vec F S1x6 .f32) (x8 : Vec F S1024x1 .i32) (x9 x10 : Vec F S1x16 .f32)

/-- One-hot weights of the row's label over the categories. -/
def oh : FVec F S1024x16 .f32 := k1_pay3 (View.ld x8 r1_3)
/-- Activations of all channels. -/
def act : FVec F S1024x2048 .f32 :=
  k1_pay2 (View.ld x0 r1_0) (View.ld x1 r1_1) (View.ld x2 r1_2) (View.ld x3 r1_2) (View.ld x4 r1_2) (View.ld x5 r1_2)
/-- The picked channels after category 0, after categories 0–12, (all sixteen are finished inside `lga`). -/
def sel0 : FVec F S1024x128 .f32 :=
  k1_pay4 (View.ld x0 r1_0) (View.ld x1 r1_1) (View.ld x2 r1_2) (View.ld x3 r1_2) (View.ld x4 r1_2) (View.ld x5 r1_2) (View.ld x8 r1_3)
def sel12 : FVec F S1024x128 .f32 := k1_pay5 (act x0 x1 x2 x3 x4 x5) (oh x8) (sel0 x0 x1 x2 x3 x4 x5 x8)
/-- The picked channels times the flattened classifier. -/
def lga : FVec F S1024x96 .f32 := k1_pay6 (act x0 x1 x2 x3 x4 x5) (oh x8) (sel12 x0 x1 x2 x3 x4 x5 x8) (View.ld x6 r1_4)
/-- The logits picked for categories 0–6. -/
def pick6 : FVec F S1024x6 .f32 := k1_pay7 (act x0 x1 x2 x3 x4 x5) (oh x8) (sel12 x0 x1 x2 x3 x4 x5 x8) (View.ld x6 r1_4)
end

section
variable (o : FVec F S1024x16 .f32) (a : FVec F S1024x96 .f32) (p : FVec F S1024x6 .f32) (l7 : Vec F S1x6 .f32)
  (l9 l10 : Vec F S1x16 .f32)

/-- From the one-hot `o`, the 96-wide product `a`, the partial pick `p` and the bias, segment starts and lengths:
    logits, maximum, sum of exponentials, log-softmax, start, length, and the placement steps. -/
def lg : FVec F S1024x6 .f32 := k1_pay8 o a p l7
def mx : FVec F S1024x1 .f32 := k1_pay9 o a p l7
def se : FVec F S1024x1 .f32 := k1_pay10 o a p l7
def ls : FVec F S1024x6 .f32 := k1_pay11 (lg o a p l7) (mx o a p l7) (se o a p l7)
def sh : FVec F S1024x1 .f32 := k1_pay12 o l9
def sg : FVec F S1024x1 .f32 := k1_pay13 o l10
def io : IVec S1024x54 32 := iota .tc S1024x54 32 [1] iota_S1024x54_d1_w32
def acc0 : FVec F S1024x54 .f32 := k1_pay14 o (lg o a p l7) (mx o a p l7) (se o a p l7) l9 l10
def acc2 : FVec F S1024x54 .f32 :=
  k1_pay16 (ls o a p l7) (sh o l9) (sg o l10) io (acc0 o a p l7 l9 l10) 53#32 (k1_pay15 o l9)
def acc4 : FVec F S1024x54 .f32 :=
  k1_pay19 (ls o a p l7) (sh o l9) (sg o l10) io (acc2 o a p l7 l9 l10) (k1_pay17 (sh o l9)) (k1_pay18 (F := F))
/-- All six slots placed. -/
def tail : FVec F S1024x54 .f32 :=
  k1_pay1 io (acc4 o a p l7 l9 l10) (k1_pay20 (ls o a p l7) (sg o l10)) (k1_pay21 (sh o l9))
end

/-- The generated block output is the placement over the stages above. -/
theorem out1_11_eq (x0 : Vec F S1024x128 .f32) (x1 : Vec F S128x2048 .f32) (x2 x3 x4 x5 : Vec F S1x2048 .f32)
    (x6 : Vec F S128x96 .f32) (x7 : Vec F S1x6 .f32) (x8 : Vec F S1024x1 .i32) (x9 x10 : Vec F S1x16 .f32) :
    out1_11 x0 x1 x2 x3 x4 x5 x6 x7 x8 x9 x10
      = View.canon [⟨r1_7, tail (oh x8) (lga x0 x1 x2 x3 x4 x5 x6 x8) (pick6 x0 x1 x2 x3 x4 x5 x6 x8)
          (View.ld x7 r1_5) (View.ld x9 r1_6) (View.ld x10 r1_6)⟩] := rfl

end Cert.KernelIdeal.Body

end
-- ==== Proof.KBodyA.lean ====
/-
  Read at a row: the one-hot weights of a label in range are 1 at its category and 0 elsewhere; the activation of
  channel j is the rectified normalisation of the row's product with column j.
  The weights compare the label's column, spread over sixteen columns, with the column number, and a word below 16
  equals a column number exactly when that column is its category. The activations read the product with a zero
  accumulator as the sum over the 128 features, subtract the column's mean, multiply by the reciprocal root of the
  variance plus the offset, by the scale, add the shift, and keep the value where it is nonnegative, a fifth of it elsewhere.
-/
import proofs.«405493_j33827162423889_2_alg».proof.Proof.KBodyDefs
import proofs.«405493_j33827162423889_2_alg».proof.Proof.Spec
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-! ## A column spread over a row -/

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The whole-block rectangles start at the origin. -/
theorem hz2 : (![0, 0] : Fin 2 → Nat) = fun _ => 0 := by decide

/-! ## The one-hot weights -/

/-- A label word below 16 equals the word of a category exactly when the category is the label's. -/
theorem label_eq_iff (w : BitVec 32) (c : Fin 16) (hw : w.toNat < 16) :
    w = BitVec.ofNat 32 c.val ↔ c = Spec.ci w := by
  constructor
  · intro h
    apply Fin.ext
    show c.val = w.toNat % 16
    rw [h, BitVec.toNat_ofNat]
    have := c.isLt
    omega
  · intro h
    apply BitVec.eq_of_toNat_eq
    rw [BitVec.toNat_ofNat, h]
    show w.toNat = (w.toNat % 16) % 2 ^ 32
    omega

/-- The comparison bit, widened and converted, is 1 or 0. -/
theorem onehot_word (w : BitVec 32) (c : Fin 16) (hw : w.toNat < 16) :
    (FloatOps.sitofp .f32 ((IntOp.cmpi .eq w (BitVec.ofNat 32 c.val)).setWidth 32) : Ideal .f32)
      = if c = Spec.ci w then (1 : EReal) else 0 := by
  by_cases hc : c = Spec.ci w
  · have hb : IntOp.cmpi .eq w (BitVec.ofNat 32 c.val) = 1#1 := by
      show BitVec.ofBool (w == BitVec.ofNat 32 c.val) = 1#1
      rw [show (w == BitVec.ofNat 32 c.val) = true from beq_iff_eq.2 ((label_eq_iff w c hw).2 hc)]
      rfl
    rw [hb, if_pos hc]
    show ((((1#1 : BitVec 1).setWidth 32).toInt : ℝ) : EReal) = 1
    norm_num
  · have hb : IntOp.cmpi .eq w (BitVec.ofNat 32 c.val) = 0#1 := by
      show BitVec.ofBool (w == BitVec.ofNat 32 c.val) = 0#1
      rw [show (w == BitVec.ofNat 32 c.val) = false from beq_eq_false_iff_ne.2 fun h => hc ((label_eq_iff w c hw).1 h)]
      rfl
    rw [hb, if_neg hc]
    show ((((0#1 : BitVec 1).setWidth 32).toInt : ℝ) : EReal) = 0
    norm_num

theorem oh_apply (x8 : Vec Ideal S1024x1 .i32) (r : Fin 1024) (c : Fin 16) (hcat : (x8 (ix2 r 0)).toNat < 16) :
    oh (F := Ideal) x8 (ix2 r c) = if c = Spec.ci (x8 (ix2 r 0)) then (1 : EReal) else 0 := by
  unfold oh k1_pay3
  show FloatOps.sitofp .f32 ((IntOp.cmpi .eq
      (broadcastTo S1024x16 (shapeCast S1024x1 (View.ld x8 r1_3) shapeCasts_S1024x1_S1024x1) broadcasts_S1024x1_S1024x16 (ix2 r c))
      (iota .tc S1024x16 32 [1] iota_S1024x16_d1_w32 (ix2 r c))).setWidth 32) = _
  have e1 : shapeCast S1024x1 (View.ld x8 r1_3) shapeCasts_S1024x1_S1024x1 = x8 :=
    (shapeCast_self _ _).trans (View.ld_unit_zero (S := S1024x1) hz2 _ x8)
  rw [e1]
  rw [broadcastTo_a1_ab_apply x8 broadcasts_S1024x1_S1024x16 r c]
  rw [iota_single_apply]
  exact onehot_word _ c hcat

/-! ## The product of the row block with the weights -/

/-- The left operand's row is the result's row. -/
theorem lhs_mm_0 (i : S1024x2048.Idx) (q : dot_S1024x128_S128x2048_S1024x2048_1_0_0_1_n_n.contr.Idx) :
    (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide),
    dif_pos (show (0 : Fin S1024x128.rank) ∈ dot_S1024x128_S128x2048_S1024x2048_1_0_0_1_n_n.lhsNonContracting by decide)]
  rfl
/-- The left operand's column is the summation position. -/
theorem lhs_mm_1 (i : S1024x2048.Idx) (q : dot_S1024x128_S128x2048_S1024x2048_1_0_0_1_n_n.contr.Idx) :
    (dot_S1024x128_S128x2048_S1024x2048_1_0_0_1_n_n.lhsIdx i q 1).val = (q ⟨0, by decide⟩).val :=
  dot_S1024x128_S128x2048_S1024x2048_1_0_0_1_n_n.lhsIdx_val_of_single rfl i q
/-- The right operand's row is the summation position. -/
theorem rhs_mm_0 (i : S1024x2048.Idx) (q : dot_S1024x128_S128x2048_S1024x2048_1_0_0_1_n_n.contr.Idx) :
    (dot_S1024x128_S128x2048_S1024x2048_1_0_0_1_n_n.rhsIdx i q 0).val = (q ⟨0, by decide⟩).val :=
  dot_S1024x128_S128x2048_S1024x2048_1_0_0_1_n_n.rhsIdx_val_of_single rfl i q
/-- The right operand's column is the result's column. -/
theorem rhs_mm_1 (i : S1024x2048.Idx) (q : dot_S1024x128_S128x2048_S1024x2048_1_0_0_1_n_n.contr.Idx) :
    (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide),
    dif_pos (show (1 : Fin S128x2048.rank) ∈ dot_S1024x128_S128x2048_S1024x2048_1_0_0_1_n_n.rhsNonContracting by decide)]
  rfl

/-- The product into a zero accumulator, read at (r, j), is the sum over the 128 features. -/
theorem mm_apply (x0 : FVec Ideal S1024x128 .f32) (x1 : FVec Ideal S128x2048 .f32) (r : Fin 1024) (j : Fin 2048) :
    matmul dot_S1024x128_S128x2048_S1024x2048_1_0_0_1_n_n (some .fp32) x0 x1 (constant (F := Ideal) S1024x2048 .f32 0x00000000#32) (ix2 r j)
      = ∑ k : Fin 128, x0 (ix2 r k) * x1 (ix2 k j) := by
  show FloatOps.matmul dot_S1024x128_S128x2048_S1024x2048_1_0_0_1_n_n (some .fp32) x0 x1 (constant (F := Ideal) S1024x2048 .f32 0x00000000#32) (ix2 r j) = _
  rw [Ideal.matmul_constant_zero_apply,
    ← Equiv.sum_comp (contrEquiv1 dot_S1024x128_S128x2048_S1024x2048_1_0_0_1_n_n 128 rfl rfl).symm]
  refine Finset.sum_congr rfl fun k _ => ?_
  have hk := contrEquiv1_symm_val dot_S1024x128_S128x2048_S1024x2048_1_0_0_1_n_n 128 rfl rfl k
  have el : dot_S1024x128_S128x2048_S1024x2048_1_0_0_1_n_n.lhsIdx (ix2 r j)
      ((contrEquiv1 dot_S1024x128_S128x2048_S1024x2048_1_0_0_1_n_n 128 rfl rfl).symm k) = ix2 r k :=
    funext fun a => Fin.ext (by
      match a with
      | ⟨0, _⟩ => exact lhs_mm_0 _ _
      | ⟨1, _⟩ => exact (lhs_mm_1 _ _).trans hk)
  have er : dot_S1024x128_S128x2048_S1024x2048_1_0_0_1_n_n.rhsIdx (ix2 r j)
      ((contrEquiv1 dot_S1024x128_S128x2048_S1024x2048_1_0_0_1_n_n 128 rfl rfl).symm k) = ix2 k j :=
    funext fun a => Fin.ext (by
      match a with
      | ⟨0, _⟩ => exact (rhs_mm_0 _ _).trans hk
      | ⟨1, _⟩ => exact rhs_mm_1 _ _)
  rw [el, er]

/-! ## Normalisation and rectifier -/

/-- The block's value before the rectifier, from the product M and the four rows of statistics and parameters. -/
def preAct (M : FVec Ideal S1024x2048 .f32) (v3 v5 v7 v9 : FVec Ideal S1x2048 .f32) : FVec Ideal S1024x2048 .f32 :=
  addf (mulf (mulf (subf M (broadcastTo S1024x2048 v3 broadcasts_S1x2048_S1024x2048))
    (broadcastTo S1024x2048 (rsqrt (addf v5 (broadcast S1x2048 (Scalar.ofBits .f32 0x3727C5AC#32)))) broadcasts_S1x2048_S1024x2048))
    (broadcastTo S1024x2048 v7 broadcasts_S1x2048_S1024x2048)) (broadcastTo S1024x2048 v9 broadcasts_S1x2048_S1024x2048)

/-- At (r, j) it is the kernel's normalisation of M (r, j) by column j's mean, variance, scale and shift. -/
theorem preAct_apply (M : FVec Ideal S1024x2048 .f32) (v3 v5 v7 v9 : FVec Ideal S1x2048 .f32) (r : Fin 1024) (j : Fin 2048) :
    preAct M v3 v5 v7 v9 (ix2 r j)
      = Spec.normK (M (ix2 r j)) (v3 (ix2 0 j)) (v5 (ix2 0 j)) (v7 (ix2 0 j)) (v9 (ix2 0 j)) := by
  unfold preAct Spec.normK
  rw [addf_apply, mulf_apply, mulf_apply, subf_apply, broadcastTo_1b_ab_apply, broadcastTo_1b_ab_apply,
    broadcastTo_1b_ab_apply, broadcastTo_1b_ab_apply]
  rfl

/-- Choosing v where 0 ≤ v and 0.2 · v elsewhere is the leaky rectifier. -/
theorem lrelu_word (v : EReal) :
    Scalar.select (FloatOps.cmpf .oge (v : Ideal .f32) (Scalar.ofBits (F := Ideal) .f32 0x00000000#32)) v
      (FloatOps.mulf (Scalar.ofBits (F := Ideal) .f32 0x3E4CCCCD#32) (v : Ideal .f32)) = Spec.lrelu v := by
  unfold Spec.lrelu
  have h0 : (Scalar.ofBits (F := Ideal) .f32 0x00000000#32 : EReal) = 0 := Ideal.ofBits_zero_f32
  by_cases h : (0 : EReal) ≤ v
  · rw [if_pos h]
    have hb : FloatOps.cmpf .oge (v : Ideal .f32) (Scalar.ofBits (F := Ideal) .f32 0x00000000#32) = 1#1 := by
      show BitVec.ofBool (decide ((Scalar.ofBits (F := Ideal) .f32 0x00000000#32 : EReal) ≤ v)) = 1#1
      rw [h0, decide_eq_true h]; rfl
    rw [hb, select_one]
  · rw [if_neg h]
    have hb : FloatOps.cmpf .oge (v : Ideal .f32) (Scalar.ofBits (F := Ideal) .f32 0x00000000#32) = 0#1 := by
      show BitVec.ofBool (decide ((Scalar.ofBits (F := Ideal) .f32 0x00000000#32 : EReal) ≤ v)) = 0#1
      rw [h0, decide_eq_false h]; rfl
    rw [hb, select_zero]
    rfl

/-- The block's activations are the rectifier on the normalised product. -/
theorem k1_pay2_eq (v0 : FVec Ideal S1024x128 .f32) (v1 : FVec Ideal S128x2048 .f32) (v3 v5 v7 v9 : FVec Ideal S1x2048 .f32) (i : S1024x2048.Idx) :
    k1_pay2 (F := Ideal) v0 v1 v3 v5 v7 v9 i
      = Spec.lrelu (preAct (matmul dot_S1024x128_S128x2048_S1024x2048_1_0_0_1_n_n (some .fp32) v0 v1
          (constant (F := Ideal) S1024x2048 .f32 0x00000000#32)) v3 v5 v7 v9 i) := by
  unfold k1_pay2
  simp only [shapeCast_self]
  exact lrelu_word _

theorem act_apply (x0 : Vec Ideal S1024x128 .f32) (x1 : Vec Ideal S128x2048 .f32) (x2 x3 x4 x5 : Vec Ideal S1x2048 .f32) (r : Fin 1024) (j : Fin 2048) :
    act (F := Ideal) x0 x1 x2 x3 x4 x5 (ix2 r j)
      = Spec.lrelu (Spec.normK (Spec.hrow (fun k => x0 (ix2 r k)) (fun k j => x1 (ix2 k j)) j)
        (x2 (ix2 0 j)) (x3 (ix2 0 j)) (x4 (ix2 0 j)) (x5 (ix2 0 j))) := by
  unfold act
  rw [View.ld_unit_zero (S := S1024x128) hz2, View.ld_unit_zero (S := S128x2048) hz2, View.ld_unit_zero (S := S1x2048) hz2,
    View.ld_unit_zero (S := S1x2048) hz2, View.ld_unit_zero (S := S1x2048) hz2, View.ld_unit_zero (S := S1x2048) hz2]
  rw [k1_pay2_eq, preAct_apply, mm_apply]
  rfl

end Cert.KernelIdeal.Body

end
-- ==== Proof.KBodyB.lean ====
/-
  Read at a row: the six logits are the row's own 128 activations against its category's classifier, plus the bias.
  The block computation weights the sixteen 128-channel slices of the activations by the row's one-hot weights and adds
  them up from zero, multiplies the result by the flattened 128×96 classifier, and then weights the sixteen 6-column
  slices of that product by the same one-hot weights, adds them up from zero and adds the bias row. With the label in
  range the weights are 1 at the row's category and 0 elsewhere, and since 0 · x = 0, 1 · x = x and 0 + x = x for every
  extended real (the infinities included) each sixteen-term sum is exactly its one surviving term.
-/
import proofs.«405493_j33827162423889_2_alg».proof.Proof.KBodyA
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

namespace Logits

/-- The zero offsets of a whole-block read of a matrix. -/
theorem zeroOffsets : (![0, 0] : Fin 2 → ℕ) = fun _ => 0 := by
  funext a; match a with | ⟨0, _⟩ => rfl | ⟨1, _⟩ => rfl

/-- A column broadcast along the lanes reads, at (p, c), the column's entry of row p. -/
theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column c of the one-hot weights, broadcast along the lanes, reads the row's weight of category c. -/
theorem onehot_column_apply (o : FVec Ideal S1024x16 .f32) {b : ℕ} (c : ℕ) (h : S1024x16.Slices ![0, c] S1024x1)
    (hb : S1024x1.Broadcasts ⟨2, ![1024, b]⟩) (r : Fin 1024) (d : Fin b) :
    broadcastTo ⟨2, ![1024, b]⟩ (extractStridedSlice S1024x1 ![0, c] o h) hb (ix2 r d)
      = o (ix2 r (⟨c, Nat.lt_of_succ_le (h.2 1)⟩ : Fin 16)) := by
  rw [column_broadcast_apply]
  exact slice2_axis1_apply c o h r 0 _ rfl

/-- The product against the flattened classifier, accumulated from zero, read at (row, column): the sum over the
    128 contracted coordinates of the products of the entries. -/
theorem classifier_product_apply {φ₁ φ₂ : FTy} (lhs : FVec Ideal S1024x128 φ₁) (rhs : FVec Ideal S128x96 φ₂)
    (r : Fin 1024) (q : Fin 96) :
    matmul dot_S1024x128_S128x96_S1024x96_1_0_0_1_n_n none lhs rhs (constant S1024x96 .f32 0x00000000#32) (ix2 r q)
      = ∑ d : Fin 128, lhs (ix2 r d) * rhs (ix2 d q) := by
  show FloatOps.matmul _ none lhs rhs (constant S1024x96 .f32 0x00000000#32) (ix2 r q) = _
  rw [Ideal.matmul_constant_zero_apply,
    ← Equiv.sum_comp (contrEquiv1 dot_S1024x128_S128x96_S1024x96_1_0_0_1_n_n 128 rfl rfl).symm]
  refine Finset.sum_congr rfl fun c _ => ?_
  have c2 := contrEquiv1_symm_val dot_S1024x128_S128x96_S1024x96_1_0_0_1_n_n 128 rfl rfl c
  have l2 : dot_S1024x128_S128x96_S1024x96_1_0_0_1_n_n.lhsIdx (ix2 r q) ((contrEquiv1 _ 128 rfl rfl).symm c) = ix2 r c := by
    funext ax; apply Fin.ext
    match ax with
    | ⟨0, _⟩ => simp [DotDims.lhsIdx, dot_S1024x128_S128x96_S1024x96_1_0_0_1_n_n]; rfl
    | ⟨1, _⟩ => simp [DotDims.lhsIdx, dot_S1024x128_S128x96_S1024x96_1_0_0_1_n_n]; exact c2
  have r2 : dot_S1024x128_S128x96_S1024x96_1_0_0_1_n_n.rhsIdx (ix2 r q) ((contrEquiv1 _ 128 rfl rfl).symm c) = ix2 c q := by
    funext ax; apply Fin.ext
    match ax with
    | ⟨0, _⟩ => simp [DotDims.rhsIdx, dot_S1024x128_S128x96_S1024x96_1_0_0_1_n_n]; exact c2
    | ⟨1, _⟩ => simp [DotDims.rhsIdx, dot_S1024x128_S128x96_S1024x96_1_0_0_1_n_n]; rfl
  rw [l2, r2]

/-- One of sixteen: weights that are 1 at category k and 0 elsewhere pick the k-th of sixteen values, added up from
    zero in order (0 · x = 0 and 1 · x = x hold for every extended real, the infinities included). -/
theorem pick16 (k : Fin 16) (A : Fin 16 → EReal) :
    0 + (if (0 : Fin 16) = k then (1 : EReal) else 0) * A 0
      + (if (1 : Fin 16) = k then (1 : EReal) else 0) * A 1
      + (if (2 : Fin 16) = k then (1 : EReal) else 0) * A 2
      + (if (3 : Fin 16) = k then (1 : EReal) else 0) * A 3
      + (if (4 : Fin 16) = k then (1 : EReal) else 0) * A 4
      + (if (5 : Fin 16) = k then (1 : EReal) else 0) * A 5
      + (if (6 : Fin 16) = k then (1 : EReal) else 0) * A 6
      + (if (7 : Fin 16) = k then (1 : EReal) else 0) * A 7
      + (if (8 : Fin 16) = k then (1 : EReal) else 0) * A 8
      + (if (9 : Fin 16) = k then (1 : EReal) else 0) * A 9
      + (if (10 : Fin 16) = k then (1 : EReal) else 0) * A 10
      + (if (11 : Fin 16) = k then (1 : EReal) else 0) * A 11
      + (if (12 : Fin 16) = k then (1 : EReal) else 0) * A 12
      + (if (13 : Fin 16) = k then (1 : EReal) else 0) * A 13
      + (if (14 : Fin 16) = k then (1 : EReal) else 0) * A 14
      + (if (15 : Fin 16) = k then (1 : EReal) else 0) * A 15 = A k := by
  fin_cases k <;> simp

/-- The row's weight of category c times the row's channel d of that category. -/
def wt (o : FVec Ideal S1024x16 .f32) (a : FVec Ideal S1024x2048 .f32) (r : Fin 1024) (d : Fin 128) (c : Fin 16) : EReal :=
  o (ix2 r c) * a (ix2 r (Spec.chan c d))

/-- The row's weight of category c times the row's entry of the 96-wide product at slot s of that category. -/
def wl (o : FVec Ideal S1024x16 .f32) (A : FVec Ideal S1024x96 .f32) (r : Fin 1024) (s : Fin 6) (c : Fin 16) : EReal :=
  o (ix2 r c) * A (ix2 r (Spec.flat c s))

/-- The picked channels after category 0: zero plus the first weighted slice. -/
theorem sel0_apply (x0 : Vec Ideal S1024x128 .f32) (x1 : Vec Ideal S128x2048 .f32) (x2 x3 x4 x5 : Vec Ideal S1x2048 .f32)
    (x8 : Vec Ideal S1024x1 .i32) (r : Fin 1024) (d : Fin 128) :
    sel0 x0 x1 x2 x3 x4 x5 x8 (ix2 r d) = 0 + wt (oh x8) (act x0 x1 x2 x3 x4 x5) r d 0 := by
  unfold sel0 k1_pay4
  simp only [addf_apply, mulf_apply, broadcast_apply, onehot_column_apply, slice2_axis1_eq]
  show Ideal.ofBits .f32 0x00000000#32 + _ = _
  rw [Ideal.ofBits_zero_f32]
  rfl

/-- Categories 1 to 12 added to what came before. -/
theorem sel12_step (a : FVec Ideal S1024x2048 .f32) (o : FVec Ideal S1024x16 .f32) (z : FVec Ideal S1024x128 .f32)
    (r : Fin 1024) (d : Fin 128) :
    k1_pay5 a o z (ix2 r d) = z (ix2 r d) + wt o a r d 1 + wt o a r d 2 + wt o a r d 3 + wt o a r d 4 + wt o a r d 5 + wt o a r d 6 + wt o a r d 7 + wt o a r d 8 + wt o a r d 9 + wt o a r d 10 + wt o a r d 11 + wt o a r d 12 := by
  unfold k1_pay5
  simp only [addf_apply, mulf_apply, onehot_column_apply, slice2_axis1_eq]
  rfl

/-- Categories 13 to 15 added, then the product with the classifier (the change of format in between is the identity
    on extended reals). -/
theorem product_step (a : FVec Ideal S1024x2048 .f32) (o : FVec Ideal S1024x16 .f32) (z : FVec Ideal S1024x128 .f32)
    (w : Vec Ideal S128x96 .f32) (r : Fin 1024) (q : Fin 96) :
    k1_pay6 a o z w (ix2 r q)
      = ∑ d : Fin 128, (z (ix2 r d) + wt o a r d 13 + wt o a r d 14 + wt o a r d 15) * w (ix2 d q) := by
  unfold k1_pay6
  simp only [classifier_product_apply, truncf_apply, shapeCast_self, addf_apply, mulf_apply, onehot_column_apply,
    slice2_axis1_eq]
  rfl

/-- With the label in range the sixteen weighted slices collapse to the category's own 128 channels, and the product
    with the flattened classifier is the sum over those channels. -/
theorem product_apply (x0 : Vec Ideal S1024x128 .f32) (x1 : Vec Ideal S128x2048 .f32) (x2 x3 x4 x5 : Vec Ideal S1x2048 .f32)
    (x6 : Vec Ideal S128x96 .f32) (x8 : Vec Ideal S1024x1 .i32) (r : Fin 1024) (q : Fin 96)
    (hcat : (x8 (ix2 r 0)).toNat < 16) :
    k1_pay6 (act x0 x1 x2 x3 x4 x5) (oh x8) (sel12 x0 x1 x2 x3 x4 x5 x8) (View.ld x6 r1_4) (ix2 r q)
      = ∑ d : Fin 128, act x0 x1 x2 x3 x4 x5 (ix2 r (Spec.chan (Spec.ci (x8 (ix2 r 0))) d)) * x6 (ix2 d q) := by
  rw [product_step, View.ld_unit_zero (S := S128x96) zeroOffsets]
  refine Finset.sum_congr rfl fun d _ => ?_
  unfold sel12
  rw [sel12_step, sel0_apply]
  unfold wt
  simp only [oh_apply x8 r _ hcat]
  exact congrArg (· * x6 (ix2 d q))
    (pick16 (Spec.ci (x8 (ix2 r 0))) (fun c => act x0 x1 x2 x3 x4 x5 (ix2 r (Spec.chan c d))))

/-- The logits picked for categories 0 to 6, added up from zero. -/
theorem pick6_step (a : FVec Ideal S1024x2048 .f32) (o : FVec Ideal S1024x16 .f32) (z : FVec Ideal S1024x128 .f32)
    (w : Vec Ideal S128x96 .f32) (r : Fin 1024) (s : Fin 6) :
    k1_pay7 a o z w (ix2 r s) = 0 + wl o (k1_pay6 a o z w) r s 0 + wl o (k1_pay6 a o z w) r s 1 + wl o (k1_pay6 a o z w) r s 2 + wl o (k1_pay6 a o z w) r s 3 + wl o (k1_pay6 a o z w) r s 4 + wl o (k1_pay6 a o z w) r s 5 + wl o (k1_pay6 a o z w) r s 6 := by
  unfold k1_pay7
  simp only [addf_apply, mulf_apply, broadcast_apply, onehot_column_apply, slice2_axis1_eq]
  show Ideal.ofBits .f32 0x00000000#32 + _ + _ + _ + _ + _ + _ + _ = _
  rw [Ideal.ofBits_zero_f32]
  rfl

/-- Categories 7 to 15 added to what came before, then the bias row. -/
theorem logit_step (o : FVec Ideal S1024x16 .f32) (A : FVec Ideal S1024x96 .f32) (p : FVec Ideal S1024x6 .f32)
    (l : Vec Ideal S1x6 .f32) (r : Fin 1024) (s : Fin 6) :
    k1_pay8 o A p l (ix2 r s) = p (ix2 r s) + wl o A r s 7 + wl o A r s 8 + wl o A r s 9 + wl o A r s 10 + wl o A r s 11 + wl o A r s 12 + wl o A r s 13 + wl o A r s 14 + wl o A r s 15 + l (ix2 0 s) := by
  unfold k1_pay8
  simp only [addf_apply, mulf_apply, onehot_column_apply, slice2_axis1_eq, broadcastTo_1b_ab_apply, shapeCast_self]
  rfl

end Logits

theorem lg_apply (x0 : Vec Ideal S1024x128 .f32) (x1 : Vec Ideal S128x2048 .f32) (x2 x3 x4 x5 : Vec Ideal S1x2048 .f32)
    (x6 : Vec Ideal S128x96 .f32) (x7 : Vec Ideal S1x6 .f32) (x8 : Vec Ideal S1024x1 .i32)
    (w2 : Fin 16 → Fin 128 → Fin 6 → EReal) (r : Fin 1024) (s : Fin 6)
    (hcat : (x8 (ix2 r 0)).toNat < 16) (hw2 : ∀ c d t, x6 (ix2 d (Spec.flat c t)) = w2 c d t) :
    lg (F := Ideal) (oh x8) (lga x0 x1 x2 x3 x4 x5 x6 x8) (pick6 x0 x1 x2 x3 x4 x5 x6 x8) (View.ld x7 r1_5) (ix2 r s)
      = Spec.logit (fun j => Spec.lrelu (Spec.normK (Spec.hrow (fun k => x0 (ix2 r k)) (fun k j => x1 (ix2 k j)) j)
        (x2 (ix2 0 j)) (x3 (ix2 0 j)) (x4 (ix2 0 j)) (x5 (ix2 0 j))))
          w2 (fun t => x7 (ix2 0 t)) (Spec.ci (x8 (ix2 r 0))) s := by
  unfold lg pick6 lga
  rw [Logits.logit_step, Logits.pick6_step, View.ld_unit_zero (S := S1x6) Logits.zeroOffsets]
  unfold Logits.wl
  simp only [Logits.product_apply x0 x1 x2 x3 x4 x5 x6 x8 r _ hcat, oh_apply x8 r _ hcat]
  rw [Logits.pick16 (Spec.ci (x8 (ix2 r 0)))
    (fun c => ∑ d : Fin 128, act x0 x1 x2 x3 x4 x5 (ix2 r (Spec.chan (Spec.ci (x8 (ix2 r 0))) d)) * x6 (ix2 d (Spec.flat c s)))]
  unfold Spec.logit
  simp only [hw2, act_apply]

end Cert.KernelIdeal.Body

end
-- ==== Proof.KBodyC.lean ====
/-
  Read at a row, for any logits: the maximum, the sum of exponentials, the log-softmax; and for one-hot weights at
  category c over the tables of segment starts and lengths: the row's start and length.
  Each stage is a reduction over the lanes of a row written back as a column: the column at (r, 0) is the reduced
  vector at r, the reduction at r is the fold of max from −∞ (or the sum) over the row's lanes, and a column
  broadcast over the lanes reads its entry of the row. For the tables, a sum of one-hot weights times a table row
  keeps the single term at the category, since 0 · x = 0 and 1 · x = x for every extended real x.
-/
import proofs.«405493_j33827162423889_2_alg».proof.Proof.KBodyDefs
import proofs.«405493_j33827162423889_2_alg».proof.Proof.Spec
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-- The start word of the maximum denotes −∞. -/
theorem ofBits_ninf : Ideal.ofBits .f32 0xFF800000#32 = (⊥ : EReal) := by simp [Ideal.ofBits, Ideal.ieee]

/-- A column [1024] cast to [1024,1], read at (r, 0), is the column at r. -/
theorem cast_col {α : Type} (w : S1024.Idx → α) (r : Fin 1024) (z : Fin 1) :
    shapeCast S1024x1 w shapeCasts_S1024_S1024x1 (ix2 r z) = w (ix1 r) :=
  shapeCast_apply w _ _ _ (by
    have hz : z.val = 0 := by omega
    rw [Shape.rowMajor_val_one, Shape.rowMajor_val_two]
    show r.val = r.val * 1 + z.val
    omega)

/-- A column [1024,1] broadcast over six lanes reads the column's entry of the row. -/
theorem bcast_col6 {α : Type} (w : S1024x1.Idx → α) (r : Fin 1024) (t : Fin 6) :
    broadcastTo S1024x6 w broadcasts_S1024x1_S1024x6 (ix2 r t) = w (ix2 r 0) := by
  refine broadcastTo_apply w _ (ix2 r t) (ix2 r 0) fun ax => ?_
  match ax with
  | ⟨0, _⟩ => rfl
  | ⟨1, _⟩ => rfl

/-- The index of lane k of row r, as the reduction inserts it. -/
theorem lift6 (r : Fin 1024) (k : Fin 6) :
    reduces_S1024x6_S1024.lift (ix1 r) k = ix2 r k := by
  funext a; match a with | ⟨0, _⟩ => rfl | ⟨1, _⟩ => rfl

theorem lift16 (r : Fin 1024) (k : Fin 16) :
    reduces_S1024x16_S1024.lift (ix1 r) k = ix2 r k := by
  funext a; match a with | ⟨0, _⟩ => rfl | ⟨1, _⟩ => rfl

/-- The maximum over the six lanes of a row, from −∞. -/
theorem red_max6 (v : FVec Ideal S1024x6 .f32) (r : Fin 1024) :
    multiReduction (F := Ideal) .maximumf [1] S1024 v 0xFF800000#32 reduces_S1024x6_S1024 (.inl rfl) rfl (ix1 r)
      = Spec.rowMax (fun t => v (ix2 r t)) := by
  refine (Ideal.multiReduction_maximumf_single v 0xFF800000#32 reduces_S1024x6_S1024 (.inl rfl) rfl (ix1 r)).trans ?_
  show (Finset.univ : Finset (Fin 6)).fold max (Ideal.ofBits .f32 0xFF800000#32) (v ∘ reduces_S1024x6_S1024.lift (ix1 r))
      = (Finset.univ : Finset (Fin 6)).fold max ⊥ (fun t => v (ix2 r t))
  rw [ofBits_ninf]
  congr 1
  funext k
  exact congrArg v (lift6 r k)

/-- The sum over the six lanes of a row. -/
theorem red_add6 (v : FVec Ideal S1024x6 .f32) (r : Fin 1024) :
    multiReduction (F := Ideal) .add [1] S1024 v 0x00000000#32 reduces_S1024x6_S1024 (.inl rfl) rfl (ix1 r)
      = ∑ t : Fin 6, v (ix2 r t) := by
  refine (Ideal.multiReduction_add_single v 0x00000000#32 reduces_S1024x6_S1024 (.inl rfl) rfl (ix1 r)).trans ?_
  show ∑ k : Fin 6, v (reduces_S1024x6_S1024.lift (ix1 r) k) = ∑ t : Fin 6, v (ix2 r t)
  exact Finset.sum_congr rfl fun k _ => congrArg v (lift6 r k)

/-- The sum over the sixteen lanes of a row. -/
theorem red_add16 (v : FVec Ideal S1024x16 .f32) (r : Fin 1024) :
    multiReduction (F := Ideal) .add [1] S1024 v 0x00000000#32 reduces_S1024x16_S1024 (.inl rfl) rfl (ix1 r)
      = ∑ t : Fin 16, v (ix2 r t) := by
  refine (Ideal.multiReduction_add_single v 0x00000000#32 reduces_S1024x16_S1024 (.inl rfl) rfl (ix1 r)).trans ?_
  show ∑ k : Fin 16, v (reduces_S1024x16_S1024.lift (ix1 r) k) = ∑ t : Fin 16, v (ix2 r t)
  exact Finset.sum_congr rfl fun k _ => congrArg v (lift16 r k)

theorem mx_apply (o : FVec Ideal S1024x16 .f32) (a : FVec Ideal S1024x96 .f32) (p : FVec Ideal S1024x6 .f32)
    (l7 : Vec Ideal S1x6 .f32) (r : Fin 1024) :
    mx o a p l7 (ix2 r 0) = Spec.rowMax (fun t => lg o a p l7 (ix2 r t)) :=
  (cast_col _ r 0).trans (red_max6 (lg o a p l7) r)

theorem se_apply (o : FVec Ideal S1024x16 .f32) (a : FVec Ideal S1024x96 .f32) (p : FVec Ideal S1024x6 .f32)
    (l7 : Vec Ideal S1x6 .f32) (r : Fin 1024) :
    se o a p l7 (ix2 r 0)
      = ∑ t : Fin 6, Ideal.exp (lg o a p l7 (ix2 r t) - Spec.rowMax (fun u => lg o a p l7 (ix2 r u))) := by
  show shapeCast S1024x1 (multiReduction (F := Ideal) .add [1] S1024
      (exp (subf (lg o a p l7) (broadcastTo S1024x6 (mx o a p l7) broadcasts_S1024x1_S1024x6)))
      0x00000000#32 reduces_S1024x6_S1024 (.inl rfl) rfl) shapeCasts_S1024_S1024x1 (ix2 r 0) = _
  refine (cast_col _ r 0).trans ?_
  refine (red_add6 _ r).trans ?_
  refine Finset.sum_congr rfl fun t _ => ?_
  show Ideal.exp (lg o a p l7 (ix2 r t)
      - broadcastTo S1024x6 (mx o a p l7) broadcasts_S1024x1_S1024x6 (ix2 r t)) = _
  rw [bcast_col6, mx_apply]

theorem ls_apply (o : FVec Ideal S1024x16 .f32) (a : FVec Ideal S1024x96 .f32) (p : FVec Ideal S1024x6 .f32)
    (l7 : Vec Ideal S1x6 .f32) (r : Fin 1024) (s : Fin 6) :
    ls o a p l7 (ix2 r s) = Spec.lsK (fun t => lg o a p l7 (ix2 r t)) s := by
  show lg o a p l7 (ix2 r s)
      - broadcastTo S1024x6 (addf (mx o a p l7) (log (se o a p l7))) broadcasts_S1024x1_S1024x6 (ix2 r s) = _
  rw [bcast_col6]
  show lg o a p l7 (ix2 r s) - (mx o a p l7 (ix2 r 0) + Ideal.log (se o a p l7 (ix2 r 0))) = _
  rw [mx_apply, se_apply]
  rfl

/-- One-hot weights at category c times a table row, summed over the sixteen lanes, give the table's entry at c. -/
theorem onehot_pick (o : FVec Ideal S1024x16 .f32) (tab : Vec Ideal S1x16 .f32) (r : Fin 1024) (c : Fin 16)
    (hoh : ∀ c', o (ix2 r c') = if c' = c then (1 : EReal) else 0) (T : Fin 16 → EReal)
    (htab : ∀ c', tab (ix2 0 c') = T c') :
    shapeCast S1024x1 (multiReduction (F := Ideal) .add [1] S1024
        (mulf o (broadcastTo S1024x16 (shapeCast S1x16 tab shapeCasts_S1x16_S1x16) broadcasts_S1x16_S1024x16))
        0x00000000#32 reduces_S1024x16_S1024 (.inl rfl) rfl) shapeCasts_S1024_S1024x1 (ix2 r 0) = T c := by
  refine (cast_col _ r 0).trans ?_
  refine (red_add16 _ r).trans ?_
  rw [Finset.sum_eq_single c]
  · show o (ix2 r c) * broadcastTo S1024x16 (shapeCast S1x16 tab shapeCasts_S1x16_S1x16)
        broadcasts_S1x16_S1024x16 (ix2 r c) = T c
    rw [shapeCast_self, broadcastTo_1b_ab_apply, hoh, if_pos rfl, one_mul, htab]
  · intro c' _ hne
    show o (ix2 r c') * _ = 0
    rw [hoh, if_neg hne, zero_mul]
  · intro h; exact absurd (Finset.mem_univ c) h

theorem sh_apply (o : FVec Ideal S1024x16 .f32) (l9 : Vec Ideal S1x16 .f32) (r : Fin 1024) (c : Fin 16)
    (hoh : ∀ c', o (ix2 r c') = if c' = c then (1 : EReal) else 0)
    (hsh : ∀ c', l9 (ix2 0 c') = ((Spec.shiftTab c' : ℕ) : EReal)) :
    sh o l9 (ix2 r 0) = ((Spec.shiftTab c : ℕ) : EReal) :=
  onehot_pick o l9 r c hoh (fun c' => ((Spec.shiftTab c' : ℕ) : EReal)) hsh

theorem sg_apply (o : FVec Ideal S1024x16 .f32) (l10 : Vec Ideal S1x16 .f32) (r : Fin 1024) (c : Fin 16)
    (hoh : ∀ c', o (ix2 r c') = if c' = c then (1 : EReal) else 0)
    (hsg : ∀ c', l10 (ix2 0 c') = ((Spec.segTab c' : ℕ) : EReal)) :
    sg o l10 (ix2 r 0) = ((Spec.segTab c : ℕ) : EReal) :=
  onehot_pick o l10 r c hoh (fun c' => ((Spec.segTab c' : ℕ) : EReal)) hsg

end Cert.KernelIdeal.Body

end
-- ==== Proof.KBodyD.lean ====
/-
  Read at a row: the six placement steps put slot s of the log-softmax at its column while s is below the
  segment's length, and the block output of the kernel is the row function of the specification.

  Each step compares the column number with the truncation of min 53 (max 0 (start + s)) and keeps the slot's value
  while length > s. With the start and the length natural numbers (the row's entries of the two tables), the clamps
  and the truncation act on natural numbers: the column is min 53 (start + s) and the comparison of the floats is
  s < length. The six steps add six terms onto a zero, which is the sum over the six slots that defines the placement.
-/
import proofs.«405493_j33827162423889_2_alg».proof.Proof.KBodyB
import proofs.«405493_j33827162423889_2_alg».proof.Proof.KBodyC
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-! ## Small facts: a column spread over a row, the literals, truncation of a natural number -/

/-- A column vector spread along the rows reads, at (p, c), its entry at row p. -/
theorem tl_bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The whole-block rectangles start at the origin. -/
theorem tl_hz : (![0, 0] : Fin 2 → Nat) = fun _ => 0 := by decide

/-- The float words 1.0, 2.0, 3.0, 4.0, 5.0 denote the natural numbers 1 to 5. -/
theorem tl_one_f32 : Ideal.ofBits .f32 0x3F800000#32 = ((1 : ℕ) : EReal) := by
  rw [show ((1 : ℕ) : EReal) = ((1 : ℝ) : EReal) by norm_cast]
  simp [Ideal.ofBits, Ideal.ieee, -EReal.coe_mul]; norm_num
theorem tl_two_f32 : Ideal.ofBits .f32 0x40000000#32 = ((2 : ℕ) : EReal) := by
  rw [show ((2 : ℕ) : EReal) = ((2 : ℝ) : EReal) by norm_cast]
  simp [Ideal.ofBits, Ideal.ieee, -EReal.coe_mul]; norm_num
theorem tl_three_f32 : Ideal.ofBits .f32 0x40400000#32 = ((3 : ℕ) : EReal) := by
  rw [show ((3 : ℕ) : EReal) = ((3 : ℝ) : EReal) by norm_cast]
  simp [Ideal.ofBits, Ideal.ieee, -EReal.coe_mul]; norm_num
theorem tl_four_f32 : Ideal.ofBits .f32 0x40800000#32 = ((4 : ℕ) : EReal) := by
  rw [show ((4 : ℕ) : EReal) = ((4 : ℝ) : EReal) by norm_cast]
  simp [Ideal.ofBits, Ideal.ieee, -EReal.coe_mul]; norm_num
theorem tl_five_f32 : Ideal.ofBits .f32 0x40A00000#32 = ((5 : ℕ) : EReal) := by
  rw [show ((5 : ℕ) : EReal) = ((5 : ℝ) : EReal) by norm_cast]
  simp [Ideal.ofBits, Ideal.ieee, -EReal.coe_mul]; norm_num

/-- The integer words 0 and 53 as floats are 0 and 53. -/
theorem tl_sitofp_zero : Scalar.sitofp (F := Ideal) .f32 0#32 = (0 : EReal) := by
  show (((0#32 : BitVec 32).toInt : ℝ) : EReal) = 0
  rw [show (0#32 : BitVec 32).toInt = 0 by decide]; norm_cast
theorem tl_sitofp_53 : Scalar.sitofp (F := Ideal) .f32 53#32 = (53 : EReal) := by
  show (((53#32 : BitVec 32).toInt : ℝ) : EReal) = 53
  rw [show (53#32 : BitVec 32).toInt = 53 by decide]; norm_cast

/-- Truncation to a 32-bit integer of a natural number below 2³¹ is that number's word. -/
theorem tl_fptosi_nat (m : ℕ) (hm : m < 2 ^ 31) : Ideal.fptosi 32 ((m : ℕ) : EReal) = BitVec.ofNat 32 m := by
  rw [show ((m : ℕ) : EReal) = ((m : ℝ) : EReal) from rfl]
  rw [Ideal.fptosi, Ideal.toIntClamped_coe, if_pos (Nat.cast_nonneg m), Int.floor_natCast]
  have : max (-((2 ^ (32 - 1) : ℕ) : ℤ)) (min (((2 ^ (32 - 1) : ℕ) : ℤ) - 1) (m : ℤ)) = (m : ℤ) := by
    norm_num; omega
  rw [this, BitVec.ofInt_natCast]

/-- The one-bit word of a truth value is 1 exactly when the value is true. -/
theorem tl_ofBool_eq_one : ∀ b : Bool, BitVec.ofBool b = (1 : BitVec 1) ↔ b = true := by decide

/-! ## One placement step on natural data -/

/-- With start a, length g and slot number s natural numbers, the step keeps v exactly at column
    min 53 (a + s), and only while s < g; elsewhere it gives 0. -/
theorem tl_slot_eval {S G K : EReal} (a g s : ℕ) (hS : S = (a : EReal)) (hG : G = (g : EReal)) (hK : K = (s : EReal))
    (ha : a + s < 2 ^ 31) (v : EReal) (q : Fin 54) :
    Scalar.select (IntOp.cmpi .eq (BitVec.ofNat 32 q.val) (Ideal.fptosi 32 (min 53 (max 0 (S + K)))))
      (Scalar.select (Ideal.cmp .ogt G K) v 0) 0
    = if q.val = min 53 (a + s) ∧ s < g then v else 0 := by
  subst hS hG hK
  have h0 : max (0 : EReal) ((a : EReal) + (s : EReal)) = ((a + s : ℕ) : EReal) := by
    rw [← Nat.cast_add, ← Nat.cast_zero (R := EReal)]
    exact max_eq_right (EReal.natCast_le_iff.2 (Nat.zero_le _))
  have h53 : ∀ n : ℕ, min (53 : EReal) ((n : ℕ) : EReal) = ((min 53 n : ℕ) : EReal) := by
    intro n
    rw [show (53 : EReal) = ((53 : ℕ) : EReal) from (Nat.cast_ofNat).symm]
    rcases le_total 53 n with h | h
    · rw [min_eq_left (EReal.natCast_le_iff.2 h), Nat.min_eq_left h]
    · rw [min_eq_right (EReal.natCast_le_iff.2 h), Nat.min_eq_right h]
  rw [h0, h53, tl_fptosi_nat _ (by omega)]
  have hc : (IntOp.cmpi .eq (BitVec.ofNat 32 q.val) (BitVec.ofNat 32 (min 53 (a + s))) = (1 : BitVec 1))
      ↔ q.val = min 53 (a + s) := by
    show (BitVec.ofBool (BitVec.ofNat 32 q.val == BitVec.ofNat 32 (min 53 (a + s))) = (1 : BitVec 1)) ↔ _
    have hq := q.isLt
    rw [tl_ofBool_eq_one, beq_iff_eq, ← BitVec.toNat_inj, BitVec.toNat_ofNat, BitVec.toNat_ofNat,
      Nat.mod_eq_of_lt (by omega), Nat.mod_eq_of_lt (by omega)]
  have hg : (Ideal.cmp .ogt ((g : ℕ) : EReal) ((s : ℕ) : EReal) = (1 : BitVec 1)) ↔ s < g := by
    show (BitVec.ofBool (decide (((s : ℕ) : EReal) < ((g : ℕ) : EReal))) = (1 : BitVec 1)) ↔ _
    rw [tl_ofBool_eq_one, decide_eq_true_iff, EReal.natCast_lt_iff]
  unfold Scalar.select
  by_cases h1 : q.val = min 53 (a + s)
  · by_cases h2 : s < g
    · rw [if_pos (hc.2 h1), if_pos (hg.2 h2), if_pos ⟨h1, h2⟩]
    · rw [if_pos (hc.2 h1), if_neg (fun h => h2 (hg.1 h)), if_neg (fun h => h2 h.2)]
  · rw [if_neg (fun h => h1 (hc.1 h)), if_neg (fun h => h1 h.1)]

/-! ## Pointwise and layout operations read at an index -/

theorem tl_cmpi_at {s : Shape} {w : ℕ} (p : CmpIPredicate) (x y : IVec s w) (i : s.Idx) :
    cmpi p x y i = IntOp.cmpi p (x i) (y i) := rfl
theorem tl_fptosi_at {s : Shape} (w : ℕ) (x : FVec Ideal s .f32) (i : s.Idx) :
    fptosi w x i = Ideal.fptosi w (x i) := rfl
theorem tl_cmpf_at {s : Shape} (p : CmpFPredicate) (x y : FVec Ideal s .f32) (i : s.Idx) :
    cmpf p x y i = Ideal.cmp p (x i) (y i) := rfl

/-- Column k of the six, cut out as a column vector, read at row r. -/
theorem tl_slice_col (k : ℕ) (k' : Fin 6) (hk : k'.val = k) (X : FVec Ideal S1024x6 .f32)
    (h : S1024x6.Slices ![0, k] S1024x1) (r : Fin 1024) :
    extractStridedSlice S1024x1 ![0, k] X h (ix2 r (0 : Fin 1)) = X (ix2 r k') :=
  slice2_axis1_apply k X h r 0 k' (by rw [hk]; rfl)

/-- The column number, as a word. -/
theorem tl_iota_at (r : Fin 1024) (q : Fin 54) :
    iota .tc S1024x54 32 [1] iota_S1024x54_d1_w32 (ix2 r q) = BitVec.ofNat 32 q.val :=
  iota_single_apply .tc S1024x54 32 1 _ (ix2 r q)
theorem tl_io_at (r : Fin 1024) (q : Fin 54) : io (ix2 r q) = BitVec.ofNat 32 q.val := tl_iota_at r q

/-- Every segment starts at column 51 or before. -/
theorem tl_shiftTab_le : ∀ c : Fin 16, Spec.shiftTab c ≤ 51 := by decide

/-! ## The six steps -/

section
variable (o : FVec Ideal S1024x16 .f32) (a : FVec Ideal S1024x96 .f32) (p : FVec Ideal S1024x6 .f32)
    (l7 : Vec Ideal S1x6 .f32) (l9 l10 : Vec Ideal S1x16 .f32) (r : Fin 1024) (q : Fin 54) (c : Fin 16)

/-- What slot s adds at column q of row r, for category c. -/
def tl_term (s : Fin 6) : EReal :=
  if q.val = Spec.col c s ∧ s.val < Spec.segTab c then ls o a p l7 (ix2 r s) else 0

/-- Slot 0 onto the zero row. -/
theorem tl_acc0_apply
    (hoh : ∀ c', o (ix2 r c') = if c' = c then (1 : EReal) else 0)
    (hsh : ∀ c', l9 (ix2 0 c') = ((Spec.shiftTab c' : ℕ) : EReal))
    (hsg : ∀ c', l10 (ix2 0 c') = ((Spec.segTab c' : ℕ) : EReal)) :
    acc0 o a p l7 l9 l10 (ix2 r q) = 0 + tl_term o a p l7 r q c 0 := by
  have hS : k1_pay12 o l9 (ix2 r 0) = ((Spec.shiftTab c : ℕ) : EReal) := sh_apply o l9 r c hoh hsh
  have hG : k1_pay13 o l10 (ix2 r 0) = ((Spec.segTab c : ℕ) : EReal) := sg_apply o l10 r c hoh hsg
  have hb := tl_shiftTab_le c
  unfold acc0 k1_pay14
  simp only [addf_apply, select_apply, broadcast_apply, tl_cmpi_at, tl_fptosi_at, tl_cmpf_at, maximumf_apply,
    minimumf_apply, tl_bcast_col, shapeCast_self, tl_slice_col 0 0 rfl, Ideal.ofBits_def, Ideal.ofBits_zero_f32,
    tl_sitofp_zero, tl_sitofp_53]
  rw [tl_iota_at]
  rw [tl_slot_eval (Spec.shiftTab c) (Spec.segTab c) 0 hS hG (Nat.cast_zero).symm (by omega)]
  rfl

/-- Slots 1 and 2. -/
theorem tl_acc2_apply
    (hoh : ∀ c', o (ix2 r c') = if c' = c then (1 : EReal) else 0)
    (hsh : ∀ c', l9 (ix2 0 c') = ((Spec.shiftTab c' : ℕ) : EReal))
    (hsg : ∀ c', l10 (ix2 0 c') = ((Spec.segTab c' : ℕ) : EReal)) :
    acc2 o a p l7 l9 l10 (ix2 r q)
      = acc0 o a p l7 l9 l10 (ix2 r q) + tl_term o a p l7 r q c 1 + tl_term o a p l7 r q c 2 := by
  have hS : k1_pay12 o l9 (ix2 r 0) = ((Spec.shiftTab c : ℕ) : EReal) := sh_apply o l9 r c hoh hsh
  have hS' : sh o l9 (ix2 r 0) = ((Spec.shiftTab c : ℕ) : EReal) := sh_apply o l9 r c hoh hsh
  have hG : sg o l10 (ix2 r 0) = ((Spec.segTab c : ℕ) : EReal) := sg_apply o l10 r c hoh hsg
  have hb := tl_shiftTab_le c
  unfold acc2 k1_pay16 k1_pay15
  simp only [addf_apply, select_apply, broadcast_apply, tl_cmpi_at, tl_fptosi_at, tl_cmpf_at, maximumf_apply,
    minimumf_apply, tl_bcast_col, shapeCast_self, tl_slice_col 1 1 rfl, tl_slice_col 2 2 rfl, tl_io_at,
    Ideal.ofBits_def, Ideal.ofBits_zero_f32, tl_one_f32, tl_two_f32, tl_sitofp_zero, tl_sitofp_53]
  rw [tl_slot_eval (Spec.shiftTab c) (Spec.segTab c) 1 hS hG rfl (by omega),
    tl_slot_eval (Spec.shiftTab c) (Spec.segTab c) 2 hS' hG rfl (by omega)]
  rfl

/-- Slots 3 and 4. -/
theorem tl_acc4_apply
    (hoh : ∀ c', o (ix2 r c') = if c' = c then (1 : EReal) else 0)
    (hsh : ∀ c', l9 (ix2 0 c') = ((Spec.shiftTab c' : ℕ) : EReal))
    (hsg : ∀ c', l10 (ix2 0 c') = ((Spec.segTab c' : ℕ) : EReal)) :
    acc4 o a p l7 l9 l10 (ix2 r q)
      = acc2 o a p l7 l9 l10 (ix2 r q) + tl_term o a p l7 r q c 3 + tl_term o a p l7 r q c 4 := by
  have hS : sh o l9 (ix2 r 0) = ((Spec.shiftTab c : ℕ) : EReal) := sh_apply o l9 r c hoh hsh
  have hG : sg o l10 (ix2 r 0) = ((Spec.segTab c : ℕ) : EReal) := sg_apply o l10 r c hoh hsg
  have hb := tl_shiftTab_le c
  unfold acc4 k1_pay19 k1_pay17 k1_pay18
  simp only [addf_apply, select_apply, broadcast_apply, tl_cmpi_at, tl_fptosi_at, tl_cmpf_at, maximumf_apply,
    minimumf_apply, tl_bcast_col, shapeCast_self, tl_slice_col 3 3 rfl, tl_slice_col 4 4 rfl, tl_io_at,
    Ideal.ofBits_def, Ideal.ofBits_zero_f32, tl_three_f32, tl_four_f32, tl_sitofp_zero, tl_sitofp_53]
  rw [tl_slot_eval (Spec.shiftTab c) (Spec.segTab c) 3 hS hG rfl (by omega),
    tl_slot_eval (Spec.shiftTab c) (Spec.segTab c) 4 hS hG rfl (by omega)]
  rfl

/-- Slot 5. -/
theorem tl_tail_step
    (hoh : ∀ c', o (ix2 r c') = if c' = c then (1 : EReal) else 0)
    (hsh : ∀ c', l9 (ix2 0 c') = ((Spec.shiftTab c' : ℕ) : EReal))
    (hsg : ∀ c', l10 (ix2 0 c') = ((Spec.segTab c' : ℕ) : EReal)) :
    tail o a p l7 l9 l10 (ix2 r q) = acc4 o a p l7 l9 l10 (ix2 r q) + tl_term o a p l7 r q c 5 := by
  have hS : sh o l9 (ix2 r 0) = ((Spec.shiftTab c : ℕ) : EReal) := sh_apply o l9 r c hoh hsh
  have hG : sg o l10 (ix2 r 0) = ((Spec.segTab c : ℕ) : EReal) := sg_apply o l10 r c hoh hsg
  have hb := tl_shiftTab_le c
  unfold tail k1_pay1 k1_pay20 k1_pay21
  simp only [addf_apply, select_apply, broadcast_apply, tl_cmpi_at, tl_fptosi_at, tl_cmpf_at, maximumf_apply,
    minimumf_apply, tl_bcast_col, shapeCast_self, tl_slice_col 5 5 rfl, tl_io_at,
    Ideal.ofBits_def, Ideal.ofBits_zero_f32, tl_five_f32, tl_sitofp_zero, tl_sitofp_53]
  rw [tl_slot_eval (Spec.shiftTab c) (Spec.segTab c) 5 hS hG rfl (by omega)]
  rfl
end

/-! ## The placement, and the block output -/

/-- The six steps from a zero row are the sum over the six slots: the placement of the log-softmax. -/
theorem tail_apply (o : FVec Ideal S1024x16 .f32) (a : FVec Ideal S1024x96 .f32) (p : FVec Ideal S1024x6 .f32)
    (l7 : Vec Ideal S1x6 .f32) (l9 l10 : Vec Ideal S1x16 .f32) (r : Fin 1024) (q : Fin 54) (c : Fin 16)
    (hoh : ∀ c', o (ix2 r c') = if c' = c then (1 : EReal) else 0)
    (hsh : ∀ c', l9 (ix2 0 c') = ((Spec.shiftTab c' : ℕ) : EReal))
    (hsg : ∀ c', l10 (ix2 0 c') = ((Spec.segTab c' : ℕ) : EReal)) :
    tail o a p l7 l9 l10 (ix2 r q) = Spec.place (Spec.lsK (fun s => lg o a p l7 (ix2 r s))) c q := by
  rw [tl_tail_step o a p l7 l9 l10 r q c hoh hsh hsg, tl_acc4_apply o a p l7 l9 l10 r q c hoh hsh hsg,
    tl_acc2_apply o a p l7 l9 l10 r q c hoh hsh hsg, tl_acc0_apply o a p l7 l9 l10 r q c hoh hsh hsg, zero_add]
  unfold Spec.place
  rw [Fin.sum_univ_six]
  simp only [tl_term, ls_apply]

/-- The block output at (r, q): the one store covers the block, its payload is the placement of the log-softmax of
    the row's logits, and the logits are the specification's. -/
theorem out1_11_apply (x0 : Vec Ideal S1024x128 .f32) (x1 : Vec Ideal S128x2048 .f32) (x2 x3 x4 x5 : Vec Ideal S1x2048 .f32)
    (x6 : Vec Ideal S128x96 .f32) (x7 : Vec Ideal S1x6 .f32) (x8 : Vec Ideal S1024x1 .i32) (x9 x10 : Vec Ideal S1x16 .f32)
    (w2 : Fin 16 → Fin 128 → Fin 6 → EReal) (r : Fin 1024) (q : Fin 54)
    (hcat : (x8 (ix2 r 0)).toNat < 16) (hw2 : ∀ c d t, x6 (ix2 d (Spec.flat c t)) = w2 c d t)
    (hsh : ∀ c', x9 (ix2 0 c') = ((Spec.shiftTab c' : ℕ) : EReal))
    (hsg : ∀ c', x10 (ix2 0 c') = ((Spec.segTab c' : ℕ) : EReal)) :
    out1_11 (F := Ideal) x0 x1 x2 x3 x4 x5 x6 x7 x8 x9 x10 (ix2 r q)
      = Spec.rowK (fun k => x0 (ix2 r k)) (fun k j => x1 (ix2 k j)) (fun j => x2 (ix2 0 j)) (fun j => x3 (ix2 0 j))
          (fun j => x4 (ix2 0 j)) (fun j => x5 (ix2 0 j)) w2 (fun t => x7 (ix2 0 t)) (x8 (ix2 r 0)) q := by
  rw [out1_11_eq, View.canon_unit_zero tl_hz]
  rw [View.ld_unit_zero (S := S1x16) tl_hz _ x9, View.ld_unit_zero (S := S1x16) tl_hz _ x10]
  rw [tail_apply _ _ _ _ x9 x10 r q (Spec.ci (x8 (ix2 r 0))) (fun c' => oh_apply x8 r c' hcat) hsh hsg]
  have hlg : (fun s => lg (F := Ideal) (oh x8) (lga x0 x1 x2 x3 x4 x5 x6 x8) (pick6 x0 x1 x2 x3 x4 x5 x6 x8)
        (View.ld x7 r1_5) (ix2 r s))
      = Spec.logit (fun j => Spec.lrelu (Spec.normK (Spec.hrow (fun k => x0 (ix2 r k)) (fun k j => x1 (ix2 k j)) j)
          (x2 (ix2 0 j)) (x3 (ix2 0 j)) (x4 (ix2 0 j)) (x5 (ix2 0 j))))
          w2 (fun t => x7 (ix2 0 t)) (Spec.ci (x8 (ix2 r 0))) :=
    funext fun s => lg_apply x0 x1 x2 x3 x4 x5 x6 x7 x8 w2 r s hcat hw2
  rw [hlg]
  rfl

end Cert.KernelIdeal.Body

end
-- ==== Proof.KValue.lean ====
/-
  What the kernel program's result array holds: the kernel's spelling of the specification, of the launch arguments.
  Point t of the main kernel sees rows 1024·t … of the features and of the labels and every other operand whole;
  its block output at row p is the row function at the statistics the host stretch derived from the first kernel's
  sums; the blocks tile the result.
-/
import proofs.«405493_j33827162423889_2_alg».proof.Proof.KCover
import proofs.«405493_j33827162423889_2_alg».proof.Proof.KBodyD
import proofs.«405493_j33827162423889_2_alg».proof.Proof.Spec

set_option maxRecDepth 16384

noncomputable section

namespace Cert.KernelIdeal.Value

open Cert.KernelIdeal Cert.KernelIdeal.Gen
open Idealize.ShloMosaic Idealize.ShloMosaic.TcCoe Idealize.ShloMosaic.ValueIdx
open Idealize.SL Idealize.SL.Sem

/-- The result as a function of the seven arguments read as coordinate functions. -/
def resultOf (x : Fin 65536 → Fin 128 → EReal) (w1 : Fin 128 → Fin 2048 → EReal) (g b : Fin 2048 → EReal)
    (w2 : Fin 16 → Fin 128 → Fin 6 → EReal) (bias : Fin 6 → EReal) (cat : Fin 65536 → BitVec 32) :
    S65536x54.Idx → EReal :=
  fun i => Spec.outK x w1 g b w2 bias cat (i 0) (i 1)

variable (V : (c : Dev nD) → (b : Ref sig .tc) → Buf (Elt Ideal) ((c : Thread nD τ).loc b))

/-- The main kernel's result array, from what its eleven operand arrays hold when it is entered. -/
theorem arr_eq (c : Dev nD)
    (x : Fin 65536 → Fin 128 → EReal) (w1 : Fin 128 → Fin 2048 → EReal) (g b : Fin 2048 → EReal)
    (w2 : Fin 16 → Fin 128 → Fin 6 → EReal) (bias : Fin 6 → EReal) (cat : Fin 65536 → BitVec 32)
    (h0 : ∀ n k, V c (Pipeline.arrRef spec1 0) (ix2 n k) = x n k)
    (h1 : ∀ k j, V c (Pipeline.arrRef spec1 1) (ix2 k j) = w1 k j)
    (h2 : ∀ j, V c (Pipeline.arrRef spec1 2) (ix2 0 j) = Spec.meanK x w1 j)
    (h3 : ∀ j, V c (Pipeline.arrRef spec1 3) (ix2 0 j) = Spec.varK x w1 j)
    (h4 : ∀ j, V c (Pipeline.arrRef spec1 4) (ix2 0 j) = g j)
    (h5 : ∀ j, V c (Pipeline.arrRef spec1 5) (ix2 0 j) = b j)
    (h6 : ∀ cc d s, V c (Pipeline.arrRef spec1 6) (ix2 d (Spec.flat cc s)) = w2 cc d s)
    (h7 : ∀ s, V c (Pipeline.arrRef spec1 7) (ix2 0 s) = bias s)
    (h8 : ∀ n, V c (Pipeline.arrRef spec1 8) (ix2 n 0) = cat n)
    (h9 : ∀ cc, V c (Pipeline.arrRef spec1 9) (ix2 0 cc) = ((Spec.shiftTab cc : ℕ) : EReal))
    (h10 : ∀ cc, V c (Pipeline.arrRef spec1 10) (ix2 0 cc) = ((Spec.segTab cc : ℕ) : EReal))
    (hcat : ∀ n, (cat n).toNat < 16) :
    (dat1 (F := Ideal) V c).arrAt 11 cfg1.N = resultOf x w1 g b w2 bias cat := by
  refine Cover.final V c (resultOf x w1 g b w2 bias cat) (fun t p q => ?_)
  have ht : t.val < 64 := t.isLt
  have hn : t.val * 1024 + p.val < 65536 := by have := p.isLt; omega
  rw [Body.out1_11_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) w2 p q
    (by rw [Cover.blk8_apply, h8]; exact hcat _)
    (fun cc d s => by rw [Cover.blk6_apply, h6])
    (fun cc => by rw [Cover.blk9_apply, h9])
    (fun cc => by rw [Cover.blk10_apply, h10])]
  show _ = Spec.outK x w1 g b w2 bias cat ⟨t.val * 1024 + p.val, hn⟩ q
  unfold Spec.outK
  have e0 : (fun k => iblk1 V c 0 t (ix2 p k)) = x ⟨t.val * 1024 + p.val, hn⟩ :=
    funext fun k => by rw [Cover.blk0_apply, h0]
  have e1 : (fun k j => iblk1 V c 1 t (ix2 k j)) = w1 := funext fun k => funext fun j => by rw [Cover.blk1_apply, h1]
  have e2 : (fun j => iblk1 V c 2 t (ix2 0 j)) = Spec.meanK x w1 := funext fun j => by rw [Cover.blk2_apply, h2]
  have e3 : (fun j => iblk1 V c 3 t (ix2 0 j)) = Spec.varK x w1 := funext fun j => by rw [Cover.blk3_apply, h3]
  have e4 : (fun j => iblk1 V c 4 t (ix2 0 j)) = g := funext fun j => by rw [Cover.blk4_apply, h4]
  have e5 : (fun j => iblk1 V c 5 t (ix2 0 j)) = b := funext fun j => by rw [Cover.blk5_apply, h5]
  have e7 : (fun s => iblk1 V c 7 t (ix2 0 s)) = bias := funext fun s => by rw [Cover.blk7_apply, h7]
  have e8 : iblk1 V c 8 t (ix2 p 0) = cat ⟨t.val * 1024 + p.val, hn⟩ := by rw [Cover.blk8_apply, h8]
  rw [e0, e1, e2, e3, e4, e5, e7, e8]

end Cert.KernelIdeal.Value

end
-- ==== Proof.KResult.lean ====
/-
  The kernel program's result, of the launch arguments: the first kernel leaves the column sums and the
  second-moment matrix of each half of the batch; the host stretch adds the halves, divides by the batch size and
  pulls both through W1 (the mean row and the variance row, which are meanK and varK), and reshapes the other
  operands; the main kernel's result array is then the kernel's spelling of the specification.
-/
import proofs.«405493_j33827162423889_2_alg».proof.Proof.KHost
import proofs.«405493_j33827162423889_2_alg».proof.Proof.KReg0
import proofs.«405493_j33827162423889_2_alg».proof.Proof.KStats
import proofs.«405493_j33827162423889_2_alg».proof.Proof.KValue

set_option maxRecDepth 16384

noncomputable section

namespace Cert.KernelIdeal.Result

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The features as a coordinate function. -/
abbrev X (c : Dev nD) : Fin 65536 → Fin 128 → EReal := fun n k => Host.xA m c (ix2 n k)
/-- W1 as a coordinate function. -/
abbrev W (c : Dev nD) : Fin 128 → Fin 2048 → EReal := fun k j => Host.w1A m c (ix2 k j)

/-- The first kernel's column sums of half a. -/
theorem sum_half (c : Dev nD) (a : Fin 2) (k : Fin 128) :
    Host.sumA m ρ c (ix3 a (0 : Fin 1) k) = ∑ n : Fin 32768, X m c (Spec.halfRow a n) k := by
  have h1 : Host.sumA m ρ c = (dat0 (F := Ideal) (V1 m ρ) c).arrAt 1 cfg0.N := W2_arr m ρ c 1
  rw [h1, Reg0.sum_final (V1 m ρ) c a k]
  have hx : Reg0.xarr (V1 m ρ) c = Host.xA m c := Host.V1_x m ρ c
  rw [hx]
  rfl

/-- The first kernel's second-moment matrix of half a. -/
theorem mom_half (c : Dev nD) (a : Fin 2) (k k' : Fin 128) :
    Host.momA m ρ c (ix3 a k k') = ∑ n : Fin 32768, X m c (Spec.halfRow a n) k * X m c (Spec.halfRow a n) k' := by
  have h1 : Host.momA m ρ c = (dat0 (F := Ideal) (V1 m ρ) c).arrAt 2 cfg0.N := W2_arr m ρ c 2
  rw [h1, Reg0.m2_final (V1 m ρ) c a k k']
  have hx : Reg0.xarr (V1 m ρ) c = Host.xA m c := Host.V1_x m ρ c
  rw [hx]
  rfl

/-- THE RESULT BUFFER at the last boundary: the kernel's spelling of the specification of the launch arguments. -/
theorem result_eq (c : Dev nD) (hcat : ∀ n : Fin 65536, (Host.catA m c (ix1 n)).toNat < 16) :
    W4 m ρ c (Proc.devRef .tc main_v24)
      = Value.resultOf (X m c) (W m c) (fun j => Host.gA m c (ix1 j)) (fun j => Host.bA m c (ix1 j))
          (fun cc d s => Host.w2A m c (ix3 cc d s)) (fun s => Host.biasA m c (ix1 s)) (fun n => Host.catA m c (ix1 n)) := by
  have hw : W4 m ρ c (Proc.devRef .tc main_v24) = (dat1 (F := Ideal) (V3 m ρ) c).arrAt 11 cfg1.N := W4_arr m ρ c 11
  refine hw.trans (Value.arr_eq (V3 m ρ) c _ _ _ _ _ _ _ ?_ ?_ ?_ ?_ ?_ ?_ ?_ ?_ ?_ ?_ ?_ hcat)
  · intro n k; exact congrFun (Host.V3_w0 m ρ c) (ix2 n k)
  · intro k j; exact congrFun (Host.V3_w1 m ρ c) (ix2 k j)
  · intro j
    exact (Host.V3_mean m ρ c j).trans
      (Spec.meanK_of_halves (X m c) (W m c) (fun a k => Host.sumA m ρ c (ix3 a (0 : Fin 1) k)) (sum_half m ρ c) j)
  · intro j
    exact (Host.V3_var m ρ c j).trans
      (Spec.varK_of_halves (X m c) (W m c) (fun a k => Host.sumA m ρ c (ix3 a (0 : Fin 1) k))
        (fun a k k' => Host.momA m ρ c (ix3 a k k')) (sum_half m ρ c) (mom_half m ρ c) j)
  · intro j; exact Host.V3_g m ρ c j
  · intro j; exact Host.V3_b m ρ c j
  · intro cc d s; exact Host.V3_w2 m ρ c cc d s
  · intro s; exact Host.V3_bias m ρ c s
  · intro n; exact Host.V3_cat m ρ c n
  · intro cc; exact Host.V3_sh m ρ c cc
  · intro cc; exact Host.V3_sg m ρ c cc

end Cert.KernelIdeal.Result

end
-- ==== Proof.RefHact.lean ====
/-
  The reference's activations: the lifted batch h = x · W1, its column mean and biased variance, the normalisation
  (a quotient by a square root, then scale and shift) and the leaky rectifier, as one function of the four inputs.
  Read at coordinates (n, j) it is the rectifier of the normalised entry of h, with the column's sum over the batch
  size as its mean and the mean of the squared deviations as its variance: the variance's divisor is the batch size
  less the integer zero, which is the batch size itself and positive, so the guarded quotient is the plain quotient.
-/
import proofs.«405493_j33827162423889_2_alg».proof.ReferenceIdeal
import proofs.«405493_j33827162423889_2_alg».proof.Proof.Spec
import Idealize.ShloMosaic.Lib.ValueIdx
import Idealize.ShloMosaic.Lib.Pipeline.Value
import Idealize.ShloMosaic.PureOps.Ideal.Laws
import Idealize.ShloMosaic.Lib.IdealHost
import Idealize.ShloMosaic.Lib.ValueLayout

noncomputable section

namespace Cert.ReferenceIdeal.Stage

open Cert.ReferenceIdeal Cert.ReferenceIdeal.Facts₀ Idealize.ShloMosaic Idealize.ShloMosaic.ValueIdx

variable [Cert.ReferenceIdeal.Facts]

/-- The lifted batch: the matrix product of the rows with W1. -/
def hprod (x : FVec Ideal S65536x128 .f32) (w1 : FVec Ideal S128x2048 .f32) : FVec Ideal S65536x2048 .f32 :=
  Host.dotGeneral dot_S65536x128_S128x2048_S65536x2048_1_0_0_1_n_n none x w1

/-- The column mean: the column's sum from zero, over the batch size. -/
def hmean (h : FVec Ideal S65536x2048 .f32) : FVec Ideal S2048 .f32 :=
  let cst : FVec Ideal S_ .f32 := constant (F := Ideal) S_ .f32 0x00000000#32
  let v1 : FVec Ideal S2048 .f32 := Host.reduceAdd h cst reducesTo_S65536x2048_S2048_d0 h_S_
  let cst_1 : FVec Ideal S_ .f32 := constant (F := Ideal) S_ .f32 0x47800000#32
  let v2 : FVec Ideal S2048 .f32 := broadcastInDim S2048 ![] bcast_S_S2048 cst_1
  Host.divf v1 v2

/-- The guarded choice inside the variance: the quotient where the divisor is positive, else the fill value. -/
def hwhere (p : IVec S_ 1) (a : FVec Ideal S2048 .f32) (c : FVec Ideal S_ .f32) : FVec Ideal S2048 .f32 :=
  let v0 : FVec Ideal S_ .f32 := id c
  let v1 : FVec Ideal S2048 .f32 := broadcastInDim S2048 ![] bcast_S_S2048 v0
  select (broadcastInDim S2048 ![] bcast_S_S2048 p) a v1

/-- The column variance with a degrees-of-freedom correction d: the sum of squared deviations from the column mean,
    over the batch size less d, where that divisor is positive. -/
def hvar (h : FVec Ideal S65536x2048 .f32) (d : IVec S_ 32) : FVec Ideal S2048 .f32 :=
  let cst : FVec Ideal S_ .f32 := constant (F := Ideal) S_ .f32 0x00000000#32
  let v0 : FVec Ideal S2048 .f32 := Host.reduceAdd h cst reducesTo_S65536x2048_S2048_d0 h_S_
  let v1 : FVec Ideal S1x2048 .f32 := broadcastInDim S1x2048 ![1] bcast_S2048_S1x2048_1 v0
  let cst_0 : FVec Ideal S_ .f32 := constant (F := Ideal) S_ .f32 0x47800000#32
  let v2 : FVec Ideal S1x2048 .f32 := broadcastInDim S1x2048 ![] bcast_S_S1x2048 cst_0
  let v3 : FVec Ideal S1x2048 .f32 := Host.divf v1 v2
  let v4 : FVec Ideal S65536x2048 .f32 := broadcastInDim S65536x2048 ![0, 1] bcast_S1x2048_S65536x2048_0_1 v3
  let v5 : FVec Ideal S65536x2048 .f32 := subf h v4
  let v6 : FVec Ideal S65536x2048 .f32 := mulf v5 v5
  let v7 : FVec Ideal S_ .f32 := sitofp .f32 d
  let cst_1 : FVec Ideal S_ .f32 := constant (F := Ideal) S_ .f32 0x47800000#32
  let v8 : FVec Ideal S_ .f32 := subf cst_1 v7
  let cst_2 : FVec Ideal S_ .f32 := constant (F := Ideal) S_ .f32 0x00000000#32
  let v9 : FVec Ideal S2048 .f32 := Host.reduceAdd v6 cst_2 reducesTo_S65536x2048_S2048_d0 h_S_
  let v10 : FVec Ideal S2048 .f32 := broadcastInDim S2048 ![] bcast_S_S2048 v8
  let v11 : FVec Ideal S2048 .f32 := Host.divf v9 v10
  let cst_3 : FVec Ideal S_ .f32 := constant (F := Ideal) S_ .f32 0x00000000#32
  let v12 : IVec S_ 1 := cmpf .ogt v8 cst_3
  let cst_4 : FVec Ideal S_ .f32 := constant (F := Ideal) S_ .f32 0x7FC00000#32
  hwhere v12 v11 cst_4

/-- The normalised batch: each column of h less its mean, over the square root of its variance plus the offset,
    scaled and shifted. -/
def hnorm (x : FVec Ideal S65536x128 .f32) (w1 : FVec Ideal S128x2048 .f32) (g b : FVec Ideal S2048 .f32) :
    FVec Ideal S65536x2048 .f32 :=
  let v0 : FVec Ideal S65536x2048 .f32 := hprod x w1
  let v3 : FVec Ideal S2048 .f32 := hmean v0
  let c_2 : IVec S_ 32 := constantI S_ 32 0#32
  let v4 : FVec Ideal S2048 .f32 := hvar v0 c_2
  let v5 : FVec Ideal S1x2048 .f32 := broadcastInDim S1x2048 ![1] bcast_S2048_S1x2048_1 v3
  let v6 : FVec Ideal S65536x2048 .f32 := broadcastInDim S65536x2048 ![0, 1] bcast_S1x2048_S65536x2048_0_1 v5
  let v7 : FVec Ideal S65536x2048 .f32 := subf v0 v6
  let cst_3 : FVec Ideal S_ .f32 := constant (F := Ideal) S_ .f32 0x3727C5AC#32
  let v8 : FVec Ideal S2048 .f32 := broadcastInDim S2048 ![] bcast_S_S2048 cst_3
  let v9 : FVec Ideal S2048 .f32 := addf v4 v8
  let v10 : FVec Ideal S2048 .f32 := Host.sqrt v9
  let v11 : FVec Ideal S1x2048 .f32 := broadcastInDim S1x2048 ![1] bcast_S2048_S1x2048_1 v10
  let v12 : FVec Ideal S65536x2048 .f32 := broadcastInDim S65536x2048 ![0, 1] bcast_S1x2048_S65536x2048_0_1 v11
  let v13 : FVec Ideal S65536x2048 .f32 := Host.divf v7 v12
  let v14 : FVec Ideal S1x2048 .f32 := broadcastInDim S1x2048 ![1] bcast_S2048_S1x2048_1 g
  let v15 : FVec Ideal S65536x2048 .f32 := broadcastInDim S65536x2048 ![0, 1] bcast_S1x2048_S65536x2048_0_1 v14
  let v16 : FVec Ideal S65536x2048 .f32 := mulf v13 v15
  let v17 : FVec Ideal S1x2048 .f32 := broadcastInDim S1x2048 ![1] bcast_S2048_S1x2048_1 b
  let v18 : FVec Ideal S65536x2048 .f32 := broadcastInDim S65536x2048 ![0, 1] bcast_S1x2048_S65536x2048_0_1 v17
  addf v16 v18

/-- The activations: the normalised batch through the leaky rectifier. -/
def hact (x : Vec Ideal S65536x128 .f32) (w1 : Vec Ideal S128x2048 .f32) (g b : Vec Ideal S2048 .f32) :
    Vec Ideal S65536x2048 .f32 :=
  let v19 : FVec Ideal S65536x2048 .f32 := hnorm x w1 g b
  let cst_4 : FVec Ideal S_ .f32 := constant (F := Ideal) S_ .f32 0x00000000#32
  let v20 : FVec Ideal S65536x2048 .f32 := broadcastInDim S65536x2048 ![] bcast_S_S65536x2048 cst_4
  let v21 : IVec S65536x2048 1 := cmpf .oge v19 v20
  let cst_5 : FVec Ideal S_ .f32 := constant (F := Ideal) S_ .f32 0x3E4CCCCD#32
  let v22 : FVec Ideal S65536x2048 .f32 := broadcastInDim S65536x2048 ![] bcast_S_S65536x2048 cst_5
  let v23 : FVec Ideal S65536x2048 .f32 := mulf v22 v19
  (select v21 v19 v23 : FVec Ideal S65536x2048 .f32)

/-! ## Reading each stage at coordinates -/

theorem lhs_hprod_0 (i : S65536x2048.Idx) (q : dot_S65536x128_S128x2048_S65536x2048_1_0_0_1_n_n.contr.Idx) :
    (dot_S65536x128_S128x2048_S65536x2048_1_0_0_1_n_n.lhsIdx i q 0).val = (i 0).val := by
  unfold DotDims.lhsIdx
  rw [dif_neg (show ¬(0 : Fin S65536x128.rank) ∈ dot_S65536x128_S128x2048_S65536x2048_1_0_0_1_n_n.lhsBatch from List.not_mem_nil),
    dif_pos (show (0 : Fin S65536x128.rank) ∈ dot_S65536x128_S128x2048_S65536x2048_1_0_0_1_n_n.lhsNonContracting from List.mem_singleton.mpr rfl)]
  rfl

theorem lhs_hprod_1 (i : S65536x2048.Idx) (q : dot_S65536x128_S128x2048_S65536x2048_1_0_0_1_n_n.contr.Idx) :
    (dot_S65536x128_S128x2048_S65536x2048_1_0_0_1_n_n.lhsIdx i q 1).val = (q ⟨0, Nat.one_pos⟩).val :=
  dot_S65536x128_S128x2048_S65536x2048_1_0_0_1_n_n.lhsIdx_val_of_single rfl i q

theorem rhs_hprod_0 (i : S65536x2048.Idx) (q : dot_S65536x128_S128x2048_S65536x2048_1_0_0_1_n_n.contr.Idx) :
    (dot_S65536x128_S128x2048_S65536x2048_1_0_0_1_n_n.rhsIdx i q 0).val = (q ⟨0, Nat.one_pos⟩).val :=
  dot_S65536x128_S128x2048_S65536x2048_1_0_0_1_n_n.rhsIdx_val_of_single rfl i q

theorem rhs_hprod_1 (i : S65536x2048.Idx) (q : dot_S65536x128_S128x2048_S65536x2048_1_0_0_1_n_n.contr.Idx) :
    (dot_S65536x128_S128x2048_S65536x2048_1_0_0_1_n_n.rhsIdx i q 1).val = (i 1).val := by
  unfold DotDims.rhsIdx
  rw [dif_neg (show ¬(1 : Fin S128x2048.rank) ∈ dot_S65536x128_S128x2048_S65536x2048_1_0_0_1_n_n.rhsBatch from List.not_mem_nil),
    dif_pos (show (1 : Fin S128x2048.rank) ∈ dot_S65536x128_S128x2048_S65536x2048_1_0_0_1_n_n.rhsNonContracting from List.mem_singleton.mpr rfl)]
  rfl

/-- The product at (n, j) is the sum over the 128 features of the row's entry times the weight's. -/
theorem hprod_apply (x : FVec Ideal S65536x128 .f32) (w1 : FVec Ideal S128x2048 .f32) (n : Fin 65536) (j : Fin 2048) :
    hprod x w1 (ix2 n j) = ∑ k : Fin 128, x (ix2 n k) * w1 (ix2 k j) := by
  unfold hprod
  simp only [Host.dotGeneral]
  rw [Ideal.dotGeneral_apply, ← Equiv.sum_comp (ValueIdx.contrEquiv1 dot_S65536x128_S128x2048_S65536x2048_1_0_0_1_n_n 128 rfl rfl).symm]
  refine Finset.sum_congr rfl fun k _ => ?_
  have hk := ValueIdx.contrEquiv1_symm_val dot_S65536x128_S128x2048_S65536x2048_1_0_0_1_n_n 128 rfl rfl k
  have el : dot_S65536x128_S128x2048_S65536x2048_1_0_0_1_n_n.lhsIdx (ix2 n j) ((ValueIdx.contrEquiv1 dot_S65536x128_S128x2048_S65536x2048_1_0_0_1_n_n 128 rfl rfl).symm k) = ix2 n k := funext fun a => Fin.ext (by
    match a with
    | ⟨0, _⟩ => exact lhs_hprod_0 _ _
    | ⟨1, _⟩ => exact (lhs_hprod_1 _ _).trans hk)
  have er : dot_S65536x128_S128x2048_S65536x2048_1_0_0_1_n_n.rhsIdx (ix2 n j) ((ValueIdx.contrEquiv1 dot_S65536x128_S128x2048_S65536x2048_1_0_0_1_n_n 128 rfl rfl).symm k) = ix2 k j := funext fun a => Fin.ext (by
    match a with
    | ⟨0, _⟩ => exact (rhs_hprod_0 _ _).trans hk
    | ⟨1, _⟩ => exact rhs_hprod_1 _ _)
  rw [el, er]

/-- A vector of 2048 laid along the second axis of a 1 × 2048 row reads, at (r, j), its entry j. -/
theorem row_apply {α : Type} (v : S2048.Idx → α) (r : Fin 1) (j : Fin 2048) :
    broadcastInDim S1x2048 ![1] bcast_S2048_S1x2048_1 v (ix2 r j) = v (ix1 j) :=
  broadcastInDim_apply _ _ v _ (ix1 j) fun a => by
    match a with
    | ⟨0, _⟩ => rfl

/-- A 1 × 2048 row repeated down 65536 rows reads, at (n, j), the row at (0, j). -/
theorem rows_apply {α : Type} (v : S1x2048.Idx → α) (n : Fin 65536) (j : Fin 2048) :
    broadcastInDim S65536x2048 ![0, 1] bcast_S1x2048_S65536x2048_0_1 v (ix2 n j) = v (ix2 (0 : Fin 1) j) :=
  broadcastInDim_apply _ _ v _ (ix2 (0 : Fin 1) j) fun a => by
    match a with
    | ⟨0, _⟩ => rfl
    | ⟨1, _⟩ => rfl

/-- A column's sum from the zero word is the plain sum of the column. -/
theorem colsum_apply (v : FVec Ideal S65536x2048 .f32) (j : Fin 2048) :
    (Host.reduceAdd v (constant (F := Ideal) S_ .f32 0x00000000#32) reducesTo_S65536x2048_S2048_d0 h_S_ :
      FVec Ideal S2048 .f32) (ix1 j) = ∑ n : Fin 65536, v (ix2 n j) := by
  rw [hostReduceAdd_apply, Ideal.hostReduceAdd_single reducesTo_S65536x2048_S2048_d0 (by decide), constant_apply,
    Ideal.ofBits_zero_f32, zero_add]
  refine Finset.sum_congr rfl fun k _ => ?_
  exact congrArg v (funext fun a => Fin.ext (by match a with | ⟨0, _⟩ => rfl | ⟨1, _⟩ => rfl))

/-- The batch size's word is the positive real 65536. -/
theorem nN_val : Cert.Spec.nN = ((65536 : ℝ) : EReal) := by
  simp [Cert.Spec.nN, Ideal.ofBits, Ideal.ieee, -EReal.coe_mul]; norm_num

theorem nN_pos : (0 : EReal) < Cert.Spec.nN := by
  rw [nN_val]; exact_mod_cast (by norm_num : (0 : ℝ) < 65536)

/-- The column mean at j: the column's sum over the batch size. -/
theorem hmean_apply (h : FVec Ideal S65536x2048 .f32) (j : Fin 2048) :
    hmean h (ix1 j) = Ideal.div (∑ n : Fin 65536, h (ix2 n j)) Cert.Spec.nN := by
  unfold hmean
  simp only []
  rw [hostDivf_apply, colsum_apply, broadcastInDim_scalar_apply, constant_apply]
  rfl

/-- The guarded choice at j: the first operand where the scalar flag is set, else the scalar fill. -/
theorem hwhere_apply (p : IVec S_ 1) (a : FVec Ideal S2048 .f32) (c : FVec Ideal S_ .f32) (j : Fin 2048) :
    hwhere p a c (ix1 j) = if p ix0 = 1 then a (ix1 j) else c ix0 := by
  unfold hwhere
  simp only []
  rw [select_apply, broadcastInDim_scalar_apply, broadcastInDim_scalar_apply]
  rfl

/-- The variance's divisor with no correction is the batch size. -/
theorem divisor_apply :
    (subf (constant (F := Ideal) S_ .f32 0x47800000#32) (sitofp .f32 (constantI S_ 32 0#32)) : FVec Ideal S_ .f32) ix0
      = Cert.Spec.nN := by
  rw [subf_apply, constant_apply, sitofp_apply, constantI_apply]
  show Cert.Spec.nN - (((0#32 : BitVec 32).toInt : ℝ) : EReal) = Cert.Spec.nN
  simp

/-- The column variance at j with no correction: the mean of the squared deviations from the column mean. -/
theorem hvar_apply (h : FVec Ideal S65536x2048 .f32) (j : Fin 2048) :
    hvar h (constantI S_ 32 0#32) (ix1 j)
      = Ideal.div (∑ n : Fin 65536, (h (ix2 n j) - Ideal.div (∑ m : Fin 65536, h (ix2 m j)) Cert.Spec.nN)
          * (h (ix2 n j) - Ideal.div (∑ m : Fin 65536, h (ix2 m j)) Cert.Spec.nN)) Cert.Spec.nN := by
  unfold hvar
  simp only []
  rw [hwhere_apply, cmpf_apply, divisor_apply, constant_apply, Ideal.ofBits_zero_f32, Ideal.cmpf_def]
  rw [if_pos (by simp [Ideal.cmp, nN_pos])]
  rw [hostDivf_apply, colsum_apply, broadcastInDim_scalar_apply, divisor_apply]
  refine congrArg (fun s => Ideal.div s Cert.Spec.nN) (Finset.sum_congr rfl fun n _ => ?_)
  rw [mulf_apply, subf_apply, rows_apply, hostDivf_apply, row_apply, colsum_apply, broadcastInDim_scalar_apply, constant_apply]
  rfl

/-- The host's square root at an index is the square root of the entry. -/
theorem hostSqrt_apply {s : Shape} (v : FVec Ideal s .f32) (i : s.Idx) : Host.sqrt v i = Ideal.sqrt (v i) := rfl

/-- The product at (n, j) is the specification's h. -/
theorem hprod_spec (x : FVec Ideal S65536x128 .f32) (w1 : FVec Ideal S128x2048 .f32) (n : Fin 65536) (j : Fin 2048) :
    hprod x w1 (ix2 n j) = Cert.Spec.hmat (fun n k => x (ix2 n k)) (fun k j => w1 (ix2 k j)) n j :=
  hprod_apply x w1 n j

/-- The normalised batch at (n, j) is the specification's quotient form. -/
theorem hnorm_apply (x : FVec Ideal S65536x128 .f32) (w1 : FVec Ideal S128x2048 .f32) (g b : FVec Ideal S2048 .f32)
    (n : Fin 65536) (j : Fin 2048) :
    hnorm x w1 g b (ix2 n j)
      = Cert.Spec.normR (Cert.Spec.hmat (fun n k => x (ix2 n k)) (fun k j => w1 (ix2 k j)) n j)
          (Cert.Spec.meanR (fun n k => x (ix2 n k)) (fun k j => w1 (ix2 k j)) j)
          (Cert.Spec.varR (fun n k => x (ix2 n k)) (fun k j => w1 (ix2 k j)) j) (g (ix1 j)) (b (ix1 j)) := by
  unfold hnorm
  simp only []
  rw [addf_apply, mulf_apply, hostDivf_apply, subf_apply]
  rw [rows_apply, rows_apply, rows_apply, rows_apply, row_apply, row_apply, row_apply, row_apply]
  rw [hmean_apply, hostSqrt_apply, addf_apply, hvar_apply, broadcastInDim_scalar_apply, constant_apply]
  simp only [hprod_spec]
  rfl

/-- The guarded choice on the sign test at zero is the leaky rectifier. -/
theorem select_lrelu (v : EReal) :
    Scalar.select (Ideal.cmp .oge v 0) v (Ideal.ofBits .f32 0x3E4CCCCD#32 * v) = Cert.Spec.lrelu v := by
  show (if BitVec.ofBool (decide ((0 : EReal) ≤ v)) = 1 then v else Cert.Spec.slope * v)
    = if 0 ≤ v then v else Cert.Spec.slope * v
  by_cases h : (0 : EReal) ≤ v
  · rw [if_pos h, decide_eq_true h]; rfl
  · rw [if_neg h, decide_eq_false h]; rfl

/-- The activations at (n, j): the rectifier of the normalised h, with the reference's column mean and variance. -/
theorem hact_apply (x : Vec Ideal S65536x128 .f32) (w1 : Vec Ideal S128x2048 .f32) (g b : Vec Ideal S2048 .f32)
    (n : Fin 65536) (j : Fin 2048) :
    hact x w1 g b (ix2 n j)
      = Cert.Spec.lrelu (Cert.Spec.normR (Cert.Spec.hmat (fun n k => x (ix2 n k)) (fun k j => w1 (ix2 k j)) n j)
          (Cert.Spec.meanR (fun n k => x (ix2 n k)) (fun k j => w1 (ix2 k j)) j)
          (Cert.Spec.varR (fun n k => x (ix2 n k)) (fun k j => w1 (ix2 k j)) j) (g (ix1 j)) (b (ix1 j))) := by
  unfold hact
  simp only []
  rw [select_apply, cmpf_apply, mulf_apply, broadcastInDim_scalar_apply, broadcastInDim_scalar_apply, constant_apply,
    constant_apply, Ideal.ofBits_zero_f32, Ideal.cmpf_def, hnorm_apply]
  exact select_lrelu _

end Cert.ReferenceIdeal.Stage

end
-- ==== Proof.RefLogits.lean ====
/-
  The reference's classifier stage and its log-softmax, read at an index.

  The classifier stage regroups a row's 2048 activations as 16 blocks of 128, multiplies every block by its category's
  128×6 matrix and adds the bias, and then picks, for row n, the result of the row's own label: with the label in 0..15
  and the row number in 0..65535 neither start word is negative nor clamped, so entry (n, s) is the sum over the 128
  channels of block label(n) of activation times weight, plus bias s. The log-softmax subtracts the row's maximum (a
  maximum taken from minus infinity, so the maximum of the six entries), and then the logarithm of the sum of the
  exponentials of the six differences.
-/
import proofs.«405493_j33827162423889_2_alg».proof.ReferenceIdeal
import proofs.«405493_j33827162423889_2_alg».proof.Proof.Spec
import Idealize.ShloMosaic.PureOps.Ideal.Laws
import Idealize.ShloMosaic.Lib.ValueIdx
import Idealize.ShloMosaic.Lib.IdealHost
import Idealize.ShloMosaic.Lib.Pipeline.Value
import Idealize.ShloMosaic.PureOps.Reduce

noncomputable section

namespace Cert.ReferenceIdeal.Stage

open Cert.ReferenceIdeal Cert.ReferenceIdeal.Facts₀ Idealize.ShloMosaic Idealize.ShloMosaic.ValueIdx

variable [Cert.ReferenceIdeal.Facts]

/-- The six logits of every row: the activations regrouped as 16 blocks of 128 channels, each block multiplied by
    its category's 128×6 classifier and shifted by the bias, and the row's own category's result picked out. -/
def logits (ha : Vec Ideal S65536x2048 .f32) (w2 : Vec Ideal S16x128x6 .f32) (bias : Vec Ideal S6 .f32)
    (cat : Vec Ideal S65536 .i32) : Vec Ideal S65536x6 .f32 :=
  let v25 : Vec Ideal S65536x16x128 .f32 := shapeCast S65536x16x128 ha shapeCasts_S65536x2048_S65536x16x128
  let v26 : Vec Ideal S16x65536x128 .f32 :=
    transpose S16x65536x128 [1, 0, 2] v25 transposes_S65536x16x128_S16x65536x128_1_0_2
  let v27 : Vec Ideal S16x65536x6 .f32 :=
    Host.dotGeneral (F := Ideal) (φ₁ := .f32) (φ₂ := .f32) dot_S16x65536x128_S16x128x6_S16x65536x6_2_1_1_2_0_0 none v26 w2
  let v28 : Vec Ideal S1x1x6 .f32 := broadcastInDim S1x1x6 ![2] bcast_S6_S1x1x6_2 bias
  let v29 : Vec Ideal S16x65536x6 .f32 := broadcastInDim S16x65536x6 ![0, 1, 2] bcast_S1x1x6_S16x65536x6_0_1_2 v28
  let v30 : Vec Ideal S16x65536x6 .f32 := addf (F := Ideal) (φ := .f32) v27 v29
  let v31 : Vec Ideal S65536 .i32 := iotaInDim S65536 32 0
  let c_6 : Vec Ideal S_ .i32 := constantI S_ 32 0#32
  let v32 : Vec Ideal S65536 .i32 := broadcastInDim S65536 ![] bcast_S_S65536 c_6
  let v33 : Vec Ideal S65536 .i1 := cmpi .slt cat v32
  let c_7 : Vec Ideal S_ .i32 := constantI S_ 32 16#32
  let v34 : Vec Ideal S65536 .i32 := broadcastInDim S65536 ![] bcast_S_S65536 c_7
  let v35 : Vec Ideal S65536 .i32 := addi cat v34
  let v36 : Vec Ideal S65536 .i32 := select v33 v35 cat
  let c_8 : Vec Ideal S_ .i32 := constantI S_ 32 0#32
  let v37 : Vec Ideal S65536 .i32 := broadcastInDim S65536 ![] bcast_S_S65536 c_8
  let v38 : Vec Ideal S65536 .i1 := cmpi .slt v31 v37
  let c_9 : Vec Ideal S_ .i32 := constantI S_ 32 65536#32
  let v39 : Vec Ideal S65536 .i32 := broadcastInDim S65536 ![] bcast_S_S65536 c_9
  let v40 : Vec Ideal S65536 .i32 := addi v31 v39
  let v41 : Vec Ideal S65536 .i32 := select v38 v40 v31
  let v42 : Vec Ideal S65536x1 .i32 := broadcastInDim S65536x1 ![0] bcast_S65536_S65536x1_0 v36
  let v43 : Vec Ideal S65536x1 .i32 := broadcastInDim S65536x1 ![0] bcast_S65536_S65536x1_0 v41
  let v44 : Vec Ideal S65536x2 .i32 :=
    concatenate S65536x2 1 [⟨S65536x1, v42⟩, ⟨S65536x1, v43⟩] concatenates_S65536x1_S65536x1_S65536x2_d1
  Host.gather gather_S16x65536x6_S65536x2_S65536x6_1_01_n_n_01_1_116 v30 v44

/-- The log-softmax of every row of six: the row's largest entry is subtracted, and then the logarithm of the sum of
    the exponentials of the differences. -/
def lsm (lg : Vec Ideal S65536x6 .f32) : Vec Ideal S65536x6 .f32 :=
  let cst : Vec Ideal S_ .f32 := constant (F := Ideal) S_ .f32 0xFF800000#32
  let v0 : Vec Ideal S65536 .f32 :=
    Host.reduce (FloatOps.maximumf (F := Ideal) (φ := .f32)) lg cst reducesTo_S65536x6_S65536_d1 h_S_
  let cst_0 : Vec Ideal S_ .f32 := constant (F := Ideal) S_ .f32 0xFF800000#32
  let v1 : Vec Ideal S65536 .f32 := broadcastInDim S65536 ![] bcast_S_S65536 cst_0
  let v2 : Vec Ideal S65536 .f32 := maximumf (F := Ideal) (φ := .f32) v1 v0
  let v3 : Vec Ideal S65536x1 .f32 := broadcastInDim S65536x1 ![0] bcast_S65536_S65536x1_0 v2
  let v4 : Vec Ideal S65536x6 .f32 := broadcastInDim S65536x6 ![0, 1] bcast_S65536x1_S65536x6_0_1 v3
  let v5 : Vec Ideal S65536x6 .f32 := subf (F := Ideal) (φ := .f32) lg v4
  let v6 : Vec Ideal S65536x6 .f32 := Host.exp (F := Ideal) (φ := .f32) v5
  let cst_1 : Vec Ideal S_ .f32 := constant (F := Ideal) S_ .f32 0x00000000#32
  let v7 : Vec Ideal S65536 .f32 := Host.reduceAdd (F := Ideal) (φ := .f32) v6 cst_1 reducesTo_S65536x6_S65536_d1 h_S_
  let v8 : Vec Ideal S65536x1 .f32 := broadcastInDim S65536x1 ![0] bcast_S65536_S65536x1_0 v7
  let v9 : Vec Ideal S65536x1 .f32 := Host.log (F := Ideal) (φ := .f32) v8
  let v10 : Vec Ideal S65536x6 .f32 := broadcastInDim S65536x6 ![0, 1] bcast_S65536x1_S65536x6_0_1 v9
  subf (F := Ideal) (φ := .f32) v5 v10

/-! ## Broadcasts at an index -/

section Bcast
variable {α : Type}

/-- A vector of 65536 read as a column: entry (m, 0) is entry m. -/
private theorem bcast_col (x : S65536.Idx → α) (m : Fin 65536) (z : Fin 1) :
    broadcastInDim S65536x1 ![0] bcast_S65536_S65536x1_0 x (ix2 m z) = x (ix1 m) := by
  refine broadcastInDim_apply _ _ x _ (ix1 m) ?_
  intro a
  match a with
  | ⟨0, _⟩ => rfl

/-- A column of 65536 repeated along six columns: entry (m, t) is the column's entry (m, 0). -/
private theorem bcast_row6 (x : S65536x1.Idx → α) (m : Fin 65536) (t : Fin 6) :
    broadcastInDim S65536x6 ![0, 1] bcast_S65536x1_S65536x6_0_1 x (ix2 m t) = x (ix2 m (0 : Fin 1)) := by
  refine broadcastInDim_apply _ _ x _ (ix2 m (0 : Fin 1)) ?_
  intro a
  match a with
  | ⟨0, _⟩ => rfl
  | ⟨1, _⟩ => rfl

/-- A scalar repeated 65536 times. -/
private theorem bcast_scalar (x : S_.Idx → α) (m : Fin 65536) :
    broadcastInDim S65536 ![] bcast_S_S65536 x (ix1 m) = x ix0 :=
  broadcastInDim_scalar_apply _ x _

/-- Two columns side by side: column 0 of the pair is the first. -/
private theorem pair_left (a b : S65536x1.Idx → α) (n : Fin 65536) :
    concatenate S65536x2 1 [⟨S65536x1, a⟩, ⟨S65536x1, b⟩] concatenates_S65536x1_S65536x1_S65536x2_d1 (ix2 n (0 : Fin 2))
      = a (ix2 n (0 : Fin 1)) := by
  refine concatenate_pair_apply_left (1 : Fin 2) a b _ (ix2 n (0 : Fin 2)) rfl (ix2 n (0 : Fin 1)) ?_
  intro c
  match c with
  | ⟨0, _⟩ => rfl
  | ⟨1, _⟩ => rfl

/-- … and column 1 is the second. -/
private theorem pair_right (a b : S65536x1.Idx → α) (n : Fin 65536) :
    concatenate S65536x2 1 [⟨S65536x1, a⟩, ⟨S65536x1, b⟩] concatenates_S65536x1_S65536x1_S65536x2_d1 (ix2 n (1 : Fin 2))
      = b (ix2 n (0 : Fin 1)) := by
  refine concatenate_pair_apply_right (1 : Fin 2) a b _ (ix2 n (1 : Fin 2)) rfl rfl (ix2 n (0 : Fin 1)) ?_ rfl
  intro c hc
  match c with
  | ⟨0, _⟩ => rfl
  | ⟨1, _⟩ => exact absurd rfl hc
end Bcast

/-! ## The log-softmax at an index -/

/-- Dropping the second axis of a [65536, 6] array leaves [65536]. -/
private theorem red6 : S65536x6.Reduces [1] S65536 := by decide

/-- Row n of a [65536, 6] array with column k put back is the index (n, k). -/
private theorem lift6 (n : Fin 65536) (k : Fin 6) : red6.lift (ix1 n) k = ix2 n k := by
  funext c
  refine Fin.ext ?_
  match c with
  | ⟨0, _⟩ => rfl
  | ⟨1, _⟩ => rfl

/-- The host's exponential and logarithm at an index are the extended reals' of the entry. -/
private theorem hostExp_apply {sh : Shape} (v : FVec Ideal sh .f32) (i : sh.Idx) :
    Host.exp (F := Ideal) v i = Ideal.exp (v i) := rfl
private theorem hostLog_apply {sh : Shape} (v : FVec Ideal sh .f32) (i : sh.Idx) :
    Host.log (F := Ideal) v i = Ideal.log (v i) := rfl

/-- The word 0xFF800000 is minus infinity. -/
private theorem ofBits_neg_inf : Ideal.ofBits .f32 0xFF800000#32 = (⊥ : EReal) := by
  simp [Ideal.ofBits, Ideal.ieee]

theorem lsm_apply (lg : Vec Ideal S65536x6 .f32) (n : Fin 65536) (s : Fin 6) :
    lsm lg (ix2 n s) = Cert.Spec.lsR (fun t => lg (ix2 n t)) s := by
  -- the row's maximum
  have hmax : ∀ m : Fin 65536,
      Host.reduce (FloatOps.maximumf (F := Ideal) (φ := .f32)) lg (constant (F := Ideal) S_ .f32 0xFF800000#32)
        reducesTo_S65536x6_S65536_d1 h_S_ (ix1 m) = Cert.Spec.rowMax (fun t => lg (ix2 m t)) := by
    intro m
    rw [Host.reduce_eq_fold_single _ _ _ reducesTo_S65536x6_S65536_d1 red6 h_S_ (ix1 m)]
    show Finset.fold _ (Ideal.ofBits .f32 0xFF800000#32) _ _ = _
    rw [ofBits_neg_inf]
    unfold Cert.Spec.rowMax
    refine Finset.fold_congr ?_
    intro k _
    exact congrArg lg (lift6 m k)
  -- the row's sum of exponentials
  have hsum : ∀ (v : FVec Ideal S65536x6 .f32) (m : Fin 65536),
      Host.reduceAdd (F := Ideal) (φ := .f32) v (constant (F := Ideal) S_ .f32 0x00000000#32)
        reducesTo_S65536x6_S65536_d1 h_S_ (ix1 m) = ∑ t : Fin 6, v (ix2 m t) := by
    intro v m
    rw [hostReduceAdd_apply, Ideal.hostReduceAdd_single reducesTo_S65536x6_S65536_d1 red6]
    show Ideal.ofBits .f32 0x00000000#32 + _ = _
    rw [Ideal.ofBits_zero_f32, zero_add]
    exact Finset.sum_congr rfl fun k _ => congrArg v (lift6 m k)
  -- every entry less the row's maximum
  have hsub : ∀ (m : Fin 65536) (t : Fin 6),
      subf (F := Ideal) (φ := .f32) lg
        (broadcastInDim S65536x6 ![0, 1] bcast_S65536x1_S65536x6_0_1
          (broadcastInDim S65536x1 ![0] bcast_S65536_S65536x1_0
            (maximumf (F := Ideal) (φ := .f32)
              (broadcastInDim S65536 ![] bcast_S_S65536 (constant (F := Ideal) S_ .f32 0xFF800000#32))
              (Host.reduce (FloatOps.maximumf (F := Ideal) (φ := .f32)) lg (constant (F := Ideal) S_ .f32 0xFF800000#32)
                reducesTo_S65536x6_S65536_d1 h_S_)))) (ix2 m t)
        = lg (ix2 m t) - Cert.Spec.rowMax (fun t => lg (ix2 m t)) := by
    intro m t
    rw [subf_apply, bcast_row6, bcast_col, maximumf_apply, bcast_scalar, hmax, constant_apply, ofBits_neg_inf,
      max_eq_right bot_le]
  unfold lsm
  simp only []
  rw [subf_apply, hsub, bcast_row6, hostLog_apply, bcast_col, hsum]
  simp only [hostExp_apply, hsub]
  rfl

/-! ## The classifier stage at an index -/

local notation "gd" => gather_S16x65536x6_S65536x2_S65536x6_1_01_n_n_01_1_116
local notation "dd" => dot_S16x65536x128_S16x128x6_S16x65536x6_2_1_1_2_0_0

private theorem gd_si0 (n : Fin 65536) (s : Fin 6) (h : List.idxOf (0 : Fin 3) (gd).startIndexMap < (gd).startIndexMap.length) :
    (gd).siIdx (ix2 n s) ⟨List.idxOf (0 : Fin 3) (gd).startIndexMap, h⟩ = ix2 n (0 : Fin 2) := by
  funext b; refine Fin.ext ?_
  match b with
  | ⟨0, _⟩ => rfl
  | ⟨1, _⟩ => rfl

private theorem gd_si1 (n : Fin 65536) (s : Fin 6) (h : List.idxOf (1 : Fin 3) (gd).startIndexMap < (gd).startIndexMap.length) :
    (gd).siIdx (ix2 n s) ⟨List.idxOf (1 : Fin 3) (gd).startIndexMap, h⟩ = ix2 n (1 : Fin 2) := by
  funext b; refine Fin.ext ?_
  match b with
  | ⟨0, _⟩ => rfl
  | ⟨1, _⟩ => rfl

/-- The gather at (n, s): the operand at (first start word of row n clamped into 0..15, second start word clamped into
    0..65535, s). -/
private theorem gather_at {α : Type} (x : S16x65536x6.Idx → α) (idx : IVec S65536x2 32) (n : Fin 65536) (s : Fin 6) :
    Host.gather gd x idx (ix2 n s)
      = x (ix3 (⟨min (idx (ix2 n (0 : Fin 2))).toInt.toNat 15, by omega⟩ : Fin 16)
            (⟨min (idx (ix2 n (1 : Fin 2))).toInt.toNat 65535, by omega⟩ : Fin 65536) s) := by
  unfold Host.gather
  congr 1
  funext a
  refine Fin.ext ?_
  match a with
  | ⟨0, _⟩ =>
    show (gd).start (ix2 n s) idx 0 + (gd).batchCoord (ix2 n s) 0 + (gd).offCoord (ix2 n s) 0 = _
    rw [GatherDims.batchCoord_eq_zero _ _ _ List.not_mem_nil,
      GatherDims.offCoord_eq_zero _ _ _ (fun h => ((GatherDims.mem_sKept _ _).mp h).1 (by decide : _ ∈ ([0, 1] : List (Fin 3))))]
    simp only [Nat.add_zero]
    unfold GatherDims.start
    rw [dif_pos (show (0 : Fin 3) ∈ (gd).startIndexMap from (by decide : (0 : Fin 3) ∈ ([0, 1] : List (Fin 3)))), gd_si0]
    rfl
  | ⟨1, _⟩ =>
    show (gd).start (ix2 n s) idx 1 + (gd).batchCoord (ix2 n s) 1 + (gd).offCoord (ix2 n s) 1 = _
    rw [GatherDims.batchCoord_eq_zero _ _ _ List.not_mem_nil,
      GatherDims.offCoord_eq_zero _ _ _ (fun h => ((GatherDims.mem_sKept _ _).mp h).1 (by decide : _ ∈ ([0, 1] : List (Fin 3))))]
    simp only [Nat.add_zero]
    unfold GatherDims.start
    rw [dif_pos (show (1 : Fin 3) ∈ (gd).startIndexMap from (by decide : (1 : Fin 3) ∈ ([0, 1] : List (Fin 3)))), gd_si1]
    rfl
  | ⟨2, _⟩ =>
    show (gd).start (ix2 n s) idx 2 + (gd).batchCoord (ix2 n s) 2 + (gd).offCoord (ix2 n s) 2 = s.val
    rw [GatherDims.batchCoord_eq_zero _ _ _ List.not_mem_nil]
    unfold GatherDims.start
    rw [dif_neg (show (2 : Fin 3) ∉ (gd).startIndexMap from (by decide : (2 : Fin 3) ∉ ([0, 1] : List (Fin 3))))]
    simp only [Nat.add_zero, Nat.zero_add]
    unfold GatherDims.offCoord
    rw [dif_pos ((GatherDims.mem_sKept _ _).mpr ⟨(by decide : (2 : Fin 3) ∉ ([0, 1] : List (Fin 3))), List.not_mem_nil⟩)]
    rfl

private theorem dd_lhs_0 (j : S16x65536x6.Idx) (q : (dd).contr.Idx) : ((dd).lhsIdx j q 0).val = (j 0).val := rfl
private theorem dd_lhs_1 (j : S16x65536x6.Idx) (q : (dd).contr.Idx) : ((dd).lhsIdx j q 1).val = (j 1).val := rfl
private theorem dd_lhs_2 (j : S16x65536x6.Idx) (q : (dd).contr.Idx) :
    ((dd).lhsIdx j q 2).val = (q ⟨0, show 0 < 1 from Nat.one_pos⟩).val := rfl
private theorem dd_rhs_0 (j : S16x65536x6.Idx) (q : (dd).contr.Idx) : ((dd).rhsIdx j q 0).val = (j 0).val := rfl
private theorem dd_rhs_1 (j : S16x65536x6.Idx) (q : (dd).contr.Idx) :
    ((dd).rhsIdx j q 1).val = (q ⟨0, show 0 < 1 from Nat.one_pos⟩).val := rfl
private theorem dd_rhs_2 (j : S16x65536x6.Idx) (q : (dd).contr.Idx) : ((dd).rhsIdx j q 2).val = (j 2).val := rfl

/-- The batched product at (c, n, s): the sum over the 128 channels of block c. -/
private theorem dot_at (l : FVec Ideal S16x65536x128 .f32) (r : FVec Ideal S16x128x6 .f32) (c : Fin 16) (n : Fin 65536)
    (s : Fin 6) :
    Host.dotGeneral (F := Ideal) dd none l r (ix3 c n s) = ∑ d : Fin 128, l (ix3 c n d) * r (ix3 c d s) := by
  show FloatOps.dotGeneral dd none .single l r (ix3 c n s) = _
  rw [Ideal.dotGeneral_apply, ← Equiv.sum_comp (contrEquiv1 dd 128 rfl rfl).symm]
  refine Finset.sum_congr rfl fun k _ => ?_
  have hk := contrEquiv1_symm_val dd 128 rfl rfl k
  have hl : (dd).lhsIdx (ix3 c n s) ((contrEquiv1 dd 128 rfl rfl).symm k) = ix3 c n k := by
    funext a; refine Fin.ext ?_
    match a with
    | ⟨0, _⟩ => exact dd_lhs_0 _ _
    | ⟨1, _⟩ => exact dd_lhs_1 _ _
    | ⟨2, _⟩ => exact (dd_lhs_2 _ _).trans hk
  have hr : (dd).rhsIdx (ix3 c n s) ((contrEquiv1 dd 128 rfl rfl).symm k) = ix3 c k s := by
    funext a; refine Fin.ext ?_
    match a with
    | ⟨0, _⟩ => exact dd_rhs_0 _ _
    | ⟨1, _⟩ => exact (dd_rhs_1 _ _).trans hk
    | ⟨2, _⟩ => exact dd_rhs_2 _ _
  rw [hl, hr]

/-- The activations regrouped and with the block axis in front: entry (c, n, d) is channel c·128 + d of row n. -/
private theorem regroup_at {α : Type} (ha : S65536x2048.Idx → α) (c : Fin 16) (n : Fin 65536) (d : Fin 128) :
    transpose S16x65536x128 [1, 0, 2] (shapeCast S65536x16x128 ha shapeCasts_S65536x2048_S65536x16x128)
        transposes_S65536x16x128_S16x65536x128_1_0_2 (ix3 c n d)
      = ha (ix2 n (Cert.Spec.chan c d)) := by
  rw [transpose_apply _ _ _ (ix3 c n d) (ix3 n c d) (by
    intro b
    match b with
    | ⟨0, _⟩ => rfl
    | ⟨1, _⟩ => rfl
    | ⟨2, _⟩ => rfl)]
  refine shapeCast_apply ha _ (ix3 n c d) (ix2 n (Cert.Spec.chan c d)) ?_
  rw [Shape.rowMajor_val_two, Shape.rowMajor_val_three]
  show n.val * 2048 + (c.val * 128 + d.val) = (n.val * 16 + c.val) * 128 + d.val
  omega

/-- The bias as a [16, 65536, 6] array: entry (c, n, s) is entry s. -/
private theorem bias_at {α : Type} (bias : S6.Idx → α) (c : Fin 16) (n : Fin 65536) (s : Fin 6) :
    broadcastInDim S16x65536x6 ![0, 1, 2] bcast_S1x1x6_S16x65536x6_0_1_2
        (broadcastInDim S1x1x6 ![2] bcast_S6_S1x1x6_2 bias) (ix3 c n s) = bias (ix1 s) := by
  rw [broadcastInDim_apply _ _ _ (ix3 c n s) (ix3 (0 : Fin 1) (0 : Fin 1) s) (by
    intro a
    match a with
    | ⟨0, _⟩ => rfl
    | ⟨1, _⟩ => rfl
    | ⟨2, _⟩ => rfl)]
  refine broadcastInDim_apply _ _ bias _ (ix1 s) ?_
  intro a
  match a with
  | ⟨0, _⟩ => rfl

/-! ## Words -/

/-- A word below 2^31 is not negative as a signed word, so "add c when negative" leaves it. -/
private theorem wrap_id (w c : BitVec 32) (h : w.toNat < 2147483648) :
    Scalar.select (IntOp.cmpi .slt w 0#32) (IntOp.addi w c) w = w := by
  have h0 : IntOp.cmpi .slt w 0#32 = 0#1 := by
    unfold IntOp.cmpi
    simp only [BitVec.slt, BitVec.toInt_zero]
    have : ¬ w.toInt < 0 := by
      rw [BitVec.toInt_eq_toNat_of_lt (by omega)]; omega
    simp [this]
  rw [h0, select_zero]

/-- Such a word read signed is its value. -/
private theorem toInt_toNat_small (w : BitVec 32) (h : w.toNat < 2147483648) : w.toInt.toNat = w.toNat := by
  rw [BitVec.toInt_eq_toNat_of_lt (by omega)]; simp

/-- The sixteen candidate logit rows of every row of the batch: block c of the regrouped activations times classifier
    c, plus the bias. -/
private def scores (ha : Vec Ideal S65536x2048 .f32) (w2 : Vec Ideal S16x128x6 .f32) (bias : Vec Ideal S6 .f32) :
    Vec Ideal S16x65536x6 .f32 :=
  addf (F := Ideal) (φ := .f32)
    (Host.dotGeneral (F := Ideal) (φ₁ := .f32) (φ₂ := .f32) dd none
      (transpose S16x65536x128 [1, 0, 2] (shapeCast S65536x16x128 ha shapeCasts_S65536x2048_S65536x16x128)
        transposes_S65536x16x128_S16x65536x128_1_0_2) w2)
    (broadcastInDim S16x65536x6 ![0, 1, 2] bcast_S1x1x6_S16x65536x6_0_1_2
      (broadcastInDim S1x1x6 ![2] bcast_S6_S1x1x6_2 bias))

/-- The two start words of every row: the label and the row number, each with its extent added when negative. -/
private def idxCols (cat : Vec Ideal S65536 .i32) : Vec Ideal S65536x2 .i32 :=
  concatenate S65536x2 1
    [⟨S65536x1, broadcastInDim S65536x1 ![0] bcast_S65536_S65536x1_0
        (select (cmpi .slt cat (broadcastInDim S65536 ![] bcast_S_S65536 (constantI S_ 32 0#32)))
          (addi cat (broadcastInDim S65536 ![] bcast_S_S65536 (constantI S_ 32 16#32))) cat)⟩,
     ⟨S65536x1, broadcastInDim S65536x1 ![0] bcast_S65536_S65536x1_0
        (select (cmpi .slt (iotaInDim S65536 32 0) (broadcastInDim S65536 ![] bcast_S_S65536 (constantI S_ 32 0#32)))
          (addi (iotaInDim S65536 32 0) (broadcastInDim S65536 ![] bcast_S_S65536 (constantI S_ 32 65536#32)))
          (iotaInDim S65536 32 0))⟩]
    concatenates_S65536x1_S65536x1_S65536x2_d1

private theorem logits_eq (ha : Vec Ideal S65536x2048 .f32) (w2 : Vec Ideal S16x128x6 .f32) (bias : Vec Ideal S6 .f32)
    (cat : Vec Ideal S65536 .i32) :
    logits ha w2 bias cat = Host.gather gd (scores ha w2 bias) (idxCols cat) := rfl

/-- A label in 0..15 is its own first start word. -/
private theorem idxCols_0 (cat : Vec Ideal S65536 .i32) (n : Fin 65536) (hcat : (cat (ix1 n)).toNat < 16) :
    idxCols cat (ix2 n (0 : Fin 2)) = cat (ix1 n) := by
  unfold idxCols
  rw [pair_left, bcast_col]
  show Scalar.select (IntOp.cmpi .slt (cat (ix1 n)) 0#32) (IntOp.addi (cat (ix1 n)) 16#32) (cat (ix1 n)) = _
  exact wrap_id _ _ (by omega)

/-- The second start word of row n is n. -/
private theorem idxCols_1 (cat : Vec Ideal S65536 .i32) (n : Fin 65536) :
    idxCols cat (ix2 n (1 : Fin 2)) = BitVec.ofNat 32 n.val := by
  unfold idxCols
  rw [pair_right, bcast_col]
  show Scalar.select (IntOp.cmpi .slt (BitVec.ofNat 32 n.val) 0#32) (IntOp.addi (BitVec.ofNat 32 n.val) 65536#32)
    (BitVec.ofNat 32 n.val) = _
  refine wrap_id _ _ ?_
  rw [BitVec.toNat_ofNat]
  have := n.isLt
  omega

/-- Candidate row c of batch row n holds the six logits of that row for category c: the sum over the block's 128
    channels of activation times weight, plus the bias. -/
private theorem scores_at (ha : Vec Ideal S65536x2048 .f32) (w2 : Vec Ideal S16x128x6 .f32) (bias : Vec Ideal S6 .f32)
    (c : Fin 16) (n : Fin 65536) (s : Fin 6) :
    scores ha w2 bias (ix3 c n s)
      = Cert.Spec.logit (fun j => ha (ix2 n j)) (fun c d t => w2 (ix3 c d t)) (fun t => bias (ix1 t)) c s := by
  unfold scores
  rw [addf_apply, dot_at, bias_at]
  unfold Cert.Spec.logit
  congr 1
  exact Finset.sum_congr rfl fun d _ => by rw [regroup_at]

theorem logits_apply (ha : Vec Ideal S65536x2048 .f32) (w2 : Vec Ideal S16x128x6 .f32) (bias : Vec Ideal S6 .f32)
    (cat : Vec Ideal S65536 .i32) (n : Fin 65536) (s : Fin 6) (hcat : (cat (ix1 n)).toNat < 16) :
    logits ha w2 bias cat (ix2 n s)
      = Cert.Spec.logit (fun j => ha (ix2 n j)) (fun c d t => w2 (ix3 c d t)) (fun t => bias (ix1 t))
          (Cert.Spec.ci (cat (ix1 n))) s := by
  rw [logits_eq, gather_at, ← scores_at]
  congr 1
  funext a
  refine Fin.ext ?_
  match a with
  | ⟨0, _⟩ =>
    show min (idxCols cat (ix2 n (0 : Fin 2))).toInt.toNat 15 = (cat (ix1 n)).toNat % 16
    rw [idxCols_0 cat n hcat, toInt_toNat_small _ (by omega)]
    omega
  | ⟨1, _⟩ =>
    show min (idxCols cat (ix2 n (1 : Fin 2))).toInt.toNat 65535 = n.val
    have hn : (BitVec.ofNat 32 n.val).toNat = n.val := by
      rw [BitVec.toNat_ofNat]; have := n.isLt; omega
    rw [idxCols_1 cat n, toInt_toNat_small _ (by have := n.isLt; omega), hn]
    have := n.isLt
    omega
  | ⟨2, _⟩ => rfl

end Cert.ReferenceIdeal.Stage

end
-- ==== Proof.LibElemScatter.lean ====
/-
  An element scatter-add read at an index.

  The accumulating scatter of an [E, K] array of scalar updates into an [N, C] operand by a PAIR of destination words
  per update (indices [E, K, 2]: a row word and a column word): operand element (n, c) gains the sum of the updates
  (p, s) whose row word, read signed and NOT clamped, is n and whose column word, read the same way, is c; an update
  with either word outside the operand is dropped.
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of an element scatter: operand [N, C], scatter indices [E, K, 2], updates [E, K]; both operand
    axes are inserted axes named by the index map, and the index pair lies on the indices' last axis. -/
abbrev elemScatter (N E K C : Nat) (wf : ScatterDims.WF ⟨2, ![N, C]⟩ ⟨3, ![E, K, 2]⟩ ⟨2, ![E, K]⟩ [] [0, 1] [0, 1] 2) : ScatterDims ⟨2, ![N, C]⟩ ⟨3, ![E, K, 2]⟩ ⟨2, ![E, K]⟩ where
  updateWindowDims := []
  insertedWindowDims := [0, 1]
  scatterDimsToOperandDims := [0, 1]
  indexVectorDim := 2
  wf := wf

/-- On the row axis an element scatter's landing coordinate (start plus window) of update (p, s) is its row word read
    signed: the axis is first in the index map and is an inserted axis (window coordinate 0). -/
theorem elemScatter_land0 {N E K C w : Nat}
    (wf : ScatterDims.WF ⟨2, ![N, C]⟩ ⟨3, ![E, K, 2]⟩ ⟨2, ![E, K]⟩ [] [0, 1] [0, 1] 2)
    (idx : IVec ⟨3, ![E, K, 2]⟩ w) (p : Fin E) (s : Fin K) :
    (elemScatter N E K C wf).start (ix2 p s) idx 0 + ((elemScatter N E K C wf).window (ix2 p s) 0 : ℤ)
      = (idx (ix3 p s (0 : Fin 2))).toInt := by
  have hw : (elemScatter N E K C wf).window (ix2 p s) 0 = 0 := by
    unfold ScatterDims.window
    rw [dif_neg (show (0 : Fin 2) ∉ Shape.kept (⟨2, ![N, C]⟩ : Shape) ([0, 1] : List (Fin 2)) by simp [Shape.kept])]
  rw [hw]
  unfold ScatterDims.start
  rw [dif_pos (show (0 : Fin 2) ∈ ([0, 1] : List (Fin 2)) by decide)]
  have hsi : (elemScatter N E K C wf).siIdx (ix2 p s) ⟨List.idxOf (0 : Fin 2) (elemScatter N E K C wf).scatterDimsToOperandDims,
      List.idxOf_lt_length_iff.2 (show (0 : Fin 2) ∈ ([0, 1] : List (Fin 2)) by decide)⟩ = ix3 p s (0 : Fin 2) := by
    funext b; refine Fin.ext ?_
    match b with
    | ⟨0, _⟩ => rfl
    | ⟨1, _⟩ => rfl
    | ⟨2, _⟩ => rfl
  rw [hsi]
  simp

/-- On the column axis its landing coordinate is the update's column word read signed: the axis is second in the index
    map and is an inserted axis. -/
theorem elemScatter_land1 {N E K C w : Nat}
    (wf : ScatterDims.WF ⟨2, ![N, C]⟩ ⟨3, ![E, K, 2]⟩ ⟨2, ![E, K]⟩ [] [0, 1] [0, 1] 2)
    (idx : IVec ⟨3, ![E, K, 2]⟩ w) (p : Fin E) (s : Fin K) :
    (elemScatter N E K C wf).start (ix2 p s) idx 1 + ((elemScatter N E K C wf).window (ix2 p s) 1 : ℤ)
      = (idx (ix3 p s (1 : Fin 2))).toInt := by
  have hw : (elemScatter N E K C wf).window (ix2 p s) 1 = 0 := by
    unfold ScatterDims.window
    rw [dif_neg (show (1 : Fin 2) ∉ Shape.kept (⟨2, ![N, C]⟩ : Shape) ([0, 1] : List (Fin 2)) by simp [Shape.kept])]
  rw [hw]
  unfold ScatterDims.start
  rw [dif_pos (show (1 : Fin 2) ∈ ([0, 1] : List (Fin 2)) by decide)]
  have hsi : (elemScatter N E K C wf).siIdx (ix2 p s) ⟨List.idxOf (1 : Fin 2) (elemScatter N E K C wf).scatterDimsToOperandDims,
      List.idxOf_lt_length_iff.2 (show (1 : Fin 2) ∈ ([0, 1] : List (Fin 2)) by decide)⟩ = ix3 p s (1 : Fin 2) := by
    funext b; refine Fin.ext ?_
    match b with
    | ⟨0, _⟩ => rfl
    | ⟨1, _⟩ => rfl
    | ⟨2, _⟩ => rfl
  rw [hsi]
  simp

/-- Where an update of an element scatter lands: update (p, s) lands on operand element (n, c) exactly when its row
    word, read signed, is n and its column word, read signed, is c. -/
theorem elemScatter_resultIdx?_eq_some_iff {N E K C w : Nat}
    (wf : ScatterDims.WF ⟨2, ![N, C]⟩ ⟨3, ![E, K, 2]⟩ ⟨2, ![E, K]⟩ [] [0, 1] [0, 1] 2)
    (idx : IVec ⟨3, ![E, K, 2]⟩ w) (p : Fin E) (s : Fin K) (n : Fin N) (c : Fin C) :
    (elemScatter N E K C wf).resultIdx? (ix2 p s) idx = some (ix2 n c)
      ↔ ((idx (ix3 p s (0 : Fin 2))).toInt = (n.val : ℤ) ∧ (idx (ix3 p s (1 : Fin 2))).toInt = (c.val : ℤ)) := by
  have h0 := elemScatter_land0 wf idx p s
  have h1 := elemScatter_land1 wf idx p s
  unfold ScatterDims.resultIdx?
  split
  · rename_i h
    rw [Option.some.injEq]
    constructor
    · intro hf
      have e0 : ((elemScatter N E K C wf).start (ix2 p s) idx 0 + ((elemScatter N E K C wf).window (ix2 p s) 0 : ℤ)).toNat = n.val :=
        congrArg Fin.val (congrFun hf 0)
      have e1 : ((elemScatter N E K C wf).start (ix2 p s) idx 1 + ((elemScatter N E K C wf).window (ix2 p s) 1 : ℤ)).toNat = c.val :=
        congrArg Fin.val (congrFun hf 1)
      have p0 := (h 0).1
      have p1 := (h 1).1
      rw [h0] at e0 p0
      rw [h1] at e1 p1
      exact ⟨by omega, by omega⟩
    · rintro ⟨hn, hc⟩
      funext a
      refine Fin.ext ?_
      match a with
      | ⟨0, _⟩ =>
        show ((elemScatter N E K C wf).start (ix2 p s) idx 0 + ((elemScatter N E K C wf).window (ix2 p s) 0 : ℤ)).toNat = n.val
        rw [h0, hn]; simp
      | ⟨1, _⟩ =>
        show ((elemScatter N E K C wf).start (ix2 p s) idx 1 + ((elemScatter N E K C wf).window (ix2 p s) 1 : ℤ)).toNat = c.val
        rw [h1, hc]; simp
  · rename_i h
    constructor
    · intro hf; exact absurd hf (by simp)
    · rintro ⟨hn, hc⟩
      exfalso
      apply h
      intro a
      match a with
      | ⟨0, _⟩ =>
        show 0 ≤ (elemScatter N E K C wf).start (ix2 p s) idx 0 + ((elemScatter N E K C wf).window (ix2 p s) 0 : ℤ)
          ∧ (elemScatter N E K C wf).start (ix2 p s) idx 0 + ((elemScatter N E K C wf).window (ix2 p s) 0 : ℤ) < (N : ℤ)
        rw [h0, hn]
        have := n.isLt
        omega
      | ⟨1, _⟩ =>
        show 0 ≤ (elemScatter N E K C wf).start (ix2 p s) idx 1 + ((elemScatter N E K C wf).window (ix2 p s) 1 : ℤ)
          ∧ (elemScatter N E K C wf).start (ix2 p s) idx 1 + ((elemScatter N E K C wf).window (ix2 p s) 1 : ℤ) < (C : ℤ)
        rw [h1, hc]
        have := c.isLt
        omega

/-- THE ELEMENT SCATTER-ADD READ AT (n, c): the operand's element plus the sum, over every update (p, s), of the update
    when its row word read signed is n and its column word read signed is c, and of 0 otherwise. -/
theorem elemScatterAdd_apply {N E K C w : Nat} (wf : ScatterDims.WF ⟨2, ![N, C]⟩ ⟨3, ![E, K, 2]⟩ ⟨2, ![E, K]⟩ [] [0, 1] [0, 1] 2) (x : (⟨2, ![N, C]⟩ : Shape).Idx → EReal) (idx : IVec ⟨3, ![E, K, 2]⟩ w) (upd : (⟨2, ![E, K]⟩ : Shape).Idx → EReal) (n : Fin N) (c : Fin C) :
    Ideal.hostScatterAdd (elemScatter N E K C wf) x idx upd (ix2 n c) = x (ix2 n c) + ∑ p : Fin E, ∑ s : Fin K, if (idx (ix3 p s (0 : Fin 2))).toInt = (n.val : ℤ) ∧ (idx (ix3 p s (1 : Fin 2))).toInt = (c.val : ℤ) then upd (ix2 p s) else 0 := by
  unfold Ideal.hostScatterAdd
  congr 1
  rw [Finset.sum_filter, sum_idx2]
  refine Finset.sum_congr rfl fun p _ => Finset.sum_congr rfl fun s _ => ?_
  exact if_congr (elemScatter_resultIdx?_eq_some_iff wf idx p s n c) rfl rfl

end Idealize.ShloMosaic.RowOps

end
-- ==== Proof.RefScatter.lean ====
/-
  The reference's last stretch: six values per row placed into a row of 54.

  Each row n has a label c in 0..15. Two tables of sixteen words give the first column a(c) of the row's segment
  and its length l(c). Slot s of the row (s = 0..5) goes to column min 53 (max 0 (a(c) + s)) and counts only
  while s < l(c); the values that count are added into a zero [65536, 54] array at their (row, column) pairs.
  Read at (n, q) the result is the sum, over the six slots of row n alone, of the values whose column is q and
  whose slot is below l(c): every update of another row lands in that other row, and no update falls outside the
  array, every column lying in [0, 53]. All the integer steps act on small non-negative 32-bit words: the wraps of
  a negative index (against 16, 65536 and 54) leave them unchanged, the table reads are reads at the label itself,
  and the clamped column word is checked for each of the sixteen starts and six slots.
-/
import proofs.«405493_j33827162423889_2_alg».proof.ReferenceIdeal
import proofs.«405493_j33827162423889_2_alg».proof.Proof.Spec
import proofs.«405493_j33827162423889_2_alg».proof.Proof.LibElemScatter
import Idealize.ShloMosaic.Lib.ValueIdx
import Idealize.ShloMosaic.Lib.IdealHost
import Idealize.ShloMosaic.Lib.StableHlo.Predicate
import Idealize.ShloMosaic.Lib.Pipeline.Value
import Mathlib.Tactic.FinCases

noncomputable section

namespace Cert.ReferenceIdeal.Stage

open Cert.ReferenceIdeal Cert.ReferenceIdeal.Facts₀ Idealize.ShloMosaic Idealize.ShloMosaic.ValueIdx

variable [Cert.ReferenceIdeal.Facts]

open Idealize.ShloMosaic.RowOps (elemScatter elemScatterAdd_apply)

/-! ## The stretch, piece by piece

Each definition is the composition of the printed operations of its piece, nothing simplified. -/

/-- The two constant tables: the first output column of each category's segment, and the segment's length. -/
def tabStart : Vec Ideal S16 .i32 := fun i => lit0 (S16.rowMajor i)
def tabLen : Vec Ideal S16 .i32 := fun i => lit1 (S16.rowMajor i)

/-- A label wrapped against 16 (a negative label counts from the end), as the indexing of a table of 16 wraps it. -/
def wrap16 (cat : Vec Ideal S65536 .i32) : Vec Ideal S65536 .i32 :=
  select (cmpi .slt cat (broadcastInDim S65536 ![] bcast_S_S65536 (constantI S_ 32 0#32)))
    (addi cat (broadcastInDim S65536 ![] bcast_S_S65536 (constantI S_ 32 16#32))) cat

/-- A table of 16 read at every row's wrapped label. -/
def take16 (tab : Vec Ideal S16 .i32) (cat : Vec Ideal S65536 .i32) : Vec Ideal S65536 .i32 :=
  Host.gather gather_S16_S65536x1_S65536_n_0_n_n_0_1_1 tab
    (broadcastInDim S65536x1 ![0] bcast_S65536_S65536x1_0 (wrap16 cat))

/-- The slot number 0 … 5 along every row. -/
def slots : Vec Ideal S65536x6 .i32 :=
  broadcastInDim S65536x6 ![0, 1] bcast_S1x6_S65536x6_0_1
    (broadcastInDim S1x6 ![1] bcast_S6_S1x6_1 (iotaInDim S6 32 0))

/-- A per-row word along the six slots of its row. -/
def alongRow (v : Vec Ideal S65536 .i32) : Vec Ideal S65536x6 .i32 :=
  broadcastInDim S65536x6 ![0, 1] bcast_S65536x1_S65536x6_0_1
    (broadcastInDim S65536x1 ![0] bcast_S65536_S65536x1_0 v)

/-- Slot s of row n counts when s is below the length of the row's segment. -/
def valid (cat : Vec Ideal S65536 .i32) : Vec Ideal S65536x6 .i1 :=
  cmpi .slt slots (alongRow (take16 tabLen cat))

/-- The segment's start plus the slot number. -/
def rawCol (cat : Vec Ideal S65536 .i32) : Vec Ideal S65536x6 .i32 :=
  addi (alongRow (take16 tabStart cat)) slots

/-- The clamp to [0, 53]: the larger of 0 and the word, then the smaller of 53 and that. -/
def clip (v : Vec Ideal S65536x6 .i32) : Vec Ideal S65536x6 .i32 :=
  minsi (broadcastInDim S65536x6 ![] bcast_S_S65536x6 (id (constantI S_ 32 53#32)))
    (maxsi (broadcastInDim S65536x6 ![] bcast_S_S65536x6 (id (constantI S_ 32 0#32))) v)

/-- The values that count, zero elsewhere. -/
def vals (ls : Vec Ideal S65536x6 .f32) (cat : Vec Ideal S65536 .i32) : Vec Ideal S65536x6 .f32 :=
  select (valid cat) ls (broadcastInDim S65536x6 ![] bcast_S_S65536x6 (id (constant (F := Ideal) S_ .f32 0x00000000#32)))

/-- The zero array the values are added into. -/
def zeros : Vec Ideal S65536x54 .f32 :=
  broadcastInDim S65536x54 ![] bcast_S_S65536x54 (constant (F := Ideal) S_ .f32 0x00000000#32)

/-- The row numbers as a column, wrapped against 65536. -/
def rowIdx : Vec Ideal S65536x1 .i32 :=
  select
    (cmpi .slt (broadcastInDim S65536x1 ![0] bcast_S65536_S65536x1_0 (iotaInDim S65536 32 0))
      (broadcastInDim S65536x1 ![] bcast_S_S65536x1 (constantI S_ 32 0#32)))
    (addi (broadcastInDim S65536x1 ![0] bcast_S65536_S65536x1_0 (iotaInDim S65536 32 0))
      (broadcastInDim S65536x1 ![] bcast_S_S65536x1 (constantI S_ 32 65536#32)))
    (broadcastInDim S65536x1 ![0] bcast_S65536_S65536x1_0 (iotaInDim S65536 32 0))

/-- The clamped columns, wrapped against 54. -/
def colIdx (cat : Vec Ideal S65536 .i32) : Vec Ideal S65536x6 .i32 :=
  select (cmpi .slt (clip (rawCol cat)) (broadcastInDim S65536x6 ![] bcast_S_S65536x6 (constantI S_ 32 0#32)))
    (addi (clip (rawCol cat)) (broadcastInDim S65536x6 ![] bcast_S_S65536x6 (constantI S_ 32 54#32)))
    (clip (rawCol cat))

/-- The (row, column) pair of every value: an array [65536, 6, 2]. -/
def pairs (cat : Vec Ideal S65536 .i32) : Vec Ideal S65536x6x2 .i32 :=
  concatenate S65536x6x2 2
    [⟨S65536x6x1, broadcastInDim S65536x6x1 ![0, 1] bcast_S65536x6_S65536x6x1_0_1
        (broadcastInDim S65536x6 ![0, 1] bcast_S65536x1_S65536x6_0_1 rowIdx)⟩,
     ⟨S65536x6x1, broadcastInDim S65536x6x1 ![0, 1] bcast_S65536x6_S65536x6x1_0_1 (colIdx cat)⟩]
    concatenates_S65536x6x1_S65536x6x1_S65536x6x2_d2

/-- The placement stretch of the reference as one function of the log-softmax rows and the labels: the masked
    values added into a zero [65536, 54] array at their (row, column) pairs. -/
def out (ls : Vec Ideal S65536x6 .f32) (cat : Vec Ideal S65536 .i32) : Vec Ideal S65536x54 .f32 :=
  Host.scatterAdd (F := Ideal) (φ := .f32) scatter_S65536x54_S65536x6x2_S65536x6_n_01_01_2 zeros (pairs cat) (vals ls cat)

open Idealize.ShloMosaic.StableHlo.Predicate in
/-- A word that is not negative passes the wrap unchanged. -/
theorem wrapSel (w z k : BitVec 32) (hz : z = 0#32) (hw : w.toNat < 2 ^ 31) :
    Scalar.select (IntOp.cmpi .slt w z) (IntOp.addi w k) w = w := by
  subst hz
  have hne : ¬ IntOp.cmpi .slt w 0#32 = 1#1 := fun h => by
    have := (slt_iff_toNat hw (by decide)).mp h
    simp at this
  exact if_neg hne

/-! ## The broadcasts read at an index -/

theorem col_apply {α : Type} (v : S65536.Idx → α) (n : Fin 65536) :
    broadcastInDim S65536x1 ![0] bcast_S65536_S65536x1_0 v (ix2 n (0 : Fin 1)) = v (ix1 n) := by
  refine broadcastInDim_apply _ _ _ _ (ix1 n) (fun a => ?_)
  match a with
  | ⟨0, _⟩ => rfl

theorem alongRow_apply (v : Vec Ideal S65536 .i32) (n : Fin 65536) (s : Fin 6) :
    alongRow v (ix2 n s) = v (ix1 n) := by
  unfold alongRow
  refine (broadcastInDim_apply _ _ _ _ (ix2 n (0 : Fin 1)) (fun a => ?_)).trans (col_apply v n)
  match a with
  | ⟨0, _⟩ => rfl
  | ⟨1, _⟩ => rfl

theorem slots_apply (n : Fin 65536) (s : Fin 6) : slots (ix2 n s) = BitVec.ofNat 32 s.val := by
  unfold slots
  refine (broadcastInDim_apply _ _ _ _ (ix2 (0 : Fin 1) s) (fun a => ?_)).trans ?_
  · match a with
    | ⟨0, _⟩ => rfl
    | ⟨1, _⟩ => rfl
  refine (broadcastInDim_apply _ _ _ _ (ix1 s) (fun a => ?_)).trans ?_
  · match a with
    | ⟨0, _⟩ => rfl
  rfl

/-! ## The tables and the label -/

theorem tabStart_apply (c : Fin 16) : tabStart (ix1 c) = BitVec.ofNat 32 (Cert.Spec.shiftTab c) := by
  fin_cases c <;> rfl

theorem tabLen_apply (c : Fin 16) : tabLen (ix1 c) = BitVec.ofNat 32 (Cert.Spec.segTab c) := by
  fin_cases c <;> rfl

theorem wrap16_apply (cat : Vec Ideal S65536 .i32) (n : Fin 65536) (h : (cat (ix1 n)).toNat < 16) :
    wrap16 cat (ix1 n) = cat (ix1 n) := by
  unfold wrap16
  exact wrapSel _ _ _ rfl (by omega)

/-- Under the precondition the category of a label word is the word's value. -/
theorem ci_eq (w : BitVec 32) (h : w.toNat < 16) : Cert.Spec.ci w = ⟨w.toNat, h⟩ :=
  Fin.ext (Nat.mod_eq_of_lt h)

open Idealize.ShloMosaic.StableHlo.Predicate in
/-- A table of 16 read at a row's label is the table at the label's category. -/
theorem take16_apply (tab : Vec Ideal S16 .i32) (cat : Vec Ideal S65536 .i32) (n : Fin 65536)
    (h : (cat (ix1 n)).toNat < 16) :
    take16 tab cat (ix1 n) = tab (ix1 (Cert.Spec.ci (cat (ix1 n)))) := by
  have hof : ∀ {m : Nat} (p : Fin m), Shape.Idx.ofFin p = ix1 p := fun p => by
    funext a
    match a with
    | ⟨0, _⟩ => rfl
  have hP : ixP n = ix2 n (0 : Fin 1) := by
    funext a
    match a with
    | ⟨0, _⟩ => rfl
    | ⟨1, _⟩ => rfl
  have hg := gather_take gather_S16_S65536x1_S65536_n_0_n_n_0_1_1 rfl rfl rfl rfl tab
    (broadcastInDim S65536x1 ![0] bcast_S65536_S65536x1_0 (wrap16 cat)) n (by decide)
  unfold take16
  refine ((congrArg _ (hof n).symm).trans hg).trans ?_
  rw [hof]
  refine congrArg tab (congrArg ix1 (Fin.ext ?_))
  show min (broadcastInDim S65536x1 ![0] bcast_S65536_S65536x1_0 (wrap16 cat) (ixP n)).toInt.toNat (16 - 1)
    = (Cert.Spec.ci (cat (ix1 n))).val
  rw [hP, col_apply, wrap16_apply cat n h, ci_eq _ h, toInt_eq_toNat_of_lt (by omega)]
  simp only [Int.toNat_natCast]
  omega

/-! ## The row numbers, the columns, the mask -/

theorem rowIdx_apply (n : Fin 65536) : rowIdx (ix2 n (0 : Fin 1)) = BitVec.ofNat 32 n.val := by
  unfold rowIdx
  have h0 : broadcastInDim S65536x1 ![0] bcast_S65536_S65536x1_0 (iotaInDim S65536 32 0) (ix2 n (0 : Fin 1))
      = BitVec.ofNat 32 n.val := col_apply _ n
  refine (wrapSel _ _ _ rfl ?_).trans h0
  rw [h0, BitVec.toNat_ofNat]
  have := n.isLt
  omega

/-- The column word of one slot as a function of the segment's start and the slot number: the sum clamped to
    [0, 53], then wrapped against 54. -/
def colWord (a t : BitVec 32) : BitVec 32 :=
  Scalar.select (IntOp.cmpi .slt (IntOp.minsi 53#32 (IntOp.maxsi 0#32 (IntOp.addi a t))) 0#32)
    (IntOp.addi (IntOp.minsi 53#32 (IntOp.maxsi 0#32 (IntOp.addi a t))) 54#32)
    (IntOp.minsi 53#32 (IntOp.maxsi 0#32 (IntOp.addi a t)))

theorem colIdx_eq (cat : Vec Ideal S65536 .i32) (j : S65536x6.Idx) :
    colIdx cat j = colWord (alongRow (take16 tabStart cat) j) (slots j) := rfl

/-- The sixteen starts and six slots, one by one: the column word is the capped sum. -/
theorem colWord_tab (c : Fin 16) (s : Fin 6) :
    colWord (BitVec.ofNat 32 (Cert.Spec.shiftTab c)) (BitVec.ofNat 32 s.val) = BitVec.ofNat 32 (Cert.Spec.col c s) := by
  fin_cases c <;> fin_cases s <;> rfl

theorem colIdx_apply (cat : Vec Ideal S65536 .i32) (n : Fin 65536) (s : Fin 6) (h : (cat (ix1 n)).toNat < 16) :
    colIdx cat (ix2 n s) = BitVec.ofNat 32 (Cert.Spec.col (Cert.Spec.ci (cat (ix1 n))) s) := by
  rw [colIdx_eq, alongRow_apply, slots_apply, take16_apply _ _ _ h, tabStart_apply, colWord_tab]

theorem valid_eq (cat : Vec Ideal S65536 .i32) (j : S65536x6.Idx) :
    valid cat j = IntOp.cmpi .slt (slots j) (alongRow (take16 tabLen cat) j) := rfl

open Idealize.ShloMosaic.StableHlo.Predicate in
theorem valid_apply (cat : Vec Ideal S65536 .i32) (n : Fin 65536) (s : Fin 6) (h : (cat (ix1 n)).toNat < 16) :
    valid cat (ix2 n s) = 1#1 ↔ s.val < Cert.Spec.segTab (Cert.Spec.ci (cat (ix1 n))) := by
  rw [valid_eq, alongRow_apply, slots_apply, take16_apply _ _ _ h, tabLen_apply]
  have hs := s.isLt
  have hseg : Cert.Spec.segTab (Cert.Spec.ci (cat (ix1 n))) < 7 := by
    generalize Cert.Spec.ci (cat (ix1 n)) = c
    fin_cases c <;> decide
  unfold IntOp.cmpi
  exact slt_ofNat_iff _ _ (by omega) (by omega)

theorem vals_eq (ls : Vec Ideal S65536x6 .f32) (cat : Vec Ideal S65536 .i32) (j : S65536x6.Idx) :
    vals ls cat j = if valid cat j = 1#1 then ls j else (0 : EReal) := by
  show Scalar.select (valid cat j) (ls j) (Ideal.ofBits .f32 0x00000000#32) = _
  rw [Ideal.ofBits_zero_f32]
  rfl

/-! ## The (row, column) pairs -/

theorem unit3_apply {α : Type} (v : S65536x6.Idx → α) (n : Fin 65536) (s : Fin 6) :
    broadcastInDim S65536x6x1 ![0, 1] bcast_S65536x6_S65536x6x1_0_1 v (ix3 n s (0 : Fin 1)) = v (ix2 n s) := by
  refine broadcastInDim_apply _ _ _ _ (ix2 n s) (fun a => ?_)
  match a with
  | ⟨0, _⟩ => rfl
  | ⟨1, _⟩ => rfl

theorem pairs_row (cat : Vec Ideal S65536 .i32) (n : Fin 65536) (s : Fin 6) :
    pairs cat (ix3 n s (0 : Fin 2)) = BitVec.ofNat 32 n.val := by
  unfold pairs
  refine (concatenate_pair_apply_left (t := S65536x6x2) (s₁ := S65536x6x1) (s₂ := S65536x6x1) 2 _ _ _
    (ix3 n s (0 : Fin 2)) rfl (ix3 n s (0 : Fin 1)) (fun b => ?_)).trans ?_
  · match b with
    | ⟨0, _⟩ => rfl
    | ⟨1, _⟩ => rfl
    | ⟨2, _⟩ => rfl
  rw [unit3_apply]
  refine (broadcastInDim_apply _ _ _ _ (ix2 n (0 : Fin 1)) (fun a => ?_)).trans (rowIdx_apply n)
  match a with
  | ⟨0, _⟩ => rfl
  | ⟨1, _⟩ => rfl

theorem pairs_col (cat : Vec Ideal S65536 .i32) (n : Fin 65536) (s : Fin 6) (h : (cat (ix1 n)).toNat < 16) :
    pairs cat (ix3 n s (1 : Fin 2)) = BitVec.ofNat 32 (Cert.Spec.col (Cert.Spec.ci (cat (ix1 n))) s) := by
  unfold pairs
  refine (concatenate_pair_apply_right (t := S65536x6x2) (s₁ := S65536x6x1) (s₂ := S65536x6x1) 2 _ _ _
    (ix3 n s (1 : Fin 2)) rfl rfl (ix3 n s (0 : Fin 1)) (fun b hb => ?_) rfl).trans ?_
  · match b with
    | ⟨0, _⟩ => rfl
    | ⟨1, _⟩ => rfl
    | ⟨2, _⟩ => exact absurd (Fin.ext rfl) hb
  rw [unit3_apply, colIdx_apply _ _ _ h]

/-! ## The placement read at an index -/

theorem col_lt (c : Fin 16) (s : Fin 6) : Cert.Spec.col c s < 54 := by
  unfold Cert.Spec.col
  omega

open Idealize.ShloMosaic.StableHlo.Predicate in
/-- Row n, column q of the result: the sum over the six slots of the row of the values whose column is q and whose
    slot is below the segment's length. An update of another row lands in that row, so it adds nothing here; no
    update is dropped, every column being in [0, 53]. -/
theorem out_apply (ls : Vec Ideal S65536x6 .f32) (cat : Vec Ideal S65536 .i32) (n : Fin 65536) (q : Fin 54)
    (hcat : ∀ n', (cat (ix1 n')).toNat < 16) :
    out ls cat (ix2 n q) = Cert.Spec.place (fun s => ls (ix2 n s)) (Cert.Spec.ci (cat (ix1 n))) q := by
  have hsc : out ls cat (ix2 n q)
      = Ideal.hostScatterAdd (elemScatter 65536 65536 6 54 scatter_S65536x54_S65536x6x2_S65536x6_n_01_01_2_wf)
          zeros (pairs cat) (vals ls cat) (ix2 n q) := rfl
  rw [hsc, elemScatterAdd_apply, show zeros (ix2 n q) = (0 : EReal) from Ideal.ofBits_zero_f32, zero_add]
  rw [Finset.sum_eq_single n]
  · unfold Cert.Spec.place
    refine Finset.sum_congr rfl (fun s _ => ?_)
    rw [pairs_row, pairs_col _ _ _ (hcat n), toInt_ofNat_small _ (by have := n.isLt; omega),
      toInt_ofNat_small _ (by have := col_lt (Cert.Spec.ci (cat (ix1 n))) s; omega), vals_eq]
    have hv := valid_apply cat n s (hcat n)
    by_cases h1 : q.val = Cert.Spec.col (Cert.Spec.ci (cat (ix1 n))) s
    · by_cases h2 : s.val < Cert.Spec.segTab (Cert.Spec.ci (cat (ix1 n)))
      · rw [if_pos ⟨rfl, by exact_mod_cast h1.symm⟩, if_pos (hv.mpr h2), if_pos ⟨h1, h2⟩]
      · rw [if_pos ⟨rfl, by exact_mod_cast h1.symm⟩, if_neg (fun h => h2 (hv.mp h)), if_neg (fun h => h2 h.2)]
    · rw [if_neg (fun h => h1 (by exact_mod_cast h.2.symm)), if_neg (fun h => h1 h.1)]
  · intro p _ hp
    refine Finset.sum_eq_zero (fun s _ => ?_)
    rw [pairs_row, toInt_ofNat_small _ (by have := p.isLt; omega)]
    exact if_neg (fun h => hp (Fin.ext (by exact_mod_cast h.1)))
  · intro h
    exact absurd (Finset.mem_univ n) h

end Cert.ReferenceIdeal.Stage

end
-- ==== Proof.RefRun.lean ====
/-
  The reference program's run. Its @main is a straight line of host operations: its own statements and, at each
  call of an outlined function, the callee's statements over that call's buffers (the variance's inner
  select-by-predicate included, a call inside a call). Listed in order they are one sequence; every weakly fair
  execution of it terminates, and at the end each buffer holds the fold of the listed operations over the
  launch contents, the seven arguments untouched.
-/
import proofs.«405493_j33827162423889_2_alg».proof.Proof.Gen.ReferenceIdeal
import Idealize.ShloMosaic.Lib.StableHlo.Run
import proofs.«405493_j33827162423889_2_alg».proof.Proof.RefHact
import proofs.«405493_j33827162423889_2_alg».proof.Proof.RefLogits
import proofs.«405493_j33827162423889_2_alg».proof.Proof.RefScatter

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The operations

@main's 157 host operations in order, each call replaced by its callee's statements over the call's own buffers. They are
listed in five stretches, cut where one stretch hands the next a few arrays. -/

/-- The first 54: the two literal tables and the first matrix product; the column sums and the mean; the variance
    (twenty statements and, nested in it, the three of its guard against a non-positive divisor); the normalisation,
    scale, shift and the leaky rectifier, whose select is a call of one statement. The stretch ends at the activations. -/
abbrev opsA : List (HloOp τ sig (Elt F)) :=
  [
    nullary main_c (fun i => lit0 (S16.rowMajor i)),
    nullary main_c_0 (fun i => lit1 (S16.rowMajor i)),
    binary main_arg0 main_arg1 main_v0 ((fun l r => Host.dotGeneral dot_S65536x128_S128x2048_S65536x2048_1_0_0_1_n_n none l r) : (⟨S65536x128, .f32⟩ : BufTy).Contents (Elt F) → (⟨S128x2048, .f32⟩ : BufTy).Contents (Elt F) → (⟨S65536x2048, .f32⟩ : BufTy).Contents (Elt F)),
    nullary main_cst (constant S_ .f32 0x00000000#32),
    binary main_v0 main_cst main_v1 ((fun x v => Host.reduceAdd x v reducesTo_S65536x2048_S2048_d0 h_S_) : (⟨S65536x2048, .f32⟩ : BufTy).Contents (Elt F) → (⟨S_, .f32⟩ : BufTy).Contents (Elt F) → (⟨S2048, .f32⟩ : BufTy).Contents (Elt F)),
    nullary main_cst_1 (constant S_ .f32 0x47800000#32),
    unary main_cst_1 main_v2 (broadcastInDim S2048 ![] bcast_S_S2048 : (⟨S_, .f32⟩ : BufTy).Contents (Elt F) → (⟨S2048, .f32⟩ : BufTy).Contents (Elt F)),
    binary main_v1 main_v2 main_v3 (Host.divf : (⟨S2048, .f32⟩ : BufTy).Contents (Elt F) → (⟨S2048, .f32⟩ : BufTy).Contents (Elt F) → (⟨S2048, .f32⟩ : BufTy).Contents (Elt F)),
    nullary main_c_2 (constantI S_ 32 0#32),
    TRef.nullary main_call0.cst (constant S_ .f32 0x00000000#32),
    TRef.binary (.of main_v0 : TRef sig ⟨S65536x2048, .f32⟩) main_call0.cst main_call0.v0 (fun x v => Host.reduceAdd x v reducesTo_S65536x2048_S2048_d0 h_S_),
    TRef.unary main_call0.v0 main_call0.v1 (broadcastInDim S1x2048 ![1] bcast_S2048_S1x2048_1),
    TRef.nullary main_call0.cst_0 (constant S_ .f32 0x47800000#32),
    TRef.unary main_call0.cst_0 main_call0.v2 (broadcastInDim S1x2048 ![] bcast_S_S1x2048),
    TRef.binary main_call0.v1 main_call0.v2 main_call0.v3 Host.divf,
    TRef.unary main_call0.v3 main_call0.v4 (broadcastInDim S65536x2048 ![0, 1] bcast_S1x2048_S65536x2048_0_1),
    TRef.binary (.of main_v0 : TRef sig ⟨S65536x2048, .f32⟩) main_call0.v4 main_call0.v5 subf,
    TRef.binary main_call0.v5 main_call0.v5 main_call0.v6 mulf,
    TRef.unary (.of main_c_2 : TRef sig ⟨S_, .i32⟩) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S65536x2048_S2048_d0 h_S_),
    TRef.unary main_call0.v8 main_call0.v10 (broadcastInDim S2048 ![] bcast_S_S2048),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S2048 ![] bcast_S_S2048),
    TRef.ternary main_call0.v12 main_call0.v11 main_call0.call0.v1 main_call0.call0.v2 (fun p a b => select (broadcastInDim S2048 ![] bcast_S_S2048 p) a b),
    unary main_v3 main_v5 (broadcastInDim S1x2048 ![1] bcast_S2048_S1x2048_1 : (⟨S2048, .f32⟩ : BufTy).Contents (Elt F) → (⟨S1x2048, .f32⟩ : BufTy).Contents (Elt F)),
    unary main_v5 main_v6 (broadcastInDim S65536x2048 ![0, 1] bcast_S1x2048_S65536x2048_0_1 : (⟨S1x2048, .f32⟩ : BufTy).Contents (Elt F) → (⟨S65536x2048, .f32⟩ : BufTy).Contents (Elt F)),
    binary main_v0 main_v6 main_v7 (subf : (⟨S65536x2048, .f32⟩ : BufTy).Contents (Elt F) → (⟨S65536x2048, .f32⟩ : BufTy).Contents (Elt F) → (⟨S65536x2048, .f32⟩ : BufTy).Contents (Elt F)),
    nullary main_cst_3 (constant S_ .f32 0x3727C5AC#32),
    unary main_cst_3 main_v8 (broadcastInDim S2048 ![] bcast_S_S2048 : (⟨S_, .f32⟩ : BufTy).Contents (Elt F) → (⟨S2048, .f32⟩ : BufTy).Contents (Elt F)),
    binary main_v4 main_v8 main_v9 (addf : (⟨S2048, .f32⟩ : BufTy).Contents (Elt F) → (⟨S2048, .f32⟩ : BufTy).Contents (Elt F) → (⟨S2048, .f32⟩ : BufTy).Contents (Elt F)),
    unary main_v9 main_v10 (Host.sqrt : (⟨S2048, .f32⟩ : BufTy).Contents (Elt F) → (⟨S2048, .f32⟩ : BufTy).Contents (Elt F)),
    unary main_v10 main_v11 (broadcastInDim S1x2048 ![1] bcast_S2048_S1x2048_1 : (⟨S2048, .f32⟩ : BufTy).Contents (Elt F) → (⟨S1x2048, .f32⟩ : BufTy).Contents (Elt F)),
    unary main_v11 main_v12 (broadcastInDim S65536x2048 ![0, 1] bcast_S1x2048_S65536x2048_0_1 : (⟨S1x2048, .f32⟩ : BufTy).Contents (Elt F) → (⟨S65536x2048, .f32⟩ : BufTy).Contents (Elt F)),
    binary main_v7 main_v12 main_v13 (Host.divf : (⟨S65536x2048, .f32⟩ : BufTy).Contents (Elt F) → (⟨S65536x2048, .f32⟩ : BufTy).Contents (Elt F) → (⟨S65536x2048, .f32⟩ : BufTy).Contents (Elt F)),
    unary main_arg2 main_v14 (broadcastInDim S1x2048 ![1] bcast_S2048_S1x2048_1 : (⟨S2048, .f32⟩ : BufTy).Contents (Elt F) → (⟨S1x2048, .f32⟩ : BufTy).Contents (Elt F)),
    unary main_v14 main_v15 (broadcastInDim S65536x2048 ![0, 1] bcast_S1x2048_S65536x2048_0_1 : (⟨S1x2048, .f32⟩ : BufTy).Contents (Elt F) → (⟨S65536x2048, .f32⟩ : BufTy).Contents (Elt F)),
    binary main_v13 main_v15 main_v16 (mulf : (⟨S65536x2048, .f32⟩ : BufTy).Contents (Elt F) → (⟨S65536x2048, .f32⟩ : BufTy).Contents (Elt F) → (⟨S65536x2048, .f32⟩ : BufTy).Contents (Elt F)),
    unary main_arg3 main_v17 (broadcastInDim S1x2048 ![1] bcast_S2048_S1x2048_1 : (⟨S2048, .f32⟩ : BufTy).Contents (Elt F) → (⟨S1x2048, .f32⟩ : BufTy).Contents (Elt F)),
    unary main_v17 main_v18 (broadcastInDim S65536x2048 ![0, 1] bcast_S1x2048_S65536x2048_0_1 : (⟨S1x2048, .f32⟩ : BufTy).Contents (Elt F) → (⟨S65536x2048, .f32⟩ : BufTy).Contents (Elt F)),
    binary main_v16 main_v18 main_v19 (addf : (⟨S65536x2048, .f32⟩ : BufTy).Contents (Elt F) → (⟨S65536x2048, .f32⟩ : BufTy).Contents (Elt F) → (⟨S65536x2048, .f32⟩ : BufTy).Contents (Elt F)),
    nullary main_cst_4 (constant S_ .f32 0x00000000#32),
    unary main_cst_4 main_v20 (broadcastInDim S65536x2048 ![] bcast_S_S65536x2048 : (⟨S_, .f32⟩ : BufTy).Contents (Elt F) → (⟨S65536x2048, .f32⟩ : BufTy).Contents (Elt F)),
    binary main_v19 main_v20 main_v21 (cmpf .oge : (⟨S65536x2048, .f32⟩ : BufTy).Contents (Elt F) → (⟨S65536x2048, .f32⟩ : BufTy).Contents (Elt F) → (⟨S65536x2048, .i1⟩ : BufTy).Contents (Elt F)),
    nullary main_cst_5 (constant S_ .f32 0x3E4CCCCD#32),
    unary main_cst_5 main_v22 (broadcastInDim S65536x2048 ![] bcast_S_S65536x2048 : (⟨S_, .f32⟩ : BufTy).Contents (Elt F) → (⟨S65536x2048, .f32⟩ : BufTy).Contents (Elt F)),
    binary main_v22 main_v19 main_v23 (mulf : (⟨S65536x2048, .f32⟩ : BufTy).Contents (Elt F) → (⟨S65536x2048, .f32⟩ : BufTy).Contents (Elt F) → (⟨S65536x2048, .f32⟩ : BufTy).Contents (Elt F)),
    TRef.ternary (.of main_v21 : TRef sig ⟨S65536x2048, .i1⟩) (.of main_v19 : TRef sig ⟨S65536x2048, .f32⟩) (.of main_v23 : TRef sig ⟨S65536x2048, .f32⟩) main_call1.v0 select ]

/-- The next 25: the activations regrouped into sixteen blocks of 128 channels, the batched product with the
    classifiers and the bias; the (label, row) pairs, each coordinate wrapped if negative; the gather that picks the row's
    own block. The stretch ends at the six logits of every row. -/
abbrev opsB : List (HloOp τ sig (Elt F)) :=
  [
    reshape main_v24 main_v25 rfl shapeCasts_S65536x2048_S65536x16x128,
    unary main_v25 main_v26 ((transpose S16x65536x128 [1, 0, 2] · transposes_S65536x16x128_S16x65536x128_1_0_2) : (⟨S65536x16x128, .f32⟩ : BufTy).Contents (Elt F) → (⟨S16x65536x128, .f32⟩ : BufTy).Contents (Elt F)),
    binary main_v26 main_arg4 main_v27 ((fun l r => Host.dotGeneral dot_S16x65536x128_S16x128x6_S16x65536x6_2_1_1_2_0_0 none l r) : (⟨S16x65536x128, .f32⟩ : BufTy).Contents (Elt F) → (⟨S16x128x6, .f32⟩ : BufTy).Contents (Elt F) → (⟨S16x65536x6, .f32⟩ : BufTy).Contents (Elt F)),
    unary main_arg5 main_v28 (broadcastInDim S1x1x6 ![2] bcast_S6_S1x1x6_2 : (⟨S6, .f32⟩ : BufTy).Contents (Elt F) → (⟨S1x1x6, .f32⟩ : BufTy).Contents (Elt F)),
    unary main_v28 main_v29 (broadcastInDim S16x65536x6 ![0, 1, 2] bcast_S1x1x6_S16x65536x6_0_1_2 : (⟨S1x1x6, .f32⟩ : BufTy).Contents (Elt F) → (⟨S16x65536x6, .f32⟩ : BufTy).Contents (Elt F)),
    binary main_v27 main_v29 main_v30 (addf : (⟨S16x65536x6, .f32⟩ : BufTy).Contents (Elt F) → (⟨S16x65536x6, .f32⟩ : BufTy).Contents (Elt F) → (⟨S16x65536x6, .f32⟩ : BufTy).Contents (Elt F)),
    nullary main_v31 (iotaInDim S65536 32 0),
    nullary main_c_6 (constantI S_ 32 0#32),
    unary main_c_6 main_v32 (broadcastInDim S65536 ![] bcast_S_S65536 : (⟨S_, .i32⟩ : BufTy).Contents (Elt F) → (⟨S65536, .i32⟩ : BufTy).Contents (Elt F)),
    binary main_arg6 main_v32 main_v33 (cmpi .slt : (⟨S65536, .i32⟩ : BufTy).Contents (Elt F) → (⟨S65536, .i32⟩ : BufTy).Contents (Elt F) → (⟨S65536, .i1⟩ : BufTy).Contents (Elt F)),
    nullary main_c_7 (constantI S_ 32 16#32),
    unary main_c_7 main_v34 (broadcastInDim S65536 ![] bcast_S_S65536 : (⟨S_, .i32⟩ : BufTy).Contents (Elt F) → (⟨S65536, .i32⟩ : BufTy).Contents (Elt F)),
    binary main_arg6 main_v34 main_v35 (addi : (⟨S65536, .i32⟩ : BufTy).Contents (Elt F) → (⟨S65536, .i32⟩ : BufTy).Contents (Elt F) → (⟨S65536, .i32⟩ : BufTy).Contents (Elt F)),
    ternary main_v33 main_v35 main_arg6 main_v36 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    nullary main_c_8 (constantI S_ 32 0#32),
    unary main_c_8 main_v37 (broadcastInDim S65536 ![] bcast_S_S65536 : (⟨S_, .i32⟩ : BufTy).Contents (Elt F) → (⟨S65536, .i32⟩ : BufTy).Contents (Elt F)),
    binary main_v31 main_v37 main_v38 (cmpi .slt : (⟨S65536, .i32⟩ : BufTy).Contents (Elt F) → (⟨S65536, .i32⟩ : BufTy).Contents (Elt F) → (⟨S65536, .i1⟩ : BufTy).Contents (Elt F)),
    nullary main_c_9 (constantI S_ 32 65536#32),
    unary main_c_9 main_v39 (broadcastInDim S65536 ![] bcast_S_S65536 : (⟨S_, .i32⟩ : BufTy).Contents (Elt F) → (⟨S65536, .i32⟩ : BufTy).Contents (Elt F)),
    binary main_v31 main_v39 main_v40 (addi : (⟨S65536, .i32⟩ : BufTy).Contents (Elt F) → (⟨S65536, .i32⟩ : BufTy).Contents (Elt F) → (⟨S65536, .i32⟩ : BufTy).Contents (Elt F)),
    ternary main_v38 main_v40 main_v31 main_v41 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v36 main_v42 (broadcastInDim S65536x1 ![0] bcast_S65536_S65536x1_0 : (⟨S65536, .i32⟩ : BufTy).Contents (Elt F) → (⟨S65536x1, .i32⟩ : BufTy).Contents (Elt F)),
    unary main_v41 main_v43 (broadcastInDim S65536x1 ![0] bcast_S65536_S65536x1_0 : (⟨S65536, .i32⟩ : BufTy).Contents (Elt F) → (⟨S65536x1, .i32⟩ : BufTy).Contents (Elt F)),
    binary main_v42 main_v43 main_v44 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    binary main_v30 main_v44 main_v45 ((fun x i => Host.gather gather_S16x65536x6_S65536x2_S65536x6_1_01_n_n_01_1_116 x i) : (⟨S16x65536x6, .f32⟩ : BufTy).Contents (Elt F) → (⟨S65536x2, .i32⟩ : BufTy).Contents (Elt F) → (⟨S65536x6, .f32⟩ : BufTy).Contents (Elt F)) ]

/-- The log-softmax's 15 statements over its call's buffers. -/
abbrev opsC : List (HloOp τ sig (Elt F)) :=
  [
    TRef.nullary main_call2.cst (constant S_ .f32 0xFF800000#32),
    TRef.binary (.of main_v45 : TRef sig ⟨S65536x6, .f32⟩) main_call2.cst main_call2.v0 (fun x v => Host.reduce FloatOps.maximumf x v reducesTo_S65536x6_S65536_d1 h_S_),
    TRef.nullary main_call2.cst_0 (constant S_ .f32 0xFF800000#32),
    TRef.unary main_call2.cst_0 main_call2.v1 (broadcastInDim S65536 ![] bcast_S_S65536),
    TRef.binary main_call2.v1 main_call2.v0 main_call2.v2 maximumf,
    TRef.unary main_call2.v2 main_call2.v3 (broadcastInDim S65536x1 ![0] bcast_S65536_S65536x1_0),
    TRef.unary main_call2.v3 main_call2.v4 (broadcastInDim S65536x6 ![0, 1] bcast_S65536x1_S65536x6_0_1),
    TRef.binary (.of main_v45 : TRef sig ⟨S65536x6, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S65536x6_S65536_d1 h_S_),
    TRef.unary main_call2.v7 main_call2.v8 (broadcastInDim S65536x1 ![0] bcast_S65536_S65536x1_0),
    TRef.unary main_call2.v8 main_call2.v9 Host.log,
    TRef.unary main_call2.v9 main_call2.v10 (broadcastInDim S65536x6 ![0, 1] bcast_S65536x1_S65536x6_0_1),
    TRef.binary main_call2.v5 main_call2.v10 main_call2.v11 subf ]

/-- The next 61: the two table look-ups by the wrapped label, the slot mask and the target columns (clamped by a call
    of six statements), the masked values (a call of three), the zero array, and the row and column coordinates. -/
abbrev opsD : List (HloOp τ sig (Elt F)) :=
  [
    nullary main_c_10 (constantI S_ 32 0#32),
    unary main_c_10 main_v47 (broadcastInDim S65536 ![] bcast_S_S65536 : (⟨S_, .i32⟩ : BufTy).Contents (Elt F) → (⟨S65536, .i32⟩ : BufTy).Contents (Elt F)),
    binary main_arg6 main_v47 main_v48 (cmpi .slt : (⟨S65536, .i32⟩ : BufTy).Contents (Elt F) → (⟨S65536, .i32⟩ : BufTy).Contents (Elt F) → (⟨S65536, .i1⟩ : BufTy).Contents (Elt F)),
    nullary main_c_11 (constantI S_ 32 16#32),
    unary main_c_11 main_v49 (broadcastInDim S65536 ![] bcast_S_S65536 : (⟨S_, .i32⟩ : BufTy).Contents (Elt F) → (⟨S65536, .i32⟩ : BufTy).Contents (Elt F)),
    binary main_arg6 main_v49 main_v50 (addi : (⟨S65536, .i32⟩ : BufTy).Contents (Elt F) → (⟨S65536, .i32⟩ : BufTy).Contents (Elt F) → (⟨S65536, .i32⟩ : BufTy).Contents (Elt F)),
    ternary main_v48 main_v50 main_arg6 main_v51 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v51 main_v52 (broadcastInDim S65536x1 ![0] bcast_S65536_S65536x1_0 : (⟨S65536, .i32⟩ : BufTy).Contents (Elt F) → (⟨S65536x1, .i32⟩ : BufTy).Contents (Elt F)),
    binary main_c main_v52 main_v53 ((fun x i => Host.gather gather_S16_S65536x1_S65536_n_0_n_n_0_1_1 x i) : (⟨S16, .i32⟩ : BufTy).Contents (Elt F) → (⟨S65536x1, .i32⟩ : BufTy).Contents (Elt F) → (⟨S65536, .i32⟩ : BufTy).Contents (Elt F)),
    nullary main_c_12 (constantI S_ 32 0#32),
    unary main_c_12 main_v54 (broadcastInDim S65536 ![] bcast_S_S65536 : (⟨S_, .i32⟩ : BufTy).Contents (Elt F) → (⟨S65536, .i32⟩ : BufTy).Contents (Elt F)),
    binary main_arg6 main_v54 main_v55 (cmpi .slt : (⟨S65536, .i32⟩ : BufTy).Contents (Elt F) → (⟨S65536, .i32⟩ : BufTy).Contents (Elt F) → (⟨S65536, .i1⟩ : BufTy).Contents (Elt F)),
    nullary main_c_13 (constantI S_ 32 16#32),
    unary main_c_13 main_v56 (broadcastInDim S65536 ![] bcast_S_S65536 : (⟨S_, .i32⟩ : BufTy).Contents (Elt F) → (⟨S65536, .i32⟩ : BufTy).Contents (Elt F)),
    binary main_arg6 main_v56 main_v57 (addi : (⟨S65536, .i32⟩ : BufTy).Contents (Elt F) → (⟨S65536, .i32⟩ : BufTy).Contents (Elt F) → (⟨S65536, .i32⟩ : BufTy).Contents (Elt F)),
    ternary main_v55 main_v57 main_arg6 main_v58 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v58 main_v59 (broadcastInDim S65536x1 ![0] bcast_S65536_S65536x1_0 : (⟨S65536, .i32⟩ : BufTy).Contents (Elt F) → (⟨S65536x1, .i32⟩ : BufTy).Contents (Elt F)),
    binary main_c_0 main_v59 main_v60 ((fun x i => Host.gather gather_S16_S65536x1_S65536_n_0_n_n_0_1_1 x i) : (⟨S16, .i32⟩ : BufTy).Contents (Elt F) → (⟨S65536x1, .i32⟩ : BufTy).Contents (Elt F) → (⟨S65536, .i32⟩ : BufTy).Contents (Elt F)),
    nullary main_v61 (iotaInDim S6 32 0),
    unary main_v61 main_v62 (broadcastInDim S1x6 ![1] bcast_S6_S1x6_1 : (⟨S6, .i32⟩ : BufTy).Contents (Elt F) → (⟨S1x6, .i32⟩ : BufTy).Contents (Elt F)),
    unary main_v60 main_v63 (broadcastInDim S65536x1 ![0] bcast_S65536_S65536x1_0 : (⟨S65536, .i32⟩ : BufTy).Contents (Elt F) → (⟨S65536x1, .i32⟩ : BufTy).Contents (Elt F)),
    unary main_v62 main_v64 (broadcastInDim S65536x6 ![0, 1] bcast_S1x6_S65536x6_0_1 : (⟨S1x6, .i32⟩ : BufTy).Contents (Elt F) → (⟨S65536x6, .i32⟩ : BufTy).Contents (Elt F)),
    unary main_v63 main_v65 (broadcastInDim S65536x6 ![0, 1] bcast_S65536x1_S65536x6_0_1 : (⟨S65536x1, .i32⟩ : BufTy).Contents (Elt F) → (⟨S65536x6, .i32⟩ : BufTy).Contents (Elt F)),
    binary main_v64 main_v65 main_v66 (cmpi .slt : (⟨S65536x6, .i32⟩ : BufTy).Contents (Elt F) → (⟨S65536x6, .i32⟩ : BufTy).Contents (Elt F) → (⟨S65536x6, .i1⟩ : BufTy).Contents (Elt F)),
    unary main_v53 main_v67 (broadcastInDim S65536x1 ![0] bcast_S65536_S65536x1_0 : (⟨S65536, .i32⟩ : BufTy).Contents (Elt F) → (⟨S65536x1, .i32⟩ : BufTy).Contents (Elt F)),
    unary main_v61 main_v68 (broadcastInDim S1x6 ![1] bcast_S6_S1x6_1 : (⟨S6, .i32⟩ : BufTy).Contents (Elt F) → (⟨S1x6, .i32⟩ : BufTy).Contents (Elt F)),
    unary main_v67 main_v69 (broadcastInDim S65536x6 ![0, 1] bcast_S65536x1_S65536x6_0_1 : (⟨S65536x1, .i32⟩ : BufTy).Contents (Elt F) → (⟨S65536x6, .i32⟩ : BufTy).Contents (Elt F)),
    unary main_v68 main_v70 (broadcastInDim S65536x6 ![0, 1] bcast_S1x6_S65536x6_0_1 : (⟨S1x6, .i32⟩ : BufTy).Contents (Elt F) → (⟨S65536x6, .i32⟩ : BufTy).Contents (Elt F)),
    binary main_v69 main_v70 main_v71 (addi : (⟨S65536x6, .i32⟩ : BufTy).Contents (Elt F) → (⟨S65536x6, .i32⟩ : BufTy).Contents (Elt F) → (⟨S65536x6, .i32⟩ : BufTy).Contents (Elt F)),
    nullary main_c_14 (constantI S_ 32 0#32),
    nullary main_c_15 (constantI S_ 32 53#32),
    TRef.unary (.of main_c_14 : TRef sig ⟨S_, .i32⟩) main_call3.v0 id,
    TRef.unary main_call3.v0 main_call3.v1 (broadcastInDim S65536x6 ![] bcast_S_S65536x6),
    TRef.binary main_call3.v1 (.of main_v71 : TRef sig ⟨S65536x6, .i32⟩) main_call3.v2 maxsi,
    TRef.unary (.of main_c_15 : TRef sig ⟨S_, .i32⟩) main_call3.v3 id,
    TRef.unary main_call3.v3 main_call3.v4 (broadcastInDim S65536x6 ![] bcast_S_S65536x6),
    TRef.binary main_call3.v4 main_call3.v2 main_call3.v5 minsi,
    nullary main_cst_16 (constant S_ .f32 0x00000000#32),
    TRef.unary (.of main_cst_16 : TRef sig ⟨S_, .f32⟩) main_call4.v0 id,
    TRef.unary main_call4.v0 main_call4.v1 (broadcastInDim S65536x6 ![] bcast_S_S65536x6),
    TRef.ternary (.of main_v66 : TRef sig ⟨S65536x6, .i1⟩) (.of main_v46 : TRef sig ⟨S65536x6, .f32⟩) main_call4.v1 main_call4.v2 select,
    nullary main_cst_17 (constant S_ .f32 0x00000000#32),
    unary main_cst_17 main_v74 (broadcastInDim S65536x54 ![] bcast_S_S65536x54 : (⟨S_, .f32⟩ : BufTy).Contents (Elt F) → (⟨S65536x54, .f32⟩ : BufTy).Contents (Elt F)),
    unary main_v31 main_v75 (broadcastInDim S65536x1 ![0] bcast_S65536_S65536x1_0 : (⟨S65536, .i32⟩ : BufTy).Contents (Elt F) → (⟨S65536x1, .i32⟩ : BufTy).Contents (Elt F)),
    nullary main_c_18 (constantI S_ 32 0#32),
    unary main_c_18 main_v76 (broadcastInDim S65536x1 ![] bcast_S_S65536x1 : (⟨S_, .i32⟩ : BufTy).Contents (Elt F) → (⟨S65536x1, .i32⟩ : BufTy).Contents (Elt F)),
    binary main_v75 main_v76 main_v77 (cmpi .slt : (⟨S65536x1, .i32⟩ : BufTy).Contents (Elt F) → (⟨S65536x1, .i32⟩ : BufTy).Contents (Elt F) → (⟨S65536x1, .i1⟩ : BufTy).Contents (Elt F)),
    nullary main_c_19 (constantI S_ 32 65536#32),
    unary main_c_19 main_v78 (broadcastInDim S65536x1 ![] bcast_S_S65536x1 : (⟨S_, .i32⟩ : BufTy).Contents (Elt F) → (⟨S65536x1, .i32⟩ : BufTy).Contents (Elt F)),
    binary main_v75 main_v78 main_v79 (addi : (⟨S65536x1, .i32⟩ : BufTy).Contents (Elt F) → (⟨S65536x1, .i32⟩ : BufTy).Contents (Elt F) → (⟨S65536x1, .i32⟩ : BufTy).Contents (Elt F)),
    ternary main_v77 main_v79 main_v75 main_v80 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)),
    nullary main_c_20 (constantI S_ 32 0#32),
    unary main_c_20 main_v81 (broadcastInDim S65536x6 ![] bcast_S_S65536x6 : (⟨S_, .i32⟩ : BufTy).Contents (Elt F) → (⟨S65536x6, .i32⟩ : BufTy).Contents (Elt F)),
    binary main_v72 main_v81 main_v82 (cmpi .slt : (⟨S65536x6, .i32⟩ : BufTy).Contents (Elt F) → (⟨S65536x6, .i32⟩ : BufTy).Contents (Elt F) → (⟨S65536x6, .i1⟩ : BufTy).Contents (Elt F)),
    nullary main_c_21 (constantI S_ 32 54#32),
    unary main_c_21 main_v83 (broadcastInDim S65536x6 ![] bcast_S_S65536x6 : (⟨S_, .i32⟩ : BufTy).Contents (Elt F) → (⟨S65536x6, .i32⟩ : BufTy).Contents (Elt F)),
    binary main_v72 main_v83 main_v84 (addi : (⟨S65536x6, .i32⟩ : BufTy).Contents (Elt F) → (⟨S65536x6, .i32⟩ : BufTy).Contents (Elt F) → (⟨S65536x6, .i32⟩ : BufTy).Contents (Elt F)),
    ternary main_v82 main_v84 main_v72 main_v85 (select : (⟨S65536x6, .i1⟩ : BufTy).Contents (Elt F) → (⟨S65536x6, .i32⟩ : BufTy).Contents (Elt F) → (⟨S65536x6, .i32⟩ : BufTy).Contents (Elt F) → (⟨S65536x6, .i32⟩ : BufTy).Contents (Elt F)),
    unary main_v80 main_v86 (broadcastInDim S65536x6 ![0, 1] bcast_S65536x1_S65536x6_0_1 : (⟨S65536x1, .i32⟩ : BufTy).Contents (Elt F) → (⟨S65536x6, .i32⟩ : BufTy).Contents (Elt F)),
    unary main_v86 main_v87 (broadcastInDim S65536x6x1 ![0, 1] bcast_S65536x6_S65536x6x1_0_1 : (⟨S65536x6, .i32⟩ : BufTy).Contents (Elt F) → (⟨S65536x6x1, .i32⟩ : BufTy).Contents (Elt F)),
    unary main_v85 main_v88 (broadcastInDim S65536x6x1 ![0, 1] bcast_S65536x6_S65536x6x1_0_1 : (⟨S65536x6, .i32⟩ : BufTy).Contents (Elt F) → (⟨S65536x6x1, .i32⟩ : BufTy).Contents (Elt F)) ]

/-- The last two: the coordinates joined into (row, column) pairs, and the scatter-add of the masked values into the zero array. -/
abbrev opsE : List (HloOp τ sig (Elt F)) :=
  [
    binary main_v87 main_v88 main_v89 ((fun a b => concatenate S65536x6x2 2 [⟨S65536x6x1, a⟩, ⟨S65536x6x1, b⟩] concatenates_S65536x6x1_S65536x6x1_S65536x6x2_d2) : (⟨S65536x6x1, .i32⟩ : BufTy).Contents (Elt F) → (⟨S65536x6x1, .i32⟩ : BufTy).Contents (Elt F) → (⟨S65536x6x2, .i32⟩ : BufTy).Contents (Elt F)),
    ternary main_v74 main_v89 main_v73 main_v90 ((fun x i u => Host.scatterAdd scatter_S65536x54_S65536x6x2_S65536x6_n_01_01_2 x i u) : (⟨S65536x54, .f32⟩ : BufTy).Contents (Elt F) → (⟨S65536x6x2, .i32⟩ : BufTy).Contents (Elt F) → (⟨S65536x6, .f32⟩ : BufTy).Contents (Elt F) → (⟨S65536x54, .f32⟩ : BufTy).Contents (Elt F)) ]

/-- All of @main's operations: the five stretches one after the other. -/
abbrev ops : List (HloOp τ sig (Elt F)) := opsA ++ (opsB ++ (opsC ++ (opsD ++ opsE)))

-- the sequence is long: re-association of the binds recurses once per statement
set_option maxRecDepth 8192 in
set_option maxHeartbeats 4000000 in
/-- @main is that straight line: its two halves and the six outlined functions unfolded at their calls, the
    calls' records at their fields, sequencing re-associated; both sides are then one chain of host steps. -/
theorem main_eq (c : Dev nD) : main (F := F) c = seq ops := by
  simp only [main, main_part0, main_part1, fn_var.body, fn_where.body, fn_where_0.body, fn_log_softmax.body,
    fn_clip.body, fn_where_1.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., nullary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..⟩
theorem opsB_sub : (opsB : List (HloOp τ sig (Elt F))).Forall fun op => op.bufs ⊆ tcRefs τ sig :=
  ⟨reshape_bufs_sub .., unary_bufs_sub .., binary_bufs_sub .., unary_bufs_sub .., unary_bufs_sub .., binary_bufs_sub ..,
    nullary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    binary_bufs_sub ..⟩
theorem opsC_sub : (opsC : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩
theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., unary_bufs_sub .., unary_bufs_sub .., binary_bufs_sub ..,
    unary_bufs_sub .., unary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., unary_bufs_sub .., ternary_bufs_sub .., nullary_bufs_sub ..,
    unary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub ..⟩
theorem opsE_sub : (opsE : List (HloOp τ sig (Elt F))).Forall fun op => op.bufs ⊆ tcRefs τ sig :=
  ⟨binary_bufs_sub .., ternary_bufs_sub ..⟩

/-- A property of every entry of two lists holds of every entry of their concatenation. -/
private theorem forall_append' {α : Type} {p : α → Prop} {l₁ l₂ : List α} (h₁ : l₁.Forall p) (h₂ : l₂.Forall p) :
    (l₁ ++ l₂).Forall p :=
  List.forall_iff_forall_mem.mpr fun x hx => (List.mem_append.mp hx).elim
    (List.forall_iff_forall_mem.mp h₁ x) (List.forall_iff_forall_mem.mp h₂ x)

theorem ops_sub : (ops : List (HloOp τ sig (Elt F))).Forall fun op => op.bufs ⊆ tcRefs τ sig :=
  forall_append' opsA_sub (forall_append' opsB_sub (forall_append' opsC_sub (forall_append' opsD_sub opsE_sub)))

/-- For any float values, from any memory with zero counters: every weakly fair execution of @main on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the run leaves in the arguments and in the result

The fold over the whole list is the fold over the five stretches in turn. No operation writes an argument. Each stretch,
from ANY contents of the buffers, leaves in its last buffer the stage function of what the buffers it reads held; the
fourth stretch also reads the two literal tables and the row numbers, which earlier stretches wrote and nothing writes again. -/

/-- The fold over two lists one after the other is the fold over the second from the fold over the first. -/
private theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) :
    after ops V = after opsE (after opsD (after opsC (after opsB (after opsA V)))) := by
  simp only [ops, after_append']

set_option maxRecDepth 16384 in
set_option maxHeartbeats 4000000 in
theorem arg0_eq (V : Valuation τ sig (Elt F)) :
    after ops V (main_arg0 : DevRef τ sig) = V (main_arg0 : DevRef τ sig) := by
  simp only [after_ops, after_cons, after_nil]
  rfl

set_option maxRecDepth 16384 in
set_option maxHeartbeats 4000000 in
theorem arg1_eq (V : Valuation τ sig (Elt F)) :
    after ops V (main_arg1 : DevRef τ sig) = V (main_arg1 : DevRef τ sig) := by
  simp only [after_ops, after_cons, after_nil]
  rfl

set_option maxRecDepth 16384 in
set_option maxHeartbeats 4000000 in
theorem arg2_eq (V : Valuation τ sig (Elt F)) :
    after ops V (main_arg2 : DevRef τ sig) = V (main_arg2 : DevRef τ sig) := by
  simp only [after_ops, after_cons, after_nil]
  rfl

set_option maxRecDepth 16384 in
set_option maxHeartbeats 4000000 in
theorem arg3_eq (V : Valuation τ sig (Elt F)) :
    after ops V (main_arg3 : DevRef τ sig) = V (main_arg3 : DevRef τ sig) := by
  simp only [after_ops, after_cons, after_nil]
  rfl

set_option maxRecDepth 16384 in
set_option maxHeartbeats 4000000 in
theorem arg4_eq (V : Valuation τ sig (Elt F)) :
    after ops V (main_arg4 : DevRef τ sig) = V (main_arg4 : DevRef τ sig) := by
  simp only [after_ops, after_cons, after_nil]
  rfl

set_option maxRecDepth 16384 in
set_option maxHeartbeats 4000000 in
theorem arg5_eq (V : Valuation τ sig (Elt F)) :
    after ops V (main_arg5 : DevRef τ sig) = V (main_arg5 : DevRef τ sig) := by
  simp only [after_ops, after_cons, after_nil]
  rfl

set_option maxRecDepth 16384 in
set_option maxHeartbeats 4000000 in
theorem arg6_eq (V : Valuation τ sig (Elt F)) :
    after ops V (main_arg6 : DevRef τ sig) = V (main_arg6 : DevRef τ sig) := by
  simp only [after_ops, after_cons, after_nil]
  rfl

/-! ### The stretches at the ideal instance -/

/-- An operation that puts into a buffer what the buffer already holds changes nothing. -/
private theorem nullary_result_self (y : Ref sig .tc) (v : y.ty.Contents (Elt F)) (hy)
    (W : Valuation τ sig (Elt F)) (h : W (y : DevRef τ sig) = v) :
    (nullary y v hy : HloOp τ sig (Elt F)).result W = W := by
  funext b
  by_cases hb : b ∈ (nullary y v hy : HloOp τ sig (Elt F)).writes
  · obtain rfl : b = (y : DevRef τ sig) := Finset.mem_singleton.mp hb
    rw [nullary_result]; exact h.symm
  · exact HloOp.result_of_not_mem _ W hb

attribute [local irreducible] Host.reduceAdd Host.reduce Host.gather Host.scatterAdd in
set_option maxRecDepth 16384 in
set_option maxHeartbeats 4000000 in
/-- The first stretch leaves the activations in its last buffer. -/
theorem stageA (W : Valuation τ sig (Elt Ideal)) :
    after (opsA : List (HloOp τ sig (Elt Ideal))) W (main_v24 : DevRef τ sig)
      = Stage.hact (W (main_arg0 : DevRef τ sig)) (W (main_arg1 : DevRef τ sig)) (W (main_arg2 : DevRef τ sig)) (W (main_arg3 : DevRef τ sig)) := by
  simp only [after_cons, after_nil]
  rfl

set_option maxRecDepth 16384 in
set_option maxHeartbeats 4000000 in
/-- It writes the two literal tables, whatever was there. -/
theorem stageA_c (W : Valuation τ sig (Elt Ideal)) :
    after (opsA : List (HloOp τ sig (Elt Ideal))) W (main_c : DevRef τ sig) = ((fun i => lit0 (S16.rowMajor i)) : (⟨S16, .i32⟩ : BufTy).Contents (Elt Ideal)) := by
  simp only [after_cons, after_nil]
  rfl
set_option maxRecDepth 16384 in
set_option maxHeartbeats 4000000 in
theorem stageA_c0 (W : Valuation τ sig (Elt Ideal)) :
    after (opsA : List (HloOp τ sig (Elt Ideal))) W (main_c_0 : DevRef τ sig) = ((fun i => lit1 (S16.rowMajor i)) : (⟨S16, .i32⟩ : BufTy).Contents (Elt Ideal)) := by
  simp only [after_cons, after_nil]
  rfl
set_option maxRecDepth 16384 in
set_option maxHeartbeats 4000000 in
theorem stageA_arg4 (W : Valuation τ sig (Elt Ideal)) :
    after (opsA : List (HloOp τ sig (Elt Ideal))) W (main_arg4 : DevRef τ sig) = W (main_arg4 : DevRef τ sig) := by
  simp only [after_cons, after_nil]
  rfl
set_option maxRecDepth 16384 in
set_option maxHeartbeats 4000000 in
theorem stageA_arg5 (W : Valuation τ sig (Elt Ideal)) :
    after (opsA : List (HloOp τ sig (Elt Ideal))) W (main_arg5 : DevRef τ sig) = W (main_arg5 : DevRef τ sig) := by
  simp only [after_cons, after_nil]
  rfl
set_option maxRecDepth 16384 in
set_option maxHeartbeats 4000000 in
theorem stageA_arg6 (W : Valuation τ sig (Elt Ideal)) :
    after (opsA : List (HloOp τ sig (Elt Ideal))) W (main_arg6 : DevRef τ sig) = W (main_arg6 : DevRef τ sig) := by
  simp only [after_cons, after_nil]
  rfl

attribute [local irreducible] Host.reduceAdd Host.reduce Host.gather Host.scatterAdd in
set_option maxRecDepth 16384 in
set_option maxHeartbeats 4000000 in
/-- The second stretch leaves the logits in its last buffer. -/
theorem stageB (W : Valuation τ sig (Elt Ideal)) :
    after (opsB : List (HloOp τ sig (Elt Ideal))) W (main_v45 : DevRef τ sig)
      = Stage.logits (W (main_v24 : DevRef τ sig)) (W (main_arg4 : DevRef τ sig)) (W (main_arg5 : DevRef τ sig)) (W (main_arg6 : DevRef τ sig)) := by
  simp only [after_cons, after_nil]
  rfl

set_option maxRecDepth 16384 in
set_option maxHeartbeats 4000000 in
/-- It writes the row numbers, whatever was there, and leaves the tables and the labels. -/
theorem stageB_v31 (W : Valuation τ sig (Elt Ideal)) :
    after (opsB : List (HloOp τ sig (Elt Ideal))) W (main_v31 : DevRef τ sig) = (iotaInDim S65536 32 0 : (⟨S65536, .i32⟩ : BufTy).Contents (Elt Ideal)) := by
  simp only [after_cons, after_nil]
  rfl
set_option maxRecDepth 16384 in
set_option maxHeartbeats 4000000 in
theorem stageB_c (W : Valuation τ sig (Elt Ideal)) :
    after (opsB : List (HloOp τ sig (Elt Ideal))) W (main_c : DevRef τ sig) = W (main_c : DevRef τ sig) := by
  simp only [after_cons, after_nil]
  rfl
set_option maxRecDepth 16384 in
set_option maxHeartbeats 4000000 in
theorem stageB_c0 (W : Valuation τ sig (Elt Ideal)) :
    after (opsB : List (HloOp τ sig (Elt Ideal))) W (main_c_0 : DevRef τ sig) = W (main_c_0 : DevRef τ sig) := by
  simp only [after_cons, after_nil]
  rfl
set_option maxRecDepth 16384 in
set_option maxHeartbeats 4000000 in
theorem stageB_arg6 (W : Valuation τ sig (Elt Ideal)) :
    after (opsB : List (HloOp τ sig (Elt Ideal))) W (main_arg6 : DevRef τ sig) = W (main_arg6 : DevRef τ sig) := by
  simp only [after_cons, after_nil]
  rfl

attribute [local irreducible] Host.reduceAdd Host.reduce Host.gather Host.scatterAdd in
set_option maxRecDepth 16384 in
set_option maxHeartbeats 4000000 in
/-- The third stretch leaves the log-softmax in its last buffer. -/
theorem stageC (W : Valuation τ sig (Elt Ideal)) :
    after (opsC : List (HloOp τ sig (Elt Ideal))) W (main_v46 : DevRef τ sig) = Stage.lsm (W (main_v45 : DevRef τ sig)) := by
  simp only [after_cons, after_nil]
  rfl
set_option maxRecDepth 16384 in
set_option maxHeartbeats 4000000 in
theorem stageC_c (W : Valuation τ sig (Elt Ideal)) :
    after (opsC : List (HloOp τ sig (Elt Ideal))) W (main_c : DevRef τ sig) = W (main_c : DevRef τ sig) := by
  simp only [after_cons, after_nil]
  rfl
set_option maxRecDepth 16384 in
set_option maxHeartbeats 4000000 in
theorem stageC_c0 (W : Valuation τ sig (Elt Ideal)) :
    after (opsC : List (HloOp τ sig (Elt Ideal))) W (main_c_0 : DevRef τ sig) = W (main_c_0 : DevRef τ sig) := by
  simp only [after_cons, after_nil]
  rfl
set_option maxRecDepth 16384 in
set_option maxHeartbeats 4000000 in
theorem stageC_v31 (W : Valuation τ sig (Elt Ideal)) :
    after (opsC : List (HloOp τ sig (Elt Ideal))) W (main_v31 : DevRef τ sig) = W (main_v31 : DevRef τ sig) := by
  simp only [after_cons, after_nil]
  rfl
set_option maxRecDepth 16384 in
set_option maxHeartbeats 4000000 in
theorem stageC_arg6 (W : Valuation τ sig (Elt Ideal)) :
    after (opsC : List (HloOp τ sig (Elt Ideal))) W (main_arg6 : DevRef τ sig) = W (main_arg6 : DevRef τ sig) := by
  simp only [after_cons, after_nil]
  rfl

/-- The fourth stretch with the writes of the two tables and of the row numbers run again in front of it: from any
    contents, what it leaves depends only on the log-softmax buffer and the labels. -/
abbrev opsD' : List (HloOp τ sig (Elt F)) :=
  nullary main_c (fun i => lit0 (S16.rowMajor i)) :: nullary main_c_0 (fun i => lit1 (S16.rowMajor i)) :: nullary main_v31 (iotaInDim S65536 32 0) :: opsD

attribute [local irreducible] Host.reduceAdd Host.reduce Host.gather Host.scatterAdd in
set_option maxRecDepth 16384 in
set_option maxHeartbeats 4000000 in
/-- The array the values are added into is the zero array. -/
theorem stageD_v74 (W : Valuation τ sig (Elt Ideal)) :
    after (opsD' : List (HloOp τ sig (Elt Ideal))) W (main_v74 : DevRef τ sig)
      = Stage.zeros := by
  simp only [after_cons, after_nil]
  rfl

attribute [local irreducible] Host.reduceAdd Host.reduce Host.gather Host.scatterAdd in
set_option maxRecDepth 16384 in
set_option maxHeartbeats 4000000 in
/-- The row coordinate of every pair. -/
theorem stageD_v87 (W : Valuation τ sig (Elt Ideal)) :
    after (opsD' : List (HloOp τ sig (Elt Ideal))) W (main_v87 : DevRef τ sig)
      = broadcastInDim S65536x6x1 ![0, 1] bcast_S65536x6_S65536x6x1_0_1 (broadcastInDim S65536x6 ![0, 1] bcast_S65536x1_S65536x6_0_1 Stage.rowIdx) := by
  simp only [after_cons, after_nil]
  rfl

attribute [local irreducible] Host.reduceAdd Host.reduce Host.gather Host.scatterAdd in
set_option maxRecDepth 16384 in
set_option maxHeartbeats 4000000 in
/-- The column coordinate of every pair. -/
theorem stageD_v88 (W : Valuation τ sig (Elt Ideal)) :
    after (opsD' : List (HloOp τ sig (Elt Ideal))) W (main_v88 : DevRef τ sig)
      = broadcastInDim S65536x6x1 ![0, 1] bcast_S65536x6_S65536x6x1_0_1 (Stage.colIdx (W (main_arg6 : DevRef τ sig))) := by
  simp only [after_cons, after_nil]
  rfl

attribute [local irreducible] Host.reduceAdd Host.reduce Host.gather Host.scatterAdd in
set_option maxRecDepth 16384 in
set_option maxHeartbeats 4000000 in
/-- The masked values. -/
theorem stageD_v73 (W : Valuation τ sig (Elt Ideal)) :
    after (opsD' : List (HloOp τ sig (Elt Ideal))) W (main_v73 : DevRef τ sig)
      = Stage.vals (W (main_v46 : DevRef τ sig)) (W (main_arg6 : DevRef τ sig)) := by
  simp only [after_cons, after_nil]
  rfl

set_option maxRecDepth 16384 in
set_option maxHeartbeats 4000000 in
/-- The last stretch, from any contents: the coordinates are joined and the masked values added into the array. -/
theorem stageE (W : Valuation τ sig (Elt Ideal)) :
    after (opsE : List (HloOp τ sig (Elt Ideal))) W (main_v90 : DevRef τ sig)
      = (Host.scatterAdd (F := Ideal) (φ := .f32) scatter_S65536x54_S65536x6x2_S65536x6_n_01_01_2 (W (main_v74 : DevRef τ sig))
          (concatenate S65536x6x2 2 [⟨S65536x6x1, W (main_v87 : DevRef τ sig)⟩, ⟨S65536x6x1, W (main_v88 : DevRef τ sig)⟩]
            concatenates_S65536x6x1_S65536x6x1_S65536x6x2_d2)
          (W (main_v73 : DevRef τ sig)) : Vec Ideal S65536x54 .f32) := by
  simp only [after_cons, after_nil]
  rfl

/-- The result buffer after the whole run: the placement of the log-softmax of the logits of the activations. The
    contents before the fourth stretch already hold the two tables and the row numbers, so running their writes again
    changes nothing; each stretch then hands the next its stage function of the arguments. -/
theorem out_eq (V : Valuation τ sig (Elt Ideal)) :
    after ops V (main_v90 : DevRef τ sig)
      = Stage.out (Stage.lsm (Stage.logits (Stage.hact (V (main_arg0 : DevRef τ sig)) (V (main_arg1 : DevRef τ sig))
            (V (main_arg2 : DevRef τ sig)) (V (main_arg3 : DevRef τ sig)))
          (V (main_arg4 : DevRef τ sig)) (V (main_arg5 : DevRef τ sig)) (V (main_arg6 : DevRef τ sig))))
        (V (main_arg6 : DevRef τ sig)) := by
  have hc : (after opsC (after opsB (after opsA V))) (main_c : DevRef τ sig) = ((fun i => lit0 (S16.rowMajor i)) : (⟨S16, .i32⟩ : BufTy).Contents (Elt Ideal)) := by
    rw [stageC_c, stageB_c, stageA_c]
  have hc0 : (after opsC (after opsB (after opsA V))) (main_c_0 : DevRef τ sig) = ((fun i => lit1 (S16.rowMajor i)) : (⟨S16, .i32⟩ : BufTy).Contents (Elt Ideal)) := by
    rw [stageC_c0, stageB_c0, stageA_c0]
  have h31 : (after opsC (after opsB (after opsA V))) (main_v31 : DevRef τ sig) = (iotaInDim S65536 32 0 : (⟨S65536, .i32⟩ : BufTy).Contents (Elt Ideal)) := by
    rw [stageC_v31, stageB_v31]
  have e1 : (nullary main_c (fun i => lit0 (S16.rowMajor i)) : HloOp τ sig (Elt Ideal)).result (after opsC (after opsB (after opsA V))) = (after opsC (after opsB (after opsA V))) :=
    nullary_result_self _ _ _ _ hc
  have e2 : (nullary main_c_0 (fun i => lit1 (S16.rowMajor i)) : HloOp τ sig (Elt Ideal)).result (after opsC (after opsB (after opsA V))) = (after opsC (after opsB (after opsA V))) :=
    nullary_result_self _ _ _ _ hc0
  have e3 : (nullary main_v31 (iotaInDim S65536 32 0) : HloOp τ sig (Elt Ideal)).result (after opsC (after opsB (after opsA V))) = (after opsC (after opsB (after opsA V))) :=
    nullary_result_self _ _ _ _ h31
  have hpre : after (opsD' : List (HloOp τ sig (Elt Ideal))) (after opsC (after opsB (after opsA V))) = after opsD (after opsC (after opsB (after opsA V))) := by
    rw [opsD', after_cons, after_cons, after_cons, e1, e2, e3]
  rw [after_ops, stageE, ← hpre, stageD_v74, stageD_v87, stageD_v88, stageD_v73, stageC, stageC_arg6, stageB, stageB_arg6,
    stageA, stageA_arg4, stageA_arg5, stageA_arg6]
  rfl

end Cert.ReferenceIdeal.Value

end
-- ==== Proof.RefResult.lean ====
/-
  What the reference's result array holds: the reference's spelling of the specification, of its arguments.
  The placement reads the log-softmax, which reads the gathered logits, which read the activations.
-/
import proofs.«405493_j33827162423889_2_alg».proof.Proof.RefRun
import proofs.«405493_j33827162423889_2_alg».proof.Proof.RefHact
import proofs.«405493_j33827162423889_2_alg».proof.Proof.RefLogits
import proofs.«405493_j33827162423889_2_alg».proof.Proof.RefScatter
import proofs.«405493_j33827162423889_2_alg».proof.Proof.Spec

noncomputable section

namespace Cert.ReferenceIdeal.Result

open Cert.ReferenceIdeal Idealize.ShloMosaic Idealize.ShloMosaic.ValueIdx

variable [Cert.ReferenceIdeal.Facts]

/-- The composed stages at an index: the reference's row function at the reference's statistics. -/
theorem stages_apply (x : Vec Ideal S65536x128 .f32) (w1 : Vec Ideal S128x2048 .f32) (g b : Vec Ideal S2048 .f32)
    (w2 : Vec Ideal S16x128x6 .f32) (bias : Vec Ideal S6 .f32) (cat : Vec Ideal S65536 .i32)
    (hcat : ∀ n, (cat (ix1 n)).toNat < 16) (n : Fin 65536) (q : Fin 54) :
    Stage.out (Stage.lsm (Stage.logits (Stage.hact x w1 g b) w2 bias cat)) cat (ix2 n q)
      = Spec.outR (fun n k => x (ix2 n k)) (fun k j => w1 (ix2 k j)) (fun j => g (ix1 j)) (fun j => b (ix1 j))
          (fun c d t => w2 (ix3 c d t)) (fun t => bias (ix1 t)) (fun n => cat (ix1 n)) n q := by
  rw [Stage.out_apply _ _ n q hcat]
  unfold Spec.outR Spec.rowR
  congr 1
  funext s
  rw [Stage.lsm_apply]
  congr 1
  funext t
  rw [Stage.logits_apply _ _ _ _ n t (hcat n)]
  congr 1
  funext j
  rw [Stage.hact_apply]
  rfl

end Cert.ReferenceIdeal.Result

end
-- ==== Proof.AlgStats.lean ====
/-
  The column statistics agree on finite inputs.

  With every entry of x and W1 a real number, all sums and products stay among the reals, so the algebra is done there:
  the mean of a column of h = x · W1 is the vector of column means of x carried through W1 (linearity of the sum), the
  quadratic form of the second-moment matrix of x is the mean of h², and the mean of the squared deviations of a column
  equals the mean of its squares less its squared mean. That difference is therefore nonnegative, and capping it below
  at zero changes nothing.
-/
import proofs.«405493_j33827162423889_2_alg».proof.Proof.Spec

noncomputable section

namespace Cert.Spec

open Idealize.ShloMosaic

/-! ## Sums of reals inside the extended reals -/

/-- The inclusion of the reals commutes with finite sums. -/
theorem coe_sum {α : Type*} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin'_coe (r : ℝ) : Fin' (r : EReal) := ⟨EReal.coe_ne_top r, EReal.coe_ne_bot r⟩

/-- The batch size's word denotes the real 65536. -/
theorem nN_eq : nN = ((65536 : ℝ) : EReal) := by
  simp [nN, Ideal.ofBits, Ideal.ieee, -EReal.coe_mul]; norm_num

/-! ## The algebra, over the reals -/

section Real
variable {ι κ : Type*} [Fintype ι] [Fintype κ]

/-- The mean of the squared deviations is the mean of the squares less the squared mean
    (N the number of terms, the mean written as the sum times 1/N). -/
theorem sum_sq_dev (a : ι → ℝ) (N : ℝ) (hN : (Fintype.card ι : ℝ) = N) (hN0 : N ≠ 0) :
    (∑ n, (a n - (∑ m, a m) * (1 / N)) * (a n - (∑ m, a m) * (1 / N))) * (1 / N)
      = (∑ n, a n * a n) * (1 / N) - ((∑ m, a m) * (1 / N)) * ((∑ m, a m) * (1 / N)) := by
  have h1 : ∀ n, (a n - (∑ m, a m) * (1 / N)) * (a n - (∑ m, a m) * (1 / N))
      = a n * a n - 2 * ((∑ m, a m) * (1 / N)) * a n + ((∑ m, a m) * (1 / N)) * ((∑ m, a m) * (1 / N)) :=
    fun n => by ring
  simp only [h1]
  rw [Finset.sum_add_distrib, Finset.sum_sub_distrib, ← Finset.mul_sum, Finset.sum_const, Finset.card_univ,
    nsmul_eq_mul, hN]
  field_simp
  ring

/-- Column sums times a constant, pulled through a weight vector. -/
theorem mean_pull (xr : ι → κ → ℝ) (w : κ → ℝ) (c : ℝ) :
    ∑ k, ((∑ n, xr n k) * c) * w k = (∑ n, ∑ k, xr n k * w k) * c := by
  rw [Finset.sum_comm, Finset.sum_mul]
  refine Finset.sum_congr rfl fun k _ => ?_
  rw [← Finset.sum_mul]; ring

/-- The quadratic form of the second-moment matrix is the sum of the squared products. -/
theorem m2_pull (xr : ι → κ → ℝ) (w : κ → ℝ) (c : ℝ) :
    ∑ k, w k * ∑ k', ((∑ n, xr n k * xr n k') * c) * w k'
      = (∑ n, (∑ k, xr n k * w k) * (∑ k, xr n k * w k)) * c := by
  simp only [Finset.sum_mul_sum, Finset.sum_mul, Finset.mul_sum]
  symm
  rw [Finset.sum_comm]
  refine Finset.sum_congr rfl fun k _ => ?_
  rw [Finset.sum_comm]
  exact Finset.sum_congr rfl fun k' _ => Finset.sum_congr rfl fun n _ => by ring

end Real

/-! ## The statistics of real inputs, as reals -/

section Coe
variable (xr : Fin 65536 → Fin 128 → ℝ) (wr : Fin 128 → Fin 2048 → ℝ)

theorem card_eq : ((Fintype.card (Fin 65536) : ℕ) : ℝ) = 65536 := by
  rw [Fintype.card_fin]; norm_num

theorem hmat_coe (n : Fin 65536) (j : Fin 2048) :
    hmat (fun n k => (xr n k : EReal)) (fun k j => (wr k j : EReal)) n j
      = ((∑ k, xr n k * wr k j : ℝ) : EReal) := by
  simp only [hmat, hrow, ← EReal.coe_mul, ← coe_sum]

theorem meanR_coe (j : Fin 2048) :
    meanR (fun n k => (xr n k : EReal)) (fun k j => (wr k j : EReal)) j
      = (((∑ n, ∑ k, xr n k * wr k j) * (1 / 65536) : ℝ) : EReal) := by
  simp only [meanR, hmat_coe, nN_eq, Ideal.div_coe (show (65536 : ℝ) ≠ 0 by norm_num), ← EReal.coe_mul, ← coe_sum]

theorem varR_coe (j : Fin 2048) :
    varR (fun n k => (xr n k : EReal)) (fun k j => (wr k j : EReal)) j
      = (((∑ n, ((∑ k, xr n k * wr k j) - (∑ n, ∑ k, xr n k * wr k j) * (1 / 65536))
            * ((∑ k, xr n k * wr k j) - (∑ n, ∑ k, xr n k * wr k j) * (1 / 65536))) * (1 / 65536) : ℝ) : EReal) := by
  simp only [varR, meanR_coe, hmat_coe, nN_eq, Ideal.div_coe (show (65536 : ℝ) ≠ 0 by norm_num), ← EReal.coe_mul,
    ← EReal.coe_sub, ← coe_sum]

theorem meanK_coe (j : Fin 2048) :
    meanK (fun n k => (xr n k : EReal)) (fun k j => (wr k j : EReal)) j
      = ((∑ k, ((∑ n, xr n k) * (1 / 65536)) * wr k j : ℝ) : EReal) := by
  simp only [meanK, sumF, nN_eq, Ideal.div_coe (show (65536 : ℝ) ≠ 0 by norm_num), ← EReal.coe_mul, ← coe_sum]

theorem eh2_coe (j : Fin 2048) :
    eh2 (fun n k => (xr n k : EReal)) (fun k j => (wr k j : EReal)) j
      = ((∑ k, wr k j * ∑ k', ((∑ n, xr n k * xr n k') * (1 / 65536)) * wr k' j : ℝ) : EReal) := by
  simp only [eh2, m2F, nN_eq, Ideal.div_coe (show (65536 : ℝ) ≠ 0 by norm_num), ← EReal.coe_mul, ← coe_sum]

end Coe

/-! ## The six statements -/

variable (x : Fin 65536 → Fin 128 → EReal) (w1 : Fin 128 → Fin 2048 → EReal)

/-- A matrix of real entries is the image of a real matrix. -/
theorem exists_real {α β : Type*} (f : α → β → EReal) (hf : ∀ a b, Fin' (f a b)) :
    ∃ g : α → β → ℝ, f = fun a b => (g a b : EReal) :=
  ⟨fun a b => (f a b).toReal, by funext a b; exact (EReal.coe_toReal (hf a b).1 (hf a b).2).symm⟩

theorem hmat_fin (hx : ∀ n k, Fin' (x n k)) (hw : ∀ k j, Fin' (w1 k j)) (n : Fin 65536) (j : Fin 2048) :
    Fin' (hmat x w1 n j) := by
  obtain ⟨xr, rfl⟩ := exists_real x hx
  obtain ⟨wr, rfl⟩ := exists_real w1 hw
  rw [hmat_coe]; exact fin'_coe _

theorem meanR_fin (hx : ∀ n k, Fin' (x n k)) (hw : ∀ k j, Fin' (w1 k j)) (j : Fin 2048) :
    Fin' (meanR x w1 j) := by
  obtain ⟨xr, rfl⟩ := exists_real x hx
  obtain ⟨wr, rfl⟩ := exists_real w1 hw
  rw [meanR_coe]; exact fin'_coe _

theorem varR_fin (hx : ∀ n k, Fin' (x n k)) (hw : ∀ k j, Fin' (w1 k j)) (j : Fin 2048) :
    Fin' (varR x w1 j) := by
  obtain ⟨xr, rfl⟩ := exists_real x hx
  obtain ⟨wr, rfl⟩ := exists_real w1 hw
  rw [varR_coe]; exact fin'_coe _

theorem varR_nonneg (hx : ∀ n k, Fin' (x n k)) (hw : ∀ k j, Fin' (w1 k j)) (j : Fin 2048) :
    0 ≤ varR x w1 j := by
  obtain ⟨xr, rfl⟩ := exists_real x hx
  obtain ⟨wr, rfl⟩ := exists_real w1 hw
  rw [varR_coe]
  exact EReal.coe_nonneg.2 (mul_nonneg (Finset.sum_nonneg fun n _ => mul_self_nonneg _) (by norm_num))

theorem meanK_eq_meanR (hx : ∀ n k, Fin' (x n k)) (hw : ∀ k j, Fin' (w1 k j)) (j : Fin 2048) :
    meanK x w1 j = meanR x w1 j := by
  obtain ⟨xr, rfl⟩ := exists_real x hx
  obtain ⟨wr, rfl⟩ := exists_real w1 hw
  rw [meanK_coe, meanR_coe, mean_pull xr (fun k => wr k j)]

theorem varK_eq_varR (hx : ∀ n k, Fin' (x n k)) (hw : ∀ k j, Fin' (w1 k j)) (j : Fin 2048) :
    varK x w1 j = varR x w1 j := by
  have h0 := varR_nonneg x w1 hx hw j
  obtain ⟨xr, rfl⟩ := exists_real x hx
  obtain ⟨wr, rfl⟩ := exists_real w1 hw
  have key : eh2 (fun n k => (xr n k : EReal)) (fun k j => (wr k j : EReal)) j
      - meanK (fun n k => (xr n k : EReal)) (fun k j => (wr k j : EReal)) j
        * meanK (fun n k => (xr n k : EReal)) (fun k j => (wr k j : EReal)) j
      = varR (fun n k => (xr n k : EReal)) (fun k j => (wr k j : EReal)) j := by
    rw [eh2_coe, meanK_coe, varR_coe, ← EReal.coe_mul, ← EReal.coe_sub, mean_pull xr (fun k => wr k j),
      m2_pull xr (fun k => wr k j),
      sum_sq_dev (fun n => ∑ k, xr n k * wr k j) 65536 card_eq (by norm_num)]
  rw [varK, key]
  exact max_eq_left h0

end Cert.Spec

end
-- ==== Proof.AlgRow.lean ====
/-
  One row: the two normalisations and the two log-softmax groupings agree on finite values.
  Every intermediate value of a row is a real number once the inputs are: the variance offset is a positive real,
  so the argument of the square root is a positive real and a quotient by its root is the product with the
  reciprocal root; the six logits are real, so their maximum is real, the exponentials are positive reals, their
  sum is a positive real with a real logarithm, and on reals a − (M + l) = (a − M) − l.
-/
import proofs.«405493_j33827162423889_2_alg».proof.Proof.Spec
import Mathlib.Data.Finset.Fold
import Mathlib.Tactic.Positivity
import Mathlib.Tactic.Ring
import Mathlib.Tactic.Linarith

noncomputable section

namespace Cert.Spec

open Idealize.ShloMosaic

namespace Row

/-! ## Real values inside the extended reals -/

theorem fin_coe (r : ℝ) : Fin' (r : EReal) := ⟨EReal.coe_ne_top r, EReal.coe_ne_bot r⟩

theorem fin_eq_coe {v : EReal} (h : Fin' v) : ∃ r : ℝ, v = (r : EReal) :=
  ⟨v.toReal, (EReal.coe_toReal h.1 h.2).symm⟩

theorem fin_mul {a b : EReal} (ha : Fin' a) (hb : Fin' b) : Fin' (a * b) := by
  obtain ⟨x, rfl⟩ := fin_eq_coe ha
  obtain ⟨y, rfl⟩ := fin_eq_coe hb
  rw [← EReal.coe_mul]
  exact fin_coe _

theorem fin_add {a b : EReal} (ha : Fin' a) (hb : Fin' b) : Fin' (a + b) := by
  obtain ⟨x, rfl⟩ := fin_eq_coe ha
  obtain ⟨y, rfl⟩ := fin_eq_coe hb
  rw [← EReal.coe_add]
  exact fin_coe _

/-- A finite sum of reals, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem fin_sum {ι : Type} (s : Finset ι) (f : ι → EReal) (h : ∀ i, Fin' (f i)) : Fin' (∑ i ∈ s, f i) := by
  have hc : ∀ i ∈ s, f i = (((f i).toReal : ℝ) : EReal) :=
    fun i _ => (EReal.coe_toReal (h i).1 (h i).2).symm
  rw [Finset.sum_congr rfl hc, coe_sum]
  exact fin_coe _

/-! ## The two literals -/

theorem eps_eq : eps = ((10995116 * (2 : ℝ) ^ (-40 : ℤ) : ℝ) : EReal) := by
  simp [eps, Ideal.ofBits, Ideal.ieee, -EReal.coe_mul]

theorem slope_eq : slope = ((13421773 * (2 : ℝ) ^ (-26 : ℤ) : ℝ) : EReal) := by
  simp [slope, Ideal.ofBits, Ideal.ieee, -EReal.coe_mul]

/-- The variance offset is a positive real. -/
theorem eps_real : ∃ e : ℝ, 0 < e ∧ eps = (e : EReal) := ⟨_, by positivity, eps_eq⟩

/-- The rectifier's slope is a real. -/
theorem slope_fin : Fin' slope := by rw [slope_eq]; exact fin_coe _

/-! ## The normalisation -/

/-- With real inputs and a variance that is not negative, the product with the reciprocal root and the quotient
    by the root are the same real. -/
theorem norm_eq {h mean var g b : EReal} (hh : Fin' h) (hm : Fin' mean) (hv : Fin' var) (hv0 : 0 ≤ var)
    (hg : Fin' g) (hb : Fin' b) :
    normK h mean var g b = normR h mean var g b ∧ Fin' (normR h mean var g b) := by
  obtain ⟨x, rfl⟩ := fin_eq_coe hh
  obtain ⟨m, rfl⟩ := fin_eq_coe hm
  obtain ⟨v, rfl⟩ := fin_eq_coe hv
  obtain ⟨γ, rfl⟩ := fin_eq_coe hg
  obtain ⟨β, rfl⟩ := fin_eq_coe hb
  obtain ⟨e, he, hee⟩ := eps_real
  have hv0' : 0 ≤ v := EReal.coe_nonneg.mp hv0
  have hpos : 0 < v + e := by linarith
  have hs : 0 < Real.sqrt (v + e) := Real.sqrt_pos.mpr hpos
  have hK : normK (x : EReal) m v γ β = (((x - m) * (Real.sqrt (v + e))⁻¹ * γ + β : ℝ) : EReal) := by
    unfold normK
    rw [hee, ← EReal.coe_add, Ideal.rsqrt_coe, if_neg (not_lt.mpr hpos.le), if_neg hpos.ne', ← EReal.coe_sub,
      ← EReal.coe_mul, ← EReal.coe_mul, ← EReal.coe_add]
  have hR : normR (x : EReal) m v γ β = (((x - m) * (Real.sqrt (v + e))⁻¹ * γ + β : ℝ) : EReal) := by
    unfold normR
    rw [hee, ← EReal.coe_add, Ideal.sqrt_coe, if_neg (not_lt.mpr hpos.le), Ideal.div_coe hs.ne', one_div,
      ← EReal.coe_sub, ← EReal.coe_mul, ← EReal.coe_mul, ← EReal.coe_add]
  rw [hK, hR]
  exact ⟨rfl, fin_coe _⟩

/-! ## The rectifier, the row of h and the logits keep values real -/

theorem lrelu_fin {v : EReal} (h : Fin' v) : Fin' (lrelu v) := by
  unfold lrelu
  split_ifs
  · exact h
  · exact fin_mul slope_fin h

theorem hrow_fin {xr : Fin 128 → EReal} {w1 : Fin 128 → Fin 2048 → EReal} (hx : ∀ k, Fin' (xr k))
    (hw : ∀ k j, Fin' (w1 k j)) (j : Fin 2048) : Fin' (hrow xr w1 j) :=
  fin_sum _ _ (fun k => fin_mul (hx k) (hw k j))

theorem logit_fin {ha : Fin 2048 → EReal} {w2 : Fin 16 → Fin 128 → Fin 6 → EReal} {bias : Fin 6 → EReal}
    (hha : ∀ j, Fin' (ha j)) (hw2 : ∀ c d s, Fin' (w2 c d s)) (hbias : ∀ s, Fin' (bias s)) (c : Fin 16)
    (s : Fin 6) : Fin' (logit ha w2 bias c s) :=
  fin_add (fin_sum _ _ (fun d => fin_mul (hha _) (hw2 c d s))) (hbias s)

/-! ## The log-softmax -/

/-- The largest of six reals is a real: it is below +∞ because every one is, and above −∞ because the first is. -/
theorem rowMax_fin {f : Fin 6 → EReal} (hf : ∀ s, Fin' (f s)) : Fin' (rowMax f) := by
  constructor
  · apply ne_of_lt
    unfold rowMax
    rw [Finset.fold_max_lt]
    exact ⟨bot_lt_top, fun s _ => lt_top_iff_ne_top.mpr (hf s).1⟩
  · apply ne_of_gt
    unfold rowMax
    rw [Finset.lt_fold_max]
    exact Or.inr ⟨0, Finset.mem_univ _, bot_lt_iff_ne_bot.mpr (hf 0).2⟩

/-- On six real logits the two groupings of the log-softmax agree. -/
theorem lsK_eq_lsR {f : Fin 6 → EReal} (hf : ∀ s, Fin' (f s)) (s : Fin 6) : lsK f s = lsR f s := by
  obtain ⟨m, hm⟩ := fin_eq_coe (rowMax_fin hf)
  obtain ⟨a, ha⟩ : ∃ a : Fin 6 → ℝ, ∀ t, f t = ((a t : ℝ) : EReal) :=
    ⟨fun t => (f t).toReal, fun t => (EReal.coe_toReal (hf t).1 (hf t).2).symm⟩
  have hsum : (∑ t : Fin 6, Ideal.exp (f t - rowMax f))
      = ((∑ t : Fin 6, Real.exp (a t - m) : ℝ) : EReal) := by
    rw [← coe_sum]
    refine Finset.sum_congr rfl (fun t _ => ?_)
    rw [hm, ha t, ← EReal.coe_sub, Ideal.exp_coe]
  have hpos : 0 < ∑ t : Fin 6, Real.exp (a t - m) :=
    Finset.sum_pos (fun t _ => Real.exp_pos _) Finset.univ_nonempty
  unfold lsK lsR
  rw [hsum, Ideal.log_coe, if_neg (not_le.mpr hpos), hm, ha s, ← EReal.coe_add, ← EReal.coe_sub, ← EReal.coe_sub,
    ← EReal.coe_sub]
  congr 1
  ring

end Row

open Row

/-! ## One row -/

theorem rowK_eq_rowR (xr : Fin 128 → EReal) (w1 : Fin 128 → Fin 2048 → EReal) (mean var g b : Fin 2048 → EReal)
    (w2 : Fin 16 → Fin 128 → Fin 6 → EReal) (bias : Fin 6 → EReal) (cat : BitVec 32) (q : Fin 54)
    (hx : ∀ k, Fin' (xr k)) (hw : ∀ k j, Fin' (w1 k j)) (hm : ∀ j, Fin' (mean j)) (hv : ∀ j, Fin' (var j))
    (hv0 : ∀ j, 0 ≤ var j) (hg : ∀ j, Fin' (g j)) (hb : ∀ j, Fin' (b j)) (hw2 : ∀ c d s, Fin' (w2 c d s))
    (hbias : ∀ s, Fin' (bias s)) :
    rowK xr w1 mean var g b w2 bias cat q = rowR xr w1 mean var g b w2 bias cat q := by
  have hn : ∀ j, normK (hrow xr w1 j) (mean j) (var j) (g j) (b j)
        = normR (hrow xr w1 j) (mean j) (var j) (g j) (b j)
      ∧ Fin' (normR (hrow xr w1 j) (mean j) (var j) (g j) (b j)) :=
    fun j => norm_eq (hrow_fin hx hw j) (hm j) (hv j) (hv0 j) (hg j) (hb j)
  have hfun : (fun j => lrelu (normK (hrow xr w1 j) (mean j) (var j) (g j) (b j)))
      = (fun j => lrelu (normR (hrow xr w1 j) (mean j) (var j) (g j) (b j))) :=
    funext (fun j => by rw [(hn j).1])
  have hls : lsK (logit (fun j => lrelu (normR (hrow xr w1 j) (mean j) (var j) (g j) (b j))) w2 bias (ci cat))
      = lsR (logit (fun j => lrelu (normR (hrow xr w1 j) (mean j) (var j) (g j) (b j))) w2 bias (ci cat)) :=
    funext (fun s => lsK_eq_lsR (fun t => logit_fin (fun j => lrelu_fin (hn j).2) hw2 hbias _ t) s)
  unfold rowK rowR
  rw [hfun, hls]

end Cert.Spec

end
-- ==== Proof.Algebra.lean ====
/-
  The kernel's spelling and the reference's spelling of the result agree on finite inputs:
  the statistics are equal, and with equal (finite, nonnegative-variance) statistics each row is.
-/
import proofs.«405493_j33827162423889_2_alg».proof.Proof.AlgStats
import proofs.«405493_j33827162423889_2_alg».proof.Proof.AlgRow

noncomputable section

namespace Cert.Spec

theorem outK_eq_outR (x : Fin 65536 → Fin 128 → EReal) (w1 : Fin 128 → Fin 2048 → EReal) (g b : Fin 2048 → EReal)
    (w2 : Fin 16 → Fin 128 → Fin 6 → EReal) (bias : Fin 6 → EReal) (cat : Fin 65536 → BitVec 32)
    (hx : ∀ n k, Fin' (x n k)) (hw : ∀ k j, Fin' (w1 k j)) (hg : ∀ j, Fin' (g j)) (hb : ∀ j, Fin' (b j))
    (hw2 : ∀ c d s, Fin' (w2 c d s)) (hbias : ∀ s, Fin' (bias s)) (n : Fin 65536) (q : Fin 54) :
    outK x w1 g b w2 bias cat n q = outR x w1 g b w2 bias cat n q := by
  unfold outK outR
  rw [show meanK x w1 = meanR x w1 from funext (meanK_eq_meanR x w1 hx hw),
    show varK x w1 = varR x w1 from funext (varK_eq_varR x w1 hx hw)]
  exact rowK_eq_rowR (x n) w1 (meanR x w1) (varR x w1) g b w2 bias (cat n) q (hx n) hw (meanR_fin x w1 hx hw)
    (varR_fin x w1 hx hw) (varR_nonneg x w1 hx hw) hg hb hw2 hbias

end Cert.Spec

end
-- ==== Proof.PreFacts.lean ====
/-
  What the precondition says of the seven inputs, read back entry by entry.

  The precondition is a conjunction of seven "for all entries" statements: for each of the six real arrays, that the
  absolute value of every entry is strictly below +∞, and for the label array, that every label l satisfies 0 ≤ l and
  l < 16 as a signed 32-bit number. A conjunction of bits is 1 exactly when every bit is 1, so each entry's own
  comparison holds. On the extended reals |x| = max x (−x), and max x (−x) < +∞ rules out both infinities, so x is a
  real; a signed word that is nonnegative and below 16 has an unsigned value below 16.
-/
import proofs.«405493_j33827162423889_2_alg».proof.Pre_finite_inputs
import proofs.«405493_j33827162423889_2_alg».proof.Proof.Gen.Pre_finite_inputs
import proofs.«405493_j33827162423889_2_alg».proof.Proof.Spec
import Idealize.ShloMosaic.Lib.ReduceAll
import Idealize.ShloMosaic.Lib.StableHlo.Predicate
import Idealize.ShloMosaic.Lib.ValueIdx

namespace Cert.PreFacts

open Cert.Pre_finite_inputs Idealize.ShloMosaic Idealize.ShloMosaic.ValueIdx

variable [Cert.Pre_finite_inputs.Facts]

/-- A shape with no axes has exactly one index. -/
instance : Subsingleton S_.Idx := ⟨fun a b => funext fun d => d.elim0⟩

/-- The word 0x7F800000 (sign 0, exponent all ones, significand 0) denotes +∞. -/
theorem top_word : Ideal.ofBits .f32 0x7F800000#32 = ⊤ := by simp [Ideal.ofBits, Ideal.ieee]

/-- If max x (−x) < +∞ then x is neither infinity: at x = +∞ the maximum is +∞, and at x = −∞ it is −(−∞) = +∞. -/
theorem fin_of_abs_lt (x : EReal) (h : Ideal.cmp .olt (max x (-x)) (Ideal.ofBits .f32 0x7F800000#32) = 1#1) :
    Cert.Spec.Fin' x := by
  rw [top_word] at h
  simp only [Ideal.cmp, StableHlo.Predicate.ofBool_eq_one_iff, decide_eq_true_eq] at h
  induction x using EReal.rec with
  | bot => simp at h
  | top => simp at h
  | coe r => exact ⟨EReal.coe_ne_top r, EReal.coe_ne_bot r⟩

/-- One entry of the comparison array |a| < +∞ being 1 says that entry of a is a real. -/
theorem elem_fin {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    Cert.Spec.Fin' (a i) := fin_of_abs_lt (a i) h

/-- The conjunction over all entries of |a| < +∞ being 1 says every entry of a is a real. -/
theorem all_fin {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant S_ .f32 0x7F800000#32)))
      (constantI S_ 1 1#1) hr hu ix0 = 1#1) (i : s.Idx) : Cert.Spec.Fin' (a i) :=
  elem_fin a hb i (Host.reduce_andi_all _ _ hr hu ix0 h i)

/-- A 32-bit word that is ≥ 0 and < 16 as a signed number has its top bit clear, so its unsigned value is the same
    number and is below 16. -/
theorem label_lt (w : BitVec 32) (h0 : IntOp.cmpi .sge w 0#32 = 1#1) (h1 : IntOp.cmpi .slt w 16#32 = 1#1) : w.toNat < 16 := by
  rw [IntOp.cmpi_sge, show (0#32 : BitVec 32).toInt = 0 from by decide] at h0
  have hw : 2 * w.toNat < 2 ^ 32 := BitVec.toInt_pos_iff.1 h0
  have := (StableHlo.Predicate.slt_iff_toNat (a := w) (b := 16#32) (by omega) (by decide)).1 h1
  simpa using this

/-- The conjunction over all labels of (0 ≤ l ∧ l < 16) being 1 says every label's value is below 16. -/
theorem all_label {axes : List (Fin S65536.rank)} (a : IVec S65536 32)
    (hb : S_.BroadcastsInDim S65536 (![] : Fin 0 → Fin S65536.rank)) (hr : S65536.ReducesTo axes S_) (hu : 0 < S_.numel)
    (h : Host.reduce IntOp.andi
        (andi (cmpi .sge a (broadcastInDim S65536 ![] hb (constantI S_ 32 0#32)))
          (cmpi .slt a (broadcastInDim S65536 ![] hb (constantI S_ 32 16#32))))
        (constantI S_ 1 1#1) hr hu ix0 = 1#1) (i : S65536.Idx) : (a i).toNat < 16 := by
  have e := Host.reduce_andi_all _ _ hr hu ix0 h i
  obtain ⟨e0, e1⟩ := IntOp.andi_eq_one.1 e
  exact label_lt (a i) e0 e1

/-- The bitwise "and" of two one-bit scalars is 1 only if both are. -/
theorem andi_split {x y : IVec S_ 1} {j : S_.Idx} (h : andi x y j = 1#1) : x j = 1#1 ∧ y j = 1#1 :=
  IntOp.andi_eq_one.1 h

/-- Under the precondition every entry of the six real inputs is a real number and every label is one of 0, …, 15:
    the precondition is the left-nested conjunction of the seven "for all entries" bits, split from the outside in. -/
theorem of_pre (a0 : FVec Ideal S65536x128 .f32) (a1 : FVec Ideal S128x2048 .f32) (a2 a3 : FVec Ideal S2048 .f32)
    (a4 : FVec Ideal S16x128x6 .f32) (a5 : FVec Ideal S6 .f32) (a6 : IVec S65536 32)
    (h : Cert.Pre_finite_inputs.fn (F := Ideal) a0 a1 a2 a3 a4 a5 a6 = fun _ => 1#1) :
    (∀ n k, Cert.Spec.Fin' (a0 (ix2 n k))) ∧ (∀ k j, Cert.Spec.Fin' (a1 (ix2 k j))) ∧ (∀ j, Cert.Spec.Fin' (a2 (ix1 j))) ∧
      (∀ j, Cert.Spec.Fin' (a3 (ix1 j))) ∧ (∀ c d s, Cert.Spec.Fin' (a4 (ix3 c d s))) ∧ (∀ s, Cert.Spec.Fin' (a5 (ix1 s))) ∧
      (∀ n, (a6 (ix1 n)).toNat < 16) := by
  have h0 := congrFun h ix0
  dsimp only [fn, fn_part1, fn_part2] at h0
  obtain ⟨h05, h6⟩ := andi_split h0
  obtain ⟨h04, h5⟩ := andi_split h05
  obtain ⟨h03, h4⟩ := andi_split h04
  obtain ⟨h02, h3⟩ := andi_split h03
  obtain ⟨h01, h2⟩ := andi_split h02
  obtain ⟨h00, h1⟩ := andi_split h01
  exact ⟨fun n k => all_fin a0 _ _ _ h00 _, fun k j => all_fin a1 _ _ _ h1 _, fun j => all_fin a2 _ _ _ h2 _,
    fun j => all_fin a3 _ _ _ h3 _, fun c d s => all_fin a4 _ _ _ h4 _, fun s => all_fin a5 _ _ _ h5 _,
    fun n => all_label a6 _ _ _ h6 _⟩

end Cert.PreFacts
-- ==== Proof.lean ====
/-
  The certificate: the kernel program and its idealization run and keep their arguments (their generated frames);
  the reference runs (its run, the result dropped); the idealization changed nothing (its ledger is empty); and at
  the extended reals the idealized kernel and the reference, from memories agreeing on the arguments, end with the
  same [65536, 54] array: the kernel's spelling of the specification of the arguments (statistics pulled through the
  product, reciprocal square root, one grouping of the log-softmax) equals the reference's (column mean and variance,
  quotient by the square root, the other grouping) on finite inputs with labels in 0..15.
-/
import proofs.«405493_j33827162423889_2_alg».proof.Defs
import proofs.«405493_j33827162423889_2_alg».proof.Proof.Gen.Kernel
import proofs.«405493_j33827162423889_2_alg».proof.Proof.Gen.Kernel.Frame
import proofs.«405493_j33827162423889_2_alg».proof.Proof.Gen.KernelIdeal
import proofs.«405493_j33827162423889_2_alg».proof.Proof.Gen.KernelIdeal.Frame
import proofs.«405493_j33827162423889_2_alg».proof.Proof.Gen.ReferenceIdeal
import proofs.«405493_j33827162423889_2_alg».proof.Proof.Gen.Pre_finite_inputs
import proofs.«405493_j33827162423889_2_alg».proof.Proof.KRun
import proofs.«405493_j33827162423889_2_alg».proof.Proof.KResult
import proofs.«405493_j33827162423889_2_alg».proof.Proof.RefResult
import proofs.«405493_j33827162423889_2_alg».proof.Proof.Algebra
import proofs.«405493_j33827162423889_2_alg».proof.Proof.PreFacts

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun r h c =>
    ⟨(h c Cert.ReferenceIdeal.main_arg0).trans (Cert.ReferenceIdeal.Value.arg0_eq _),
     (h c Cert.ReferenceIdeal.main_arg1).trans (Cert.ReferenceIdeal.Value.arg1_eq _),
     (h c Cert.ReferenceIdeal.main_arg2).trans (Cert.ReferenceIdeal.Value.arg2_eq _),
     (h c Cert.ReferenceIdeal.main_arg3).trans (Cert.ReferenceIdeal.Value.arg3_eq _),
     (h c Cert.ReferenceIdeal.main_arg4).trans (Cert.ReferenceIdeal.Value.arg4_eq _),
     (h c Cert.ReferenceIdeal.main_arg5).trans (Cert.ReferenceIdeal.Value.arg5_eq _),
     (h c Cert.ReferenceIdeal.main_arg6).trans (Cert.ReferenceIdeal.Value.arg6_eq _)⟩)
    (Cert.ReferenceIdeal.Value.run_main (F := Ideal) m ρ)

theorem preserves : Cert.preserves_Kernel_KernelIdeal := trivial

/-- Both programs end at one array. -/
theorem algebraic : Cert.algebraic_KernelIdeal_ReferenceIdeal := by
  intro m ρ m' ρ' hpre hagree
  have hP := fun c => Cert.PreFacts.of_pre _ _ _ _ _ _ _ (hpre c)
  refine ⟨fun c => Cert.KernelIdeal.Value.resultOf
      (fun n k => (m ((c.tc : Thread Cert.KernelIdeal.nD Cert.KernelIdeal.τ).loc Cert.KernelIdeal.main_arg0)) (ix2 n k)) (fun k j => (m ((c.tc : Thread Cert.KernelIdeal.nD Cert.KernelIdeal.τ).loc Cert.KernelIdeal.main_arg1)) (ix2 k j))
      (fun j => (m ((c.tc : Thread Cert.KernelIdeal.nD Cert.KernelIdeal.τ).loc Cert.KernelIdeal.main_arg2)) (ix1 j)) (fun j => (m ((c.tc : Thread Cert.KernelIdeal.nD Cert.KernelIdeal.τ).loc Cert.KernelIdeal.main_arg3)) (ix1 j))
      (fun cc d s => (m ((c.tc : Thread Cert.KernelIdeal.nD Cert.KernelIdeal.τ).loc Cert.KernelIdeal.main_arg4)) (ix3 cc d s)) (fun s => (m ((c.tc : Thread Cert.KernelIdeal.nD Cert.KernelIdeal.τ).loc Cert.KernelIdeal.main_arg5)) (ix1 s))
      (fun n => (m ((c.tc : Thread Cert.KernelIdeal.nD Cert.KernelIdeal.τ).loc Cert.KernelIdeal.main_arg6)) (ix1 n)), ?_, ?_⟩
  · exact (θ_run Cert.KernelIdeal.defs _ _).mono
      (fun r h c => ⟨(h c).1.trans (Cert.KernelIdeal.Result.result_eq m ρ c (hP c).2.2.2.2.2.2), (h c).2⟩)
      (Cert.KernelIdeal.Run.run_named (F := Ideal) m ρ)
  · refine (θ_run Cert.ReferenceIdeal.defs _ _).mono (fun r h c => ⟨?_,
      (h c Cert.ReferenceIdeal.main_arg0).trans (Cert.ReferenceIdeal.Value.arg0_eq _),
      (h c Cert.ReferenceIdeal.main_arg1).trans (Cert.ReferenceIdeal.Value.arg1_eq _),
      (h c Cert.ReferenceIdeal.main_arg2).trans (Cert.ReferenceIdeal.Value.arg2_eq _),
      (h c Cert.ReferenceIdeal.main_arg3).trans (Cert.ReferenceIdeal.Value.arg3_eq _),
      (h c Cert.ReferenceIdeal.main_arg4).trans (Cert.ReferenceIdeal.Value.arg4_eq _),
      (h c Cert.ReferenceIdeal.main_arg5).trans (Cert.ReferenceIdeal.Value.arg5_eq _),
      (h c Cert.ReferenceIdeal.main_arg6).trans (Cert.ReferenceIdeal.Value.arg6_eq _)⟩)
      (Cert.ReferenceIdeal.Value.run_main (F := Ideal) m' ρ')
    obtain ⟨a0, a1, a2, a3, a4, a5, a6⟩ := hagree c
    obtain ⟨f0, f1, f2, f3, f4, f5, f6⟩ := hP c
    refine (h c Cert.ReferenceIdeal.main_v90).trans ((Cert.ReferenceIdeal.Value.out_eq _).trans ?_)
    funext i
    obtain ⟨n, q, rfl⟩ : ∃ (n : Fin 65536) (q : Fin 54), i = ix2 n q := ⟨i 0, i 1, eq_ix2 i⟩
    show Cert.ReferenceIdeal.Stage.out (Cert.ReferenceIdeal.Stage.lsm (Cert.ReferenceIdeal.Stage.logits
        (Cert.ReferenceIdeal.Stage.hact (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))) (m' ((c.tc : Thread Cert.ReferenceIdeal.nD Cert.ReferenceIdeal.τ).loc Cert.ReferenceIdeal.main_arg6)) (ix2 n q) = _
    rw [a0, a1, a2, a3, a4, a5, a6]
    rw [Cert.ReferenceIdeal.Result.stages_apply _ _ _ _ _ _ _ f6 n q]
    exact (Cert.Spec.outK_eq_outR _ _ _ _ _ _ _ f0 f1 f2 f3 f4 f5 n q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
